-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v38)) (v2 : (c : Dev Cert.KernelIdeal.nD) → Buf (Elt Ideal) ((c.tc : Thread Cert.KernelIdeal.nD Cert.KernelIdeal.τ).loc Cert.KernelIdeal.main_v57_0)) (v3 : (c : Dev Cert.KernelIdeal.nD) → Buf (Elt Ideal) ((c.tc : Thread Cert.KernelIdeal.nD Cert.KernelIdeal.τ).loc Cert.KernelIdeal.main_v57_1)) (v4 : (c : Dev Cert.KernelIdeal.nD) → Buf (Elt Ideal) ((c.tc : Thread Cert.KernelIdeal.nD Cert.KernelIdeal.τ).loc Cert.KernelIdeal.main_v58_0)) (v5 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_v57_0) = v2 c
          ∧ r.2.mem ((c.tc : Thread Cert.KernelIdeal.nD Cert.KernelIdeal.τ).loc Cert.KernelIdeal.main_v57_1) = v3 c
          ∧ r.2.mem ((c.tc : Thread Cert.KernelIdeal.nD Cert.KernelIdeal.τ).loc Cert.KernelIdeal.main_v58_0) = v4 c
          ∧ r.2.mem ((c.tc : Thread Cert.KernelIdeal.nD Cert.KernelIdeal.τ).loc Cert.KernelIdeal.main_v61) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_v74) = v3 c
          ∧ r.2.mem ((c.tc : Thread Cert.ReferenceIdeal.nD Cert.ReferenceIdeal.τ).loc Cert.ReferenceIdeal.main_v76) = v4 c
          ∧ r.2.mem ((c.tc : Thread Cert.ReferenceIdeal.nD Cert.ReferenceIdeal.τ).loc Cert.ReferenceIdeal.main_v78) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S2x524288 : Shape := ⟨2, ![2, 524288]⟩
abbrev S2x131072 : Shape := ⟨2, ![2, 131072]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128x64 .f32) (main_arg7 : FVec F S64 .f32) (main_arg8 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S16384x128 .f32) (main_arg1 : IVec S2x524288 32) (main_arg2 : IVec S2x131072 32) (main_arg3 : FVec F S128x128 .f32) (main_arg4 : FVec F S128 .f32) (main_arg5 : FVec F S128x128 .f32) (main_arg6 : FVec F S128x64 .f32) (main_arg7 : FVec F S64 .f32) (main_arg8 : FVec F S128x64 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S16384x128 : Shape := ⟨2, ![16384, 128]⟩
abbrev S2x524288 : Shape := ⟨2, ![2, 524288]⟩
abbrev S2x131072 : Shape := ⟨2, ![2, 131072]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x524288 : Shape := ⟨2, ![1, 524288]⟩
abbrev S524288 : Shape := ⟨1, ![524288]⟩
abbrev S_ : Shape := ⟨0, ![]⟩
abbrev S16384 : Shape := ⟨1, ![16384]⟩
abbrev S524288x1 : Shape := ⟨2, ![524288, 1]⟩
abbrev S16384x1 : Shape := ⟨2, ![16384, 1]⟩
abbrev S524288x128 : Shape := ⟨2, ![524288, 128]⟩
abbrev S2048x128 : Shape := ⟨2, ![2048, 128]⟩
abbrev S1x128 : Shape := ⟨2, ![1, 128]⟩
abbrev S16384x64 : Shape := ⟨2, ![16384, 64]⟩
abbrev S2048x64 : Shape := ⟨2, ![2048, 64]⟩
abbrev S1x64 : Shape := ⟨2, ![1, 64]⟩
abbrev S1x131072 : Shape := ⟨2, ![1, 131072]⟩
abbrev S131072 : Shape := ⟨1, ![131072]⟩
abbrev S131072x1 : Shape := ⟨2, ![131072, 1]⟩
abbrev S131072x64 : Shape := ⟨2, ![131072, 64]⟩
abbrev S4096x64 : Shape := ⟨2, ![4096, 64]⟩
abbrev S4096 : Shape := ⟨1, ![4096]⟩
abbrev S16384x16384 : Shape := ⟨2, ![16384, 16384]⟩
abbrev S1024x64 : Shape := ⟨2, ![1024, 64]⟩
abbrev S1024x1024 : Shape := ⟨2, ![1024, 1024]⟩
abbrev S64x1024 : Shape := ⟨2, ![64, 1024]⟩

abbrev nBuf : Space → Nat
  | .hbm => 88
  | .vmem => 34
  | .smem => 0
  | _ => 0

abbrev bufTy : (tb : Table) → Fin (tcTables nBuf tb) → BufTy
  | .hbm, ⟨0, _⟩ => ⟨S16384x128, .f32⟩
  | .hbm, ⟨1, _⟩ => ⟨S2x524288, .i32⟩
  | .hbm, ⟨2, _⟩ => ⟨S2x131072, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S1x524288, .i32⟩
  | .hbm, ⟨10, _⟩ => ⟨S524288, .i32⟩
  | .hbm, ⟨11, _⟩ => ⟨S1x524288, .i32⟩
  | .hbm, ⟨12, _⟩ => ⟨S524288, .i32⟩
  | .hbm, ⟨13, _⟩ => ⟨S_, .f32⟩
  | .hbm, ⟨14, _⟩ => ⟨S524288, .f32⟩
  | .hbm, ⟨15, _⟩ => ⟨S_, .f32⟩
  | .hbm, ⟨16, _⟩ => ⟨S16384, .f32⟩
  | .hbm, ⟨17, _⟩ => ⟨S524288x1, .i32⟩
  | .hbm, ⟨18, _⟩ => ⟨S16384, .f32⟩
  | .hbm, ⟨19, _⟩ => ⟨S_, .f32⟩
  | .hbm, ⟨20, _⟩ => ⟨S16384, .f32⟩
  | .hbm, ⟨21, _⟩ => ⟨S16384, .f32⟩
  | .hbm, ⟨22, _⟩ => ⟨S_, .f32⟩
  | .hbm, ⟨23, _⟩ => ⟨S16384, .f32⟩
  | .hbm, ⟨24, _⟩ => ⟨S16384, .f32⟩
  | .hbm, ⟨25, _⟩ => ⟨S16384x1, .f32⟩
  | .hbm, ⟨26, _⟩ => ⟨S_, .i32⟩
  | .hbm, ⟨27, _⟩ => ⟨S524288, .i32⟩
  | .hbm, ⟨28, _⟩ => ⟨S524288, .i1⟩
  | .hbm, ⟨29, _⟩ => ⟨S_, .i32⟩
  | .hbm, ⟨30, _⟩ => ⟨S524288, .i32⟩
  | .hbm, ⟨31, _⟩ => ⟨S524288, .i32⟩
  | .hbm, ⟨32, _⟩ => ⟨S524288, .i32⟩
  | .hbm, ⟨33, _⟩ => ⟨S524288x1, .i32⟩
  | .hbm, ⟨34, _⟩ => ⟨S524288x128, .f32⟩
  | .hbm, ⟨35, _⟩ => ⟨S_, .f32⟩
  | .hbm, ⟨36, _⟩ => ⟨S16384x128, .f32⟩
  | .hbm, ⟨37, _⟩ => ⟨S524288x1, .i32⟩
  | .hbm, ⟨38, _⟩ => ⟨S16384x128, .f32⟩
  | .hbm, ⟨39, _⟩ => ⟨S16384x128, .f32⟩
  | .hbm, ⟨40, _⟩ => ⟨S16384x128, .f32⟩
  | .hbm, ⟨41, _⟩ => ⟨S16384x128, .f32⟩
  | .hbm, ⟨42, _⟩ => ⟨S_, .i32⟩
  | .hbm, ⟨43, _⟩ => ⟨S524288, .i32⟩
  | .hbm, ⟨44, _⟩ => ⟨S524288, .i1⟩
  | .hbm, ⟨45, _⟩ => ⟨S_, .i32⟩
  | .hbm, ⟨46, _⟩ => ⟨S524288, .i32⟩
  | .hbm, ⟨47, _⟩ => ⟨S524288, .i32⟩
  | .hbm, ⟨48, _⟩ => ⟨S524288, .i32⟩
  | .hbm, ⟨49, _⟩ => ⟨S524288x1, .i32⟩
  | .hbm, ⟨50, _⟩ => ⟨S524288x128, .f32⟩
  | .hbm, ⟨51, _⟩ => ⟨S_, .f32⟩
  | .hbm, ⟨52, _⟩ => ⟨S16384x128, .f32⟩
  | .hbm, ⟨53, _⟩ => ⟨S524288x1, .i32⟩
  | .hbm, ⟨54, _⟩ => ⟨S16384x128, .f32⟩
  | .hbm, ⟨55, _⟩ => ⟨S16384x128, .f32⟩
  | .hbm, ⟨56, _⟩ => ⟨S16384x128, .f32⟩
  | .hbm, ⟨57, _⟩ => ⟨S16384x64, .f32⟩
  | .hbm, ⟨58, _⟩ => ⟨S1x131072, .i32⟩
  | .hbm, ⟨59, _⟩ => ⟨S131072, .i32⟩
  | .hbm, ⟨60, _⟩ => ⟨S1x131072, .i32⟩
  | .hbm, ⟨61, _⟩ => ⟨S131072, .i32⟩
  | .hbm, ⟨62, _⟩ => ⟨S_, .i32⟩
  | .hbm, ⟨63, _⟩ => ⟨S131072, .i32⟩
  | .hbm, ⟨64, _⟩ => ⟨S131072, .i1⟩
  | .hbm, ⟨65, _⟩ => ⟨S_, .i32⟩
  | .hbm, ⟨66, _⟩ => ⟨S131072, .i32⟩
  | .hbm, ⟨67, _⟩ => ⟨S131072, .i32⟩
  | .hbm, ⟨68, _⟩ => ⟨S131072, .i32⟩
  | .hbm, ⟨69, _⟩ => ⟨S131072x1, .i32⟩
  | .hbm, ⟨70, _⟩ => ⟨S131072x64, .f32⟩
  | .hbm, ⟨71, _⟩ => ⟨S_, .i32⟩
  | .hbm, ⟨72, _⟩ => ⟨S131072, .i32⟩
  | .hbm, ⟨73, _⟩ => ⟨S131072, .i1⟩
  | .hbm, ⟨74, _⟩ => ⟨S_, .i32⟩
  | .hbm, ⟨75, _⟩ => ⟨S131072, .i32⟩
  | .hbm, ⟨76, _⟩ => ⟨S131072, .i32⟩
  | .hbm, ⟨77, _⟩ => ⟨S131072, .i32⟩
  | .hbm, ⟨78, _⟩ => ⟨S131072x1, .i32⟩
  | .hbm, ⟨79, _⟩ => ⟨S131072x64, .f32⟩
  | .hbm, ⟨80, _⟩ => ⟨S131072x64, .f32⟩
  | .hbm, ⟨81, _⟩ => ⟨S131072, .f32⟩
  | .hbm, ⟨82, _⟩ => ⟨S16384x16384, .f32⟩
  | .hbm, ⟨83, _⟩ => ⟨S16384x16384, .i32⟩
  | .hbm, ⟨84, _⟩ => ⟨S_, .i32⟩
  | .hbm, ⟨85, _⟩ => ⟨S16384x16384, .i32⟩
  | .hbm, ⟨86, _⟩ => ⟨S16384x16384, .i1⟩
  | .hbm, ⟨87, _⟩ => ⟨S16384x16384, .i1⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S128x64, .f32⟩
  | .local _ .vmem, ⟨14, _⟩ => ⟨S128x64, .f32⟩
  | .local _ .vmem, ⟨15, _⟩ => ⟨S64, .f32⟩
  | .local _ .vmem, ⟨16, _⟩ => ⟨S2048x64, .f32⟩
  | .local _ .vmem, ⟨17, _⟩ => ⟨S2048x64, .f32⟩
  | .local _ .vmem, ⟨18, _⟩ => ⟨S4096x64, .f32⟩
  | .local _ .vmem, ⟨19, _⟩ => ⟨S4096x64, .f32⟩
  | .local _ .vmem, ⟨20, _⟩ => ⟨S4096x64, .f32⟩
  | .local _ .vmem, ⟨21, _⟩ => ⟨S4096x64, .f32⟩
  | .local _ .vmem, ⟨22, _⟩ => ⟨S4096x64, .f32⟩
  | .local _ .vmem, ⟨23, _⟩ => ⟨S4096x64, .f32⟩
  | .local _ .vmem, ⟨24, _⟩ => ⟨S4096, .f32⟩
  | .local _ .vmem, ⟨25, _⟩ => ⟨S4096, .f32⟩
  | .local _ .vmem, ⟨26, _⟩ => ⟨S1024x64, .f32⟩
  | .local _ .vmem, ⟨27, _⟩ => ⟨S1024x64, .f32⟩
  | .local _ .vmem, ⟨28, _⟩ => ⟨S1024x64, .f32⟩
  | .local _ .vmem, ⟨29, _⟩ => ⟨S1024x64, .f32⟩
  | .local _ .vmem, ⟨30, _⟩ => ⟨S1024x1024, .f32⟩
  | .local _ .vmem, ⟨31, _⟩ => ⟨S1024x1024, .f32⟩
  | .local _ .vmem, ⟨32, _⟩ => ⟨S1024x1024, .i32⟩
  | .local _ .vmem, ⟨33, _⟩ => ⟨S1024x1024, .i32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_8 : Ref sig .tc := ⟨.hbm, 62, rfl⟩
abbrev main_v43 : Ref sig .tc := ⟨.hbm, 63, rfl⟩
abbrev main_v44 : Ref sig .tc := ⟨.hbm, 64, rfl⟩
abbrev main_c_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_c_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57_0 : Ref sig .tc := ⟨.hbm, 80, rfl⟩
abbrev main_v57_1 : Ref sig .tc := ⟨.hbm, 81, rfl⟩
abbrev main_v58_0 : Ref sig .tc := ⟨.hbm, 82, rfl⟩
abbrev main_v58_1 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![16, 16], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x1024 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S_S16384 : S_.BroadcastsInDim S16384 (![] : Fin 0 → Fin S16384.rank)
  bcast_S524288_S524288x1_0 : S524288.BroadcastsInDim S524288x1 (![0] : Fin 1 → Fin S524288x1.rank)
  bcast_S16384_S16384x1_0 : S16384.BroadcastsInDim S16384x1 (![0] : Fin 1 → Fin S16384x1.rank)
  bcast_S_S16384x128 : S_.BroadcastsInDim S16384x128 (![] : Fin 0 → Fin S16384x128.rank)
  bcast_S16384x1_S16384x128_0_1 : S16384x1.BroadcastsInDim S16384x128 (![0, 1] : Fin 2 → Fin S16384x128.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  reduces_S4096x64_S4096 : S4096x64.Reduces [1] S4096
  inb_S4096_S4096_0 : ∀ a, (![0] : Fin 1 → Nat) a + S4096.size a ≤ S4096.size a
  h_S4096 : 0 < S4096.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  transposes_S1024x64_p1_0_S64x1024 : S1024x64.Transposes [1, 0] S64x1024
  inb_S1024x1024_S1024x1024_0_0 : ∀ a, (![0, 0] : Fin 2 → Nat) a + S1024x1024.size a ≤ S1024x1024.size a
  h_S1024x1024 : 0 < S1024x1024.numel
  natLt_1_32 : 1 < 32
  bcast_S_S16384x16384 : S_.BroadcastsInDim S16384x16384 (![] : Fin 0 → Fin S16384x16384.rank)
  scatter_S16384_S524288x1_S524288_n_0_0_1_wf : ScatterDims.WF S16384 S524288x1 S524288 [] [0] [0] 1
  gather_S16384x128_S524288x1_S524288x128_1_0_n_n_0_1_1128_wf : GatherDims.WF S16384x128 S524288x1 S524288x128 [1] [0] [] [0] [] 1 ![1, 128]
  scatter_S16384x128_S524288x1_S524288x128_1_0_0_1_wf : ScatterDims.WF S16384x128 S524288x1 S524288x128 [1] [0] [0] 1
  dot_S2048x128_S128x128_S2048x128_1_0_0_1_n_n_wf : DotDims.WF S2048x128 S128x128 S2048x128 [1] [0] [0] [1] [] []
  dot_S2048x128_S128x64_S2048x64_1_0_0_1_n_n_wf : DotDims.WF S2048x128 S128x64 S2048x64 [1] [0] [0] [1] [] []
  gather_S16384x64_S131072x1_S131072x64_1_0_n_n_0_1_164_wf : GatherDims.WF S16384x64 S131072x1 S131072x64 [1] [0] [] [0] [] 1 ![1, 64]
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .f32 = 32 ∨ (Rect.block (s := S16384x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S16384x128.size a
  hwx0_1 : ∀ i : grid0.Coords, EltTy.bits .f32 = 32 ∨ (Rect.block (s := S16384x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S16384x128.size a
  hwx0_5 : ∀ i : grid0.Coords, EltTy.bits .f32 = 32 ∨ (Rect.block (s := S16384x128) S2048x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S16384x128.size a
  hwx1_0 : ∀ i : grid1.Coords, EltTy.bits .f32 = 32 ∨ (Rect.block (s := S16384x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S16384x128.size a
  hwx1_1 : ∀ i : grid1.Coords, EltTy.bits .f32 = 32 ∨ (Rect.block (s := S16384x128) S2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x64.size a ≤ S16384x64.size a
  hwx1_5 : ∀ i : grid1.Coords, EltTy.bits .f32 = 32 ∨ (Rect.block (s := S16384x64) S2048x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x64.size a ≤ S131072x64.size a
  hwx2_0 : ∀ i : grid2.Coords, EltTy.bits .f32 = 32 ∨ (Rect.block (s := S131072x64) S4096x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x64.size a ≤ S131072x64.size a
  hwx2_1 : ∀ i : grid2.Coords, EltTy.bits .f32 = 32 ∨ (Rect.block (s := S131072x64) S4096x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x64.size a ≤ S131072x64.size a
  hwx2_2 : ∀ i : grid2.Coords, EltTy.bits .f32 = 32 ∨ (Rect.block (s := S131072x64) S4096x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096.size a ≤ S131072.size a
  hwx2_3 : ∀ i : grid2.Coords, EltTy.bits .f32 = 32 ∨ (Rect.block (s := S131072) S4096.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x64.size a ≤ S16384x64.size a
  hwx3_0 : ∀ i : grid3.Coords, EltTy.bits .f32 = 32 ∨ (Rect.block (s := S16384x64) S1024x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x64.size a ≤ S16384x64.size a
  hwx3_1 : ∀ i : grid3.Coords, EltTy.bits .f32 = 32 ∨ (Rect.block (s := S16384x64) S1024x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S16384x16384.size a
  hwx3_2 : ∀ i : grid3.Coords, EltTy.bits .f32 = 32 ∨ (Rect.block (s := S16384x16384) S1024x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S16384x16384.size a
  hwx3_3 : ∀ i : grid3.Coords, EltTy.bits .i32 = 32 ∨ (Rect.block (s := S16384x16384) S1024x1024.size (cc3_transform_3 i) (hinb3_3 i)).WholeWords (EltTy.packing .i32)

variable [Facts₀]

def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def gather_S16384x128_S524288x1_S524288x128_1_0_n_n_0_1_1128 : GatherDims S16384x128 S524288x1 S524288x128 where
  offsetDims := [1]
  collapsedSliceDims := [0]
  operandBatchingDims := []
  startIndicesBatchingDims := []
  startIndexMap := [0]
  indexVectorDim := 1
  sliceSizes := ![1, 128]
  wf := gather_S16384x128_S524288x1_S524288x128_1_0_n_n_0_1_1128_wf
def scatter_S16384x128_S524288x1_S524288x128_1_0_0_1 : ScatterDims S16384x128 S524288x1 S524288x128 where
  updateWindowDims := [1]
  insertedWindowDims := [0]
  scatterDimsToOperandDims := [0]
  indexVectorDim := 1
  wf := scatter_S16384x128_S524288x1_S524288x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def gather_S16384x64_S131072x1_S131072x64_1_0_n_n_0_1_164 : GatherDims S16384x64 S131072x1 S131072x64 where
  offsetDims := [1]
  collapsedSliceDims := [0]
  operandBatchingDims := []
  startIndicesBatchingDims := []
  startIndexMap := [0]
  indexVectorDim := 1
  sliceSizes := ![1, 64]
  wf := gather_S16384x64_S131072x1_S131072x64_1_0_n_n_0_1_164_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_v24) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2048x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S2048x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v49) S4096x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S4096x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57_0) S4096x64.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v57_1) S4096.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v38) S1024x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S1024x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v58_0) S1024x1024.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58_1) S1024x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S16384x128 : Shape := ⟨2, ![16384, 128]⟩
abbrev S2x524288 : Shape := ⟨2, ![2, 524288]⟩
abbrev S2x131072 : Shape := ⟨2, ![2, 131072]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x524288 : Shape := ⟨2, ![1, 524288]⟩
abbrev S524288 : Shape := ⟨1, ![524288]⟩
abbrev S_ : Shape := ⟨0, ![]⟩
abbrev S524288x1 : Shape := ⟨2, ![524288, 1]⟩
abbrev S524288x128 : Shape := ⟨2, ![524288, 128]⟩
abbrev S16384 : Shape := ⟨1, ![16384]⟩
abbrev S16384x1 : Shape := ⟨2, ![16384, 1]⟩
abbrev S1x128 : Shape := ⟨2, ![1, 128]⟩
abbrev S16384x64 : Shape := ⟨2, ![16384, 64]⟩
abbrev S1x64 : Shape := ⟨2, ![1, 64]⟩
abbrev S1x131072 : Shape := ⟨2, ![1, 131072]⟩
abbrev S131072 : Shape := ⟨1, ![131072]⟩
abbrev S131072x1 : Shape := ⟨2, ![131072, 1]⟩
abbrev S131072x64 : Shape := ⟨2, ![131072, 64]⟩
abbrev S64x16384 : Shape := ⟨2, ![64, 16384]⟩
abbrev S16384x16384 : Shape := ⟨2, ![16384, 16384]⟩

abbrev nBuf : Space → Nat
  | .hbm => 108
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S2x524288, .i32⟩
  | .hbm, ⟨2, _⟩ => ⟨S2x131072, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S1x524288, .i32⟩
  | .hbm, ⟨10, _⟩ => ⟨S524288, .i32⟩
  | .hbm, ⟨11, _⟩ => ⟨S1x524288, .i32⟩
  | .hbm, ⟨12, _⟩ => ⟨S524288, .i32⟩
  | .hbm, ⟨13, _⟩ => ⟨S_, .i32⟩
  | .hbm, ⟨14, _⟩ => ⟨S524288, .i32⟩
  | .hbm, ⟨15, _⟩ => ⟨S524288, .i1⟩
  | .hbm, ⟨16, _⟩ => ⟨S_, .i32⟩
  | .hbm, ⟨17, _⟩ => ⟨S524288, .i32⟩
  | .hbm, ⟨18, _⟩ => ⟨S524288, .i32⟩
  | .hbm, ⟨19, _⟩ => ⟨S524288, .i32⟩
  | .hbm, ⟨20, _⟩ => ⟨S524288x1, .i32⟩
  | .hbm, ⟨21, _⟩ => ⟨S524288x128, .f32⟩
  | .hbm, ⟨22, _⟩ => ⟨S_, .f32⟩
  | .hbm, ⟨23, _⟩ => ⟨S16384x128, .f32⟩
  | .hbm, ⟨24, _⟩ => ⟨S524288x1, .i32⟩
  | .hbm, ⟨25, _⟩ => ⟨S16384x128, .f32⟩
  | .hbm, ⟨26, _⟩ => ⟨S_, .f32⟩
  | .hbm, ⟨27, _⟩ => ⟨S524288, .f32⟩
  | .hbm, ⟨28, _⟩ => ⟨S_, .f32⟩
  | .hbm, ⟨29, _⟩ => ⟨S16384, .f32⟩
  | .hbm, ⟨30, _⟩ => ⟨S524288x1, .i32⟩
  | .hbm, ⟨31, _⟩ => ⟨S16384, .f32⟩
  | .hbm, ⟨32, _⟩ => ⟨S_, .f32⟩
  | .hbm, ⟨33, _⟩ => ⟨S16384, .f32⟩
  | .hbm, ⟨34, _⟩ => ⟨S16384, .f32⟩
  | .hbm, ⟨35, _⟩ => ⟨S16384x1, .f32⟩
  | .hbm, ⟨36, _⟩ => ⟨S16384x128, .f32⟩
  | .hbm, ⟨37, _⟩ => ⟨S16384x128, .f32⟩
  | .hbm, ⟨38, _⟩ => ⟨S16384x128, .f32⟩
  | .hbm, ⟨39, _⟩ => ⟨S1x128, .f32⟩
  | .hbm, ⟨40, _⟩ => ⟨S16384x128, .f32⟩
  | .hbm, ⟨41, _⟩ => ⟨S16384x128, .f32⟩
  | .hbm, ⟨42, _⟩ => ⟨S16384x128, .f32⟩
  | .hbm, ⟨43, _⟩ => ⟨S16384x128, .f32⟩
  | .hbm, ⟨44, _⟩ => ⟨S_, .f32⟩
  | .hbm, ⟨45, _⟩ => ⟨S16384x128, .f32⟩
  | .hbm, ⟨46, _⟩ => ⟨S16384x128, .f32⟩
  | .hbm, ⟨47, _⟩ => ⟨S_, .i32⟩
  | .hbm, ⟨48, _⟩ => ⟨S524288, .i32⟩
  | .hbm, ⟨49, _⟩ => ⟨S524288, .i1⟩
  | .hbm, ⟨50, _⟩ => ⟨S_, .i32⟩
  | .hbm, ⟨51, _⟩ => ⟨S524288, .i32⟩
  | .hbm, ⟨52, _⟩ => ⟨S524288, .i32⟩
  | .hbm, ⟨53, _⟩ => ⟨S524288, .i32⟩
  | .hbm, ⟨54, _⟩ => ⟨S524288x1, .i32⟩
  | .hbm, ⟨55, _⟩ => ⟨S524288x128, .f32⟩
  | .hbm, ⟨56, _⟩ => ⟨S_, .f32⟩
  | .hbm, ⟨57, _⟩ => ⟨S16384x128, .f32⟩
  | .hbm, ⟨58, _⟩ => ⟨S524288x1, .i32⟩
  | .hbm, ⟨59, _⟩ => ⟨S16384x128, .f32⟩
  | .hbm, ⟨60, _⟩ => ⟨S_, .f32⟩
  | .hbm, ⟨61, _⟩ => ⟨S524288, .f32⟩
  | .hbm, ⟨62, _⟩ => ⟨S_, .f32⟩
  | .hbm, ⟨63, _⟩ => ⟨S16384, .f32⟩
  | .hbm, ⟨64, _⟩ => ⟨S524288x1, .i32⟩
  | .hbm, ⟨65, _⟩ => ⟨S16384, .f32⟩
  | .hbm, ⟨66, _⟩ => ⟨S_, .f32⟩
  | .hbm, ⟨67, _⟩ => ⟨S16384, .f32⟩
  | .hbm, ⟨68, _⟩ => ⟨S16384, .f32⟩
  | .hbm, ⟨69, _⟩ => ⟨S16384x1, .f32⟩
  | .hbm, ⟨70, _⟩ => ⟨S16384x128, .f32⟩
  | .hbm, ⟨71, _⟩ => ⟨S16384x128, .f32⟩
  | .hbm, ⟨72, _⟩ => ⟨S16384x64, .f32⟩
  | .hbm, ⟨73, _⟩ => ⟨S1x64, .f32⟩
  | .hbm, ⟨74, _⟩ => ⟨S16384x64, .f32⟩
  | .hbm, ⟨75, _⟩ => ⟨S16384x64, .f32⟩
  | .hbm, ⟨76, _⟩ => ⟨S16384x64, .f32⟩
  | .hbm, ⟨77, _⟩ => ⟨S16384x64, .f32⟩
  | .hbm, ⟨78, _⟩ => ⟨S1x131072, .i32⟩
  | .hbm, ⟨79, _⟩ => ⟨S131072, .i32⟩
  | .hbm, ⟨80, _⟩ => ⟨S_, .i32⟩
  | .hbm, ⟨81, _⟩ => ⟨S131072, .i32⟩
  | .hbm, ⟨82, _⟩ => ⟨S131072, .i1⟩
  | .hbm, ⟨83, _⟩ => ⟨S_, .i32⟩
  | .hbm, ⟨84, _⟩ => ⟨S131072, .i32⟩
  | .hbm, ⟨85, _⟩ => ⟨S131072, .i32⟩
  | .hbm, ⟨86, _⟩ => ⟨S131072, .i32⟩
  | .hbm, ⟨87, _⟩ => ⟨S131072x1, .i32⟩
  | .hbm, ⟨88, _⟩ => ⟨S131072x64, .f32⟩
  | .hbm, ⟨89, _⟩ => ⟨S1x131072, .i32⟩
  | .hbm, ⟨90, _⟩ => ⟨S131072, .i32⟩
  | .hbm, ⟨91, _⟩ => ⟨S_, .i32⟩
  | .hbm, ⟨92, _⟩ => ⟨S131072, .i32⟩
  | .hbm, ⟨93, _⟩ => ⟨S131072, .i1⟩
  | .hbm, ⟨94, _⟩ => ⟨S_, .i32⟩
  | .hbm, ⟨95, _⟩ => ⟨S131072, .i32⟩
  | .hbm, ⟨96, _⟩ => ⟨S131072, .i32⟩
  | .hbm, ⟨97, _⟩ => ⟨S131072, .i32⟩
  | .hbm, ⟨98, _⟩ => ⟨S131072x1, .i32⟩
  | .hbm, ⟨99, _⟩ => ⟨S131072x64, .f32⟩
  | .hbm, ⟨100, _⟩ => ⟨S131072x64, .f32⟩
  | .hbm, ⟨101, _⟩ => ⟨S_, .f32⟩
  | .hbm, ⟨102, _⟩ => ⟨S131072, .f32⟩
  | .hbm, ⟨103, _⟩ => ⟨S64x16384, .f32⟩
  | .hbm, ⟨104, _⟩ => ⟨S16384x16384, .f32⟩
  | .hbm, ⟨105, _⟩ => ⟨S_, .f32⟩
  | .hbm, ⟨106, _⟩ => ⟨S16384x16384, .f32⟩
  | .hbm, ⟨107, _⟩ => ⟨S16384x16384, .i1⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_cst : Ref sig .tc := ⟨.hbm, 44, rfl⟩
abbrev main_call0_v0 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_10 : Ref sig .tc := ⟨.hbm, 80, rfl⟩
abbrev main_v57 : Ref sig .tc := ⟨.hbm, 81, rfl⟩
abbrev main_v58 : Ref sig .tc := ⟨.hbm, 82, rfl⟩
abbrev main_c_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_12 : Ref sig .tc := ⟨.hbm, 91, rfl⟩
abbrev main_v66 : Ref sig .tc := ⟨.hbm, 92, rfl⟩
abbrev main_v67 : Ref sig .tc := ⟨.hbm, 93, rfl⟩
abbrev main_c_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_15 : Ref sig .tc := ⟨.hbm, 105, rfl⟩
abbrev main_v77 : Ref sig .tc := ⟨.hbm, 106, rfl⟩
abbrev main_v78 : Ref sig .tc := ⟨.hbm, 107, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  bcast_S_S16384x128 : S_.BroadcastsInDim S16384x128 (![] : Fin 0 → Fin S16384x128.rank)
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x128_0_1 : S16384x1.BroadcastsInDim S16384x128 (![0, 1] : Fin 2 → Fin S16384x128.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  slices_S2x131072_S1x131072_0_0 : S2x131072.Slices ![0, 0] S1x131072
  shapeCasts_S1x131072_S131072 : S1x131072.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  slices_S2x131072_S1x131072_1_0 : S2x131072.Slices ![1, 0] S1x131072
  reducesTo_S131072x64_S131072_d1 : S131072x64.ReducesTo [1] S131072
  h_S_ : 0 < S_.numel
  transposes_S16384x64_S64x16384_1_0 : S16384x64.Transposes [1, 0] S64x16384
  bcast_S_S16384x16384 : S_.BroadcastsInDim S16384x16384 (![] : Fin 0 → Fin S16384x16384.rank)
  gather_S16384x128_S524288x1_S524288x128_1_0_n_n_0_1_1128_wf : GatherDims.WF S16384x128 S524288x1 S524288x128 [1] [0] [] [0] [] 1 ![1, 128]
  scatter_S16384x128_S524288x1_S524288x128_1_0_0_1_wf : ScatterDims.WF S16384x128 S524288x1 S524288x128 [1] [0] [0] 1
  scatter_S16384_S524288x1_S524288_n_0_0_1_wf : ScatterDims.WF S16384 S524288x1 S524288 [] [0] [0] 1
  dot_S16384x128_S128x128_S16384x128_1_0_0_1_n_n_wf : DotDims.WF S16384x128 S128x128 S16384x128 [1] [0] [0] [1] [] []
  dot_S16384x128_S128x64_S16384x64_1_0_0_1_n_n_wf : DotDims.WF S16384x128 S128x64 S16384x64 [1] [0] [0] [1] [] []
  gather_S16384x64_S131072x1_S131072x64_1_0_n_n_0_1_164_wf : GatherDims.WF S16384x64 S131072x1 S131072x64 [1] [0] [] [0] [] 1 ![1, 64]
  dot_S16384x64_S64x16384_S16384x16384_1_0_0_1_n_n_wf : DotDims.WF S16384x64 S64x16384 S16384x16384 [1] [0] [0] [1] [] []

variable [Facts₀]

def gather_S16384x128_S524288x1_S524288x128_1_0_n_n_0_1_1128 : GatherDims S16384x128 S524288x1 S524288x128 where
  offsetDims := [1]
  collapsedSliceDims := [0]
  operandBatchingDims := []
  startIndicesBatchingDims := []
  startIndexMap := [0]
  indexVectorDim := 1
  sliceSizes := ![1, 128]
  wf := gather_S16384x128_S524288x1_S524288x128_1_0_n_n_0_1_1128_wf
def scatter_S16384x128_S524288x1_S524288x128_1_0_0_1 : ScatterDims S16384x128 S524288x1 S524288x128 where
  updateWindowDims := [1]
  insertedWindowDims := [0]
  scatterDimsToOperandDims := [0]
  indexVectorDim := 1
  wf := scatter_S16384x128_S524288x1_S524288x128_1_0_0_1_wf
def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def gather_S16384x64_S131072x1_S131072x64_1_0_n_n_0_1_164 : GatherDims S16384x64 S131072x1 S131072x64 where
  offsetDims := [1]
  collapsedSliceDims := [0]
  operandBatchingDims := []
  startIndicesBatchingDims := []
  startIndexMap := [0]
  indexVectorDim := 1
  sliceSizes := ![1, 64]
  wf := gather_S16384x64_S131072x1_S131072x64_1_0_n_n_0_1_164_wf
def dot_S16384x64_S64x16384_S16384x16384_1_0_0_1_n_n : DotDims S16384x64 S64x16384 S16384x16384 where
  lhsContracting := [1]
  rhsContracting := [0]
  lhsNonContracting := [0]
  rhsNonContracting := [1]
  lhsBatch := []
  rhsBatch := []
  wf := dot_S16384x64_S64x16384_S16384x16384_1_0_0_1_n_n_wf

class Facts : Prop extends Facts₀ where

variable [Facts]
-- ==== Proof.K.Body0.lean ====
/-
  Region 0 (the first SAGE linear layer) as a pipeline body. At a grid point the body reads five input blocks — a
  2048-row slab of the mean-aggregated features, the same rows of the node features, the two 128×128 weights whole and the
  bias row whole — and writes ONE output block: relu((agg · W_l + x · W_r) + b) on those 2048 rows. Stated at a parameter
  `V`, the buffer contents the region is entered from: each window's block is read off its array in `V`, the output
  block is the body's single store as one piece over the whole buffer, and the proof data say that every input buffer is
  left as found and the output buffer ends at that piece.
-/
import proofs.«114604_j2405181685928_1_alg».proof.Proof.Gen.Kernel.Launch
import proofs.«114604_j2405181685928_1_alg».proof.Proof.Gen.Kernel.Skeleton
import proofs.«114604_j2405181685928_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the pipeline fetched there or the
    block index stood still since the last fetch (one statement per window: a window's block shape is read off its number). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole 2048×128 buffer, the whole 128×128 buffer, the whole 128-entry row: the rectangles the body loads and stores. -/
abbrev rA0 : Rect S2048x128 := Rect.unit (s := S2048x128) ![0, 0] S2048x128.size inb_S2048x128_S2048x128_0_0
abbrev rW0 : Rect S128x128 := Rect.unit (s := S128x128) ![0, 0] S128x128.size inb_S128x128_S128x128_0_0
abbrev rB0 : Rect S128 := Rect.unit (s := S128) ![0] S128.size inb_S128_S128_0

/-- The output buffer after the body: its one store, over the whole buffer, of the layer's value on the loaded blocks. -/
def out0_5 (x0 x1 : Vec F S2048x128 .f32) (x2 x3 : Vec F S128x128 .f32) (x4 : Vec F S128 .f32) : Vec F S2048x128 .f32 :=
  View.canon [⟨rA0, k0_pay1 (View.ld x0 rA0) (View.ld x2 rW0) (View.ld x1 rA0) (View.ld x3 rW0) (View.ld x4 rB0)⟩]

/-- The store covers the buffer. -/
theorem cover0_5 (p0 : Vec F S2048x128 .f32) (y : S2048x128.Idx) :
    ∃ pc ∈ ([⟨rA0, p0⟩] : List (View.Piece (Elt F) S2048x128 .f32)), y ∈ pc.1.set :=
  View.cover_of_tiled [⟨rA0, p0⟩] S2048x128.size (by rfl) y

set_option maxHeartbeats 1000000 in
/-- The body on whole buffers, the inputs at known contents and the output at anything: it ends with the inputs as they
    were and the output at `out0_5` of them. -/
theorem sound_kernel0 (c : Dev nD) (E : Set ℕ) (i : grid0.Coords)
    (arg1 : Memref sig .tc .vmem S2048x128 .f32) (harg1 : arg1.IsWhole) (arg2 : Memref sig .tc .vmem S2048x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S2048x128 .f32) (harg6 : arg6.IsWhole)
    (x0 x1 : Vec F S2048x128 .f32) (x2 x3 : Vec F S128x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__sage_linear_kernel i arg1 harg1 arg2 harg2 arg3 harg3 arg4 harg4 arg5 harg5 arg6 harg6) K := by
  simp only [cc0__sage_linear_kernel_eq_skeleton]; unfold cc0__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of pipeline 0 on core `c`: the arrays as the region finds them; after the body every input buffer
    at its block and the output buffer at `out0_5` of the input blocks; the invariant carries only the scoped rest and
    the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Body1.lean ====
/-
  Region 1 (the second SAGE linear layer) as a pipeline body. At a grid point the body reads five input blocks — a
  2048-row slab of the mean-aggregated hidden features, the same rows of the hidden features, the two 128×64 weights whole
  and the 64-entry bias row whole — and writes ONE output block: (agg · W_l + h · W_r) + b on those 2048 rows, no relu. Stated at a parameter
  `V`, the buffer contents the region is entered from: each window's block is read off its array in `V`, the output
  block is the body's single store as one piece over the whole buffer, and the proof data say that every input buffer is
  left as found and the output buffer ends at that piece.
-/
import proofs.«114604_j2405181685928_1_alg».proof.Proof.Gen.Kernel.Launch
import proofs.«114604_j2405181685928_1_alg».proof.Proof.Gen.Kernel.Skeleton
import proofs.«114604_j2405181685928_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether the pipeline fetched there or the
    block index stood still since the last fetch (one statement per window: a window's block shape is read off its number). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole 2048×128 input buffer, the whole 128×64 weight buffer, the whole 64-entry row and the whole 2048×64 output
    buffer: the rectangles the body loads and stores. -/
abbrev rA1 : Rect S2048x128 := Rect.unit (s := S2048x128) ![0, 0] S2048x128.size inb_S2048x128_S2048x128_0_0
abbrev rW1 : Rect S128x64 := Rect.unit (s := S128x64) ![0, 0] S128x64.size inb_S128x64_S128x64_0_0
abbrev rB1 : Rect S64 := Rect.unit (s := S64) ![0] S64.size inb_S64_S64_0
abbrev rO1 : Rect S2048x64 := Rect.unit (s := S2048x64) ![0, 0] S2048x64.size inb_S2048x64_S2048x64_0_0

/-- The output buffer after the body: its one store, over the whole buffer, of the layer's value on the loaded blocks. -/
def out1_5 (x0 x1 : Vec F S2048x128 .f32) (x2 x3 : Vec F S128x64 .f32) (x4 : Vec F S64 .f32) : Vec F S2048x64 .f32 :=
  View.canon [⟨rO1, k1_pay1 (View.ld x0 rA1) (View.ld x2 rW1) (View.ld x1 rA1) (View.ld x3 rW1) (View.ld x4 rB1)⟩]

/-- The store covers the buffer. -/
theorem cover1_5 (p0 : Vec F S2048x64 .f32) (y : S2048x64.Idx) :
    ∃ pc ∈ ([⟨rO1, p0⟩] : List (View.Piece (Elt F) S2048x64 .f32)), y ∈ pc.1.set :=
  View.cover_of_tiled [⟨rO1, p0⟩] S2048x64.size (by rfl) y

set_option maxHeartbeats 1000000 in
/-- The body on whole buffers, the inputs at known contents and the output at anything: it ends with the inputs as they
    were and the output at `out1_5` of them. -/
theorem sound_kernel1 (c : Dev nD) (E : Set ℕ) (i : grid1.Coords)
    (arg1 : Memref sig .tc .vmem S2048x128 .f32) (harg1 : arg1.IsWhole) (arg2 : Memref sig .tc .vmem S2048x128 .f32) (harg2 : arg2.IsWhole)
    (arg3 : Memref sig .tc .vmem S128x64 .f32) (harg3 : arg3.IsWhole) (arg4 : Memref sig .tc .vmem S128x64 .f32) (harg4 : arg4.IsWhole)
    (arg5 : Memref sig .tc .vmem S64 .f32) (harg5 : arg5.IsWhole) (arg6 : Memref sig .tc .vmem S2048x64 .f32) (harg6 : arg6.IsWhole)
    (x0 x1 : Vec F S2048x128 .f32) (x2 x3 : Vec F S128x64 .f32) (x4 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__sage_linear_kernel i arg1 harg1 arg2 harg2 arg3 harg3 arg4 harg4 arg5 harg5 arg6 harg6) K := by
  simp only [cc1__sage_linear_kernel_eq_skeleton]; unfold cc1__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of pipeline 1 on core `c`: the arrays as the region finds them; after the body every input buffer
    at its block and the output buffer at `out1_5` of the input blocks; the invariant carries only the scoped rest and
    the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the input buffers hold their blocks, so the triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Body2.lean ====
/-
  Region 2 (the edge decoder) as a pipeline body. At a grid point the body reads two input blocks — 4096 gathered rows of
  the embedding for the edges' first endpoints and the same for the second endpoints — and writes TWO output blocks: their
  elementwise product (4096×64) and, per row, the sum of that product over the 64 channels (4096). Stated at a parameter
  `V`, the buffer contents the region is entered from; each output block is the body's single store into it, as one
  piece over the whole buffer.
-/
import proofs.«114604_j2405181685928_1_alg».proof.Proof.Gen.Kernel.Launch
import proofs.«114604_j2405181685928_1_alg».proof.Proof.Gen.Kernel.Skeleton
import proofs.«114604_j2405181685928_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point (both inputs are fetched at every point). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole 4096×64 buffer and the whole 4096-entry buffer: the rectangles the body loads and stores. -/
abbrev rM2 : Rect S4096x64 := Rect.unit (s := S4096x64) ![0, 0] S4096x64.size inb_S4096x64_S4096x64_0_0
abbrev rS2 : Rect S4096 := Rect.unit (s := S4096) ![0] S4096.size inb_S4096_S4096_0

/-- The product buffer after the body: its one store, of the elementwise product of the two loaded blocks. -/
def out2_2 (x0 x1 : Vec F S4096x64 .f32) : Vec F S4096x64 .f32 :=
  View.canon [⟨rM2, k2_pay1 (View.ld x0 rM2) (View.ld x1 rM2)⟩]

theorem cover2_2 (p0 : Vec F S4096x64 .f32) (y : S4096x64.Idx) :
    ∃ pc ∈ ([⟨rM2, p0⟩] : List (View.Piece (Elt F) S4096x64 .f32)), y ∈ pc.1.set :=
  View.cover_of_tiled [⟨rM2, p0⟩] S4096x64.size (by rfl) y

/-- The row-sum buffer after the body: its one store, of the product's sums over the channel axis. -/
def out2_3 (x0 x1 : Vec F S4096x64 .f32) : Vec F S4096 .f32 :=
  View.canon [⟨rS2, k2_pay2 (View.ld x0 rM2) (View.ld x1 rM2)⟩]

theorem cover2_3 (p0 : Vec F S4096 .f32) (y : S4096.Idx) :
    ∃ pc ∈ ([⟨rS2, p0⟩] : List (View.Piece (Elt F) S4096 .f32)), y ∈ pc.1.set :=
  View.cover_of_tiled [⟨rS2, p0⟩] S4096.size (by rfl) y

set_option maxHeartbeats 1000000 in
/-- The body on whole buffers, the inputs at known contents and the outputs at anything: it ends with the inputs as they
    were and the outputs at `out2_2` and `out2_3` of them. -/
theorem sound_kernel2 (c : Dev nD) (E : Set ℕ) (i : grid2.Coords)
    (arg1 : Memref sig .tc .vmem S4096x64 .f32) (harg1 : arg1.IsWhole) (arg2 : Memref sig .tc .vmem S4096x64 .f32) (harg2 : arg2.IsWhole)
    (arg3 : Memref sig .tc .vmem S4096x64 .f32) (harg3 : arg3.IsWhole) (arg4 : Memref sig .tc .vmem S4096 .f32) (harg4 : arg4.IsWhole)
    (x0 x1 : Vec F S4096x64 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out2_2 x0 x1) ∗ owns (c : Thread nD τ) arg4 fullShare (out2_3 x0 x1)) -∗ K ⟨⟩))
      ⊢ wp frame (wpE (defs₀ (F := F)) Variants.none c none) E (cc2__decode_kernel i arg1 harg1 arg2 harg2 arg3 harg3 arg4 harg4) K := by
  simp only [cc2__decode_kernel_eq_skeleton]; unfold cc2__decode_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2_2 _)
  iexists _; isplitr
  swap; · iexact H3
  ipureintro
  exact View.read_writes_eq_canon _ _ _ (cover2_3 _)

/-- The proof data of pipeline 2 on core `c`: the arrays as the region finds them; after the body every input buffer
    at its block and each output buffer at its store of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => out2_3 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem after2_3 (c : Dev nD) (t : Fin cfg2.N) : (dat2 V c).after 3 t = out2_3 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so the triple applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Body3.lean ====
/-
  Region 3 (the dense adjacency scores) as a pipeline body. At a grid point (r, s) the body reads two input blocks of the
  SAME embedding array — its 1024 rows of block-row r and its 1024 rows of block-row s — and writes TWO output blocks:
  the 1024×1024 matrix of inner products of those rows, and, as 32-bit words, the bit "this inner product is greater than
  zero". Stated at a parameter `V`, the buffer contents the region is entered from. Because both input windows read one
  array, the proof data hold that array at two complementary half shares, the left half for window 0 and the right half for
  window 1; the staging buffers are held whole as in every region.
-/
import proofs.«114604_j2405181685928_1_alg».proof.Proof.Gen.Kernel.Launch
import proofs.«114604_j2405181685928_1_alg».proof.Proof.Gen.Kernel.Skeleton
import proofs.«114604_j2405181685928_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its block at every point: window 1 is fetched at every point, window 0 only
    when the block-row changes, and between fetches its block index stands still. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole 1024×64 buffer and the whole 1024×1024 buffer: the rectangles the body loads and stores. -/
abbrev rZ3 : Rect S1024x64 := Rect.unit (s := S1024x64) ![0, 0] S1024x64.size inb_S1024x64_S1024x64_0_0
abbrev rG3 : Rect S1024x1024 := Rect.unit (s := S1024x1024) ![0, 0] S1024x1024.size inb_S1024x1024_S1024x1024_0_0

/-- The score buffer after the body: its one store, of the products of the first block with the second block transposed. -/
def out3_2 (x0 x1 : Vec F S1024x64 .f32) : Vec F S1024x1024 .f32 :=
  View.canon [⟨rG3, k3_pay1 (View.ld x0 rZ3) (View.ld x1 rZ3)⟩]

theorem cover3_2 (p0 : Vec F S1024x1024 .f32) (y : S1024x1024.Idx) :
    ∃ pc ∈ ([⟨rG3, p0⟩] : List (View.Piece (Elt F) S1024x1024 .f32)), y ∈ pc.1.set :=
  View.cover_of_tiled [⟨rG3, p0⟩] S1024x1024.size (by rfl) y

/-- The sign-word buffer after the body: its one store, of the widened comparison of the scores with zero. -/
def out3_3 (x0 x1 : Vec F S1024x64 .f32) : Vec F S1024x1024 .i32 :=
  View.canon [⟨rG3, k3_pay2 (View.ld x0 rZ3) (View.ld x1 rZ3)⟩]

theorem cover3_3 (p0 : Vec F S1024x1024 .i32) (y : S1024x1024.Idx) :
    ∃ pc ∈ ([⟨rG3, p0⟩] : List (View.Piece (Elt F) S1024x1024 .i32)), y ∈ pc.1.set :=
  View.cover_of_tiled [⟨rG3, p0⟩] S1024x1024.size (by rfl) y

set_option maxHeartbeats 1000000 in
/-- The body on whole buffers, the inputs at known contents and the outputs at anything: it ends with the inputs as they
    were and the outputs at `out3_2` and `out3_3` of them. -/
theorem sound_kernel3 (c : Dev nD) (E : Set ℕ) (i : grid3.Coords)
    (arg2 : Memref sig .tc .vmem S1024x64 .f32) (harg2 : arg2.IsWhole) (arg3 : Memref sig .tc .vmem S1024x64 .f32) (harg3 : arg3.IsWhole)
    (arg4 : Memref sig .tc .vmem S1024x1024 .f32) (harg4 : arg4.IsWhole) (arg5 : Memref sig .tc .vmem S1024x1024 .i32) (harg5 : arg5.IsWhole)
    (x0 x1 : Vec F S1024x64 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (out3_2 x0 x1) ∗ owns (c : Thread nD τ) arg5 fullShare (out3_3 x0 x1)) -∗ K ⟨⟩))
      ⊢ wp frame (wpE (defs₀ (F := F)) Variants.none c none) E (cc3__zzt_kernel i arg2 harg2 arg3 harg3 arg4 harg4 arg5 harg5) K := by
  simp only [cc3__zzt_kernel_eq_skeleton]; unfold cc3__zzt_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover3_2 _)
  iexists _; isplitr
  swap; · iexact H3
  ipureintro
  exact View.read_writes_eq_canon _ _ _ (cover3_3 _)

/-- The proof data of pipeline 3 on core `c`: the arrays as the region finds them; after the body every input buffer
    at its block and each output buffer at its store of the input blocks; nothing owed; the shared input array at the
    left half share for window 0 and the right half share for window 1. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
    | ⟨3, _⟩ => out3_3 (iblk3 V c 0 t) (iblk3 V c 1 t)
  Φ _ := Pipeline.ΦA spec3 c
  q w := match w with
    | ⟨0, _⟩ => fullShare.left
    | ⟨1, _⟩ => fullShare.right
    | ⟨2, _⟩ => fullShare
    | ⟨3, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]
theorem after3_3 (c : Dev nD) (t : Fin cfg3.N) : (dat3 V c).after 3 t = out3_3 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the input buffers hold their blocks, so the triple applies; the invariant and what the core
    owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.K.Shared3.lean ====
/-
  Region 3 reads ONE array, the embedding, through two input windows. A core holds that array's buffer whole; the pipeline's
  proof data hold it once per window. So at the region's entry the buffer's ownership is halved, the left half going to
  window 0 and the right half to window 1, both at the same contents; the two output buffers go to their windows whole.
  At the exit the halves, still at the entry contents because an input array is never written, are joined again, and the
  output buffers come back at what the write-backs left.
-/
import proofs.«114604_j2405181685928_1_alg».proof.Proof.K.Body3

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind region 3's windows: the embedding (windows 0 and 1) and the two outputs. -/
theorem arrRefs3 : Finset.univ.image (Pipeline.arrRef spec3) = ({main_v38, main_v58_0, main_v58_1} : Finset (Ref sig .tc)) := by decide

/-- The distinct buffers behind the windows' arrays, one by one. -/
theorem arrBufs3_eq (c : Dev nD) (W : (b : Ref sig .tc) → Buf (Elt F) ((c : Thread nD τ).loc b)) :
    (Pipeline.arrBufs spec3 c W : sProp 𝕄)
      = iprop((((c : Thread nD τ).loc main_v38) ↦{fullShare} W main_v38) ∗ (((c : Thread nD τ).loc main_v58_0) ↦{fullShare} W main_v58_0)
          ∗ (((c : Thread nD τ).loc main_v58_1) ↦{fullShare} W main_v58_1)) := by
  unfold Pipeline.arrBufs
  rw [arrRefs3, BI.bigSep_insert (by decide), BI.bigSep_insert (by decide), BI.bigSep_singleton]
  rfl

/-- The pipeline's arrays at contents `G`, window by window, each a whole buffer at its window's share. -/
theorem arrays3_eq (c : Dev nD) (G : (w : Fin cfg3.W) → Buf (Elt F) ((cfg3.win w).arr.view.loc (c : Thread nD τ))) :
    ((dat3 V c).arrays G : sProp 𝕄)
      = iprop((((c : Thread nD τ).loc main_v38) ↦{fullShare.left} G 0) ∗ (((c : Thread nD τ).loc main_v38) ↦{fullShare.right} G 1)
          ∗ (((c : Thread nD τ).loc main_v58_0) ↦{fullShare} G 2) ∗ (((c : Thread nD τ).loc main_v58_1) ↦{fullShare} G 3)) := by
  unfold Dat.arrays
  -- windows 0 and 1 name one array: its index set appears once for both
  rw [bigSep_W3, (arr_whole3 0).set_eq_univ, (arr_whole3 2).set_eq_univ, (arr_whole3 3).set_eq_univ]
  rfl

/-- ENTRY: a core's unscoped buffers at `V` are region 3's arrays at the entry contents and the unscoped rest. -/
theorem entry3 (c : Dev nD) :
    (unscopedBufs c (V c) : sProp 𝕄)
      ⊢ iprop((dat3 V c).arrays ((dat3 V c).arrAt · 0) ∗ Pipeline.unscopedRest spec3 c (V c)) := by
  rw [Pipeline.unscopedBufs_split₀ cfgs 3 winFacts₀3.arr_unscoped c (V c)]
  show iprop(Pipeline.arrBufs spec3 c (V c) ∗ Pipeline.unscopedRest spec3 c (V c)) ⊢ _
  rw [arrBufs3_eq, arrays3_eq]
  refine sep_mono ?_ .rfl
  iintro ⟨H38, H580, H581⟩
  ihave H := (pointsTo_share (PosShare.mem_left_op_right fullShare)).1 $$ H38
  icases H with ⟨Hl, Hr⟩
  isplitl [Hl]; · iexact Hl
  isplitl [Hr]; · iexact Hr
  isplitl [H580]; · iexact H580
  iexact H581

/-- EXIT: region 3's arrays at what the pipeline leaves and the unscoped rest at `V` are the core's unscoped buffers at
    any valuation `V'` that has the outputs at what the write-backs leave and agrees with `V` elsewhere. -/
theorem exit3 (V' : (c : Dev nD) → (b : Ref sig .tc) → Buf (Elt F) ((c : Thread nD τ).loc b)) (c : Dev nD)
    (h0 : V' c main_v58_0 = (dat3 V c).arrAt 2 cfg3.N) (h1 : V' c main_v58_1 = (dat3 V c).arrAt 3 cfg3.N)
    (hrest : ∀ b : Ref sig .tc, b ≠ main_v58_0 → b ≠ main_v58_1 → V' c b = V c b) :
    iprop((dat3 V c).arrays ((dat3 V c).arrAt · cfg3.N) ∗ Pipeline.unscopedRest spec3 c (V c))
      ⊢ (unscopedBufs c (V' c) : sProp 𝕄) := by
  rw [Pipeline.unscopedBufs_split₀ cfgs 3 winFacts₀3.arr_unscoped c (V' c)]
  show _ ⊢ iprop(Pipeline.arrBufs spec3 c (V' c) ∗ Pipeline.unscopedRest spec3 c (V' c))
  rw [arrBufs3_eq, arrays3_eq]
  have e0 : (dat3 V c).arrAt 0 cfg3.N = V c main_v38 := ((dat3 V c).arrAt_in 0 rfl _).trans (A_eq3 V c 0)
  have e1 : (dat3 V c).arrAt 1 cfg3.N = V c main_v38 := ((dat3 V c).arrAt_in 1 rfl _).trans (A_eq3 V c 1)
  have hR : (Pipeline.unscopedRest spec3 c (V c) : sProp 𝕄) = Pipeline.unscopedRest spec3 c (V' c) := by
    unfold Pipeline.unscopedRest
    refine BI.bigSep_congr fun b hb => ?_
    have hb' := (Finset.mem_sdiff.mp hb).2
    rw [arrRefs3] at hb'
    rw [hrest b (fun e => hb' (by rw [e]; decide)) (fun e => hb' (by rw [e]; decide))]
  rw [e0, e1, hR, hrest main_v38 (by decide) (by decide), h0, h1]
  refine sep_mono ?_ .rfl
  iintro ⟨Hl, Hr, H580, H581⟩
  ihave H := (pointsTo_share (PosShare.mem_left_op_right fullShare)).2 $$ [Hl Hr]
  · isplitl [Hl] <;> iassumption
  isplitl [H]; · iexact H
  isplitl [H580]; · iexact H580
  iexact H581

end Cert.Kernel.Fr

end
-- ==== Proof.K.Run.lean ====
/-
  The run of @main: four kernel regions among stretches of host operations.

  Between two items a core holds every unscoped buffer whole at a known valuation: the launch memory, then each host
  stretch applied, and after a region the arrays of its output windows replaced by what the pipeline's write-backs leave
  (its input arrays are only read). Each region is entered from the valuation before it and left at the one after it;
  nothing is owed across a boundary and the generator register rides along. Region 3 reads ONE array through two input
  windows: at its entry that array's ownership is halved, one half per window, and at its exit the halves are joined again.
  The run's conclusion: every weakly fair execution terminates, nothing faults, and every unscoped buffer ends at the last
  valuation. The frame (the arguments end as launched) and the results' values are read off that valuation.
-/
import proofs.«114604_j2405181685928_1_alg».proof.Proof.K.Body0
import proofs.«114604_j2405181685928_1_alg».proof.Proof.K.Body1
import proofs.«114604_j2405181685928_1_alg».proof.Proof.K.Body2
import proofs.«114604_j2405181685928_1_alg».proof.Proof.K.Body3
import proofs.«114604_j2405181685928_1_alg».proof.Proof.K.Shared3
import proofs.«114604_j2405181685928_1_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at every boundary -/

/-- At launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its output array at what the write-backs leave, every other buffer as entered. -/
def W2 (c : Dev nD) : Valuation τ sig (Elt F) :=
  Function.update (W1 m c) main_v25 ((dat0 (V1 m) c).arrAt 5 cfg0.N)
abbrev V2 : (c : Dev nD) → (b : Ref sig .tc) → Buf (Elt F) ((c : Thread nD τ).loc b) := fun c b => W2 m c b
/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Function.update (W3 m c) main_v38 ((dat1 (V3 m) c).arrAt 5 cfg1.N)
abbrev V4 : (c : Dev nD) → (b : Ref sig .tc) → Buf (Elt F) ((c : Thread nD τ).loc b) := fun c b => W4 m c b
/-- After the third host stretch (region 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At region 2's exit (region 3's entry: no host operation lies between them). -/
def W6 (c : Dev nD) : Valuation τ sig (Elt F) :=
  Function.update (Function.update (W5 m c) main_v57_0 ((dat2 (V5 m) c).arrAt 2 cfg2.N)) main_v57_1 ((dat2 (V5 m) c).arrAt 3 cfg2.N)
abbrev V6 : (c : Dev nD) → (b : Ref sig .tc) → Buf (Elt F) ((c : Thread nD τ).loc b) := fun c b => W6 m c b
/-- At region 3's exit. -/
def W7 (c : Dev nD) : Valuation τ sig (Elt F) :=
  Function.update (Function.update (W6 m c) main_v58_0 ((dat3 (V6 m) c).arrAt 2 cfg3.N)) main_v58_1 ((dat3 (V6 m) c).arrAt 3 cfg3.N)
abbrev V7 : (c : Dev nD) → (b : Ref sig .tc) → Buf (Elt F) ((c : Thread nD τ).loc b) := fun c b => W7 m c b
/-- After the last host stretch: the end. -/
abbrev W8 : Dev nD → Valuation τ sig (Elt F) := fun c => StableHlo.after hostOps4 (W7 m c)

/-- A valuation updated at one reference is unchanged at another. -/
theorem upd_ne {c : Dev nD} (W : Valuation τ sig (Elt F)) (r b : Ref sig .tc) (x : Buf (Elt F) ((c : Thread nD τ).loc r)) (h : b ≠ r) :
    Function.update W (Proc.devRef .tc r) x (Proc.devRef .tc b) = W (Proc.devRef .tc b) :=
  Function.update_of_ne (StableHlo.devRef_ne_of_ne h) _ _

/-! ## The proof data family and the thread state -/

/-- Every pipeline's proof data, each at its region's entry contents. -/
def pdats : (p : Fin 4) → (c : Dev nD) → Dat τ (Elt F) Unit ℕ (UR sig nD τ) ℕ (Pipeline.pin (pcfgs (F := F)) Gen.adm p) c
  | ⟨0, _⟩ => fun c => dat0 (V1 m) c
  | ⟨1, _⟩ => fun c => dat1 (V3 m) c
  | ⟨2, _⟩ => fun c => dat2 (V5 m) c
  | ⟨3, _⟩ => fun c => dat3 (V6 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last valuation, the generator register. -/
abbrev Tₙ (c : Dev nD) : sProp 𝕄 := iprop(StableHlo.held (c : Thread nD τ) (Pipeline.ucRefs τ sig) (W8 m c) ∗ ∃ r, prngReg c r)

/-! ## What each region leaves where -/

theorem hF0 (c : Dev nD) (w : Fin cfg0.W) : (dat0 (V1 m) c).arrAt w cfg0.N = V2 m c (Pipeline.arrRef spec0 w) := by
  match w with
  | ⟨0, _⟩ => exact ((dat0 (V1 m) c).arrAt_in 0 rfl _).trans ((A_eq0 (V1 m) c 0).trans (upd_ne _ main_v25 _ _ (by decide)).symm)
  | ⟨1, _⟩ => exact ((dat0 (V1 m) c).arrAt_in 1 rfl _).trans ((A_eq0 (V1 m) c 1).trans (upd_ne _ main_v25 _ _ (by decide)).symm)
  | ⟨2, _⟩ => exact ((dat0 (V1 m) c).arrAt_in 2 rfl _).trans ((A_eq0 (V1 m) c 2).trans (upd_ne _ main_v25 _ _ (by decide)).symm)
  | ⟨3, _⟩ => exact ((dat0 (V1 m) c).arrAt_in 3 rfl _).trans ((A_eq0 (V1 m) c 3).trans (upd_ne _ main_v25 _ _ (by decide)).symm)
  | ⟨4, _⟩ => exact ((dat0 (V1 m) c).arrAt_in 4 rfl _).trans ((A_eq0 (V1 m) c 4).trans (upd_ne _ main_v25 _ _ (by decide)).symm)
  | ⟨5, _⟩ => exact (Function.update_self (β := fun b : DevRef τ sig => Buf (Elt F) ((c : Thread nD τ).1, b)) (Proc.devRef .tc main_v25) _ (W1 m c)).symm
theorem hrest0 (c : Dev nD) : ∀ b, b ∉ Finset.univ.image (Pipeline.arrRef spec0) → V2 m c b = V1 m c b :=
  fun b hb => upd_ne _ main_v25 b _ fun e => hb (Finset.mem_image.mpr ⟨5, Finset.mem_univ _, e.symm⟩)

theorem hF1 (c : Dev nD) (w : Fin cfg1.W) : (dat1 (V3 m) c).arrAt w cfg1.N = V4 m c (Pipeline.arrRef spec1 w) := by
  match w with
  | ⟨0, _⟩ => exact ((dat1 (V3 m) c).arrAt_in 0 rfl _).trans ((A_eq1 (V3 m) c 0).trans (upd_ne _ main_v38 _ _ (by decide)).symm)
  | ⟨1, _⟩ => exact ((dat1 (V3 m) c).arrAt_in 1 rfl _).trans ((A_eq1 (V3 m) c 1).trans (upd_ne _ main_v38 _ _ (by decide)).symm)
  | ⟨2, _⟩ => exact ((dat1 (V3 m) c).arrAt_in 2 rfl _).trans ((A_eq1 (V3 m) c 2).trans (upd_ne _ main_v38 _ _ (by decide)).symm)
  | ⟨3, _⟩ => exact ((dat1 (V3 m) c).arrAt_in 3 rfl _).trans ((A_eq1 (V3 m) c 3).trans (upd_ne _ main_v38 _ _ (by decide)).symm)
  | ⟨4, _⟩ => exact ((dat1 (V3 m) c).arrAt_in 4 rfl _).trans ((A_eq1 (V3 m) c 4).trans (upd_ne _ main_v38 _ _ (by decide)).symm)
  | ⟨5, _⟩ => exact (Function.update_self (β := fun b : DevRef τ sig => Buf (Elt F) ((c : Thread nD τ).1, b)) (Proc.devRef .tc main_v38) _ (W3 m c)).symm
theorem hrest1 (c : Dev nD) : ∀ b, b ∉ Finset.univ.image (Pipeline.arrRef spec1) → V4 m c b = V3 m c b :=
  fun b hb => upd_ne _ main_v38 b _ fun e => hb (Finset.mem_image.mpr ⟨5, Finset.mem_univ _, e.symm⟩)

theorem hF2 (c : Dev nD) (w : Fin cfg2.W) : (dat2 (V5 m) c).arrAt w cfg2.N = V6 m c (Pipeline.arrRef spec2 w) := by
  match w with
  | ⟨0, _⟩ => exact ((dat2 (V5 m) c).arrAt_in 0 rfl _).trans ((A_eq2 (V5 m) c 0).trans (((upd_ne _ main_v57_1 _ _ (by decide)).trans (upd_ne _ main_v57_0 _ _ (by decide))).symm))
  | ⟨1, _⟩ => exact ((dat2 (V5 m) c).arrAt_in 1 rfl _).trans ((A_eq2 (V5 m) c 1).trans (((upd_ne _ main_v57_1 _ _ (by decide)).trans (upd_ne _ main_v57_0 _ _ (by decide))).symm))
  | ⟨2, _⟩ => exact ((upd_ne _ main_v57_1 main_v57_0 _ (by decide)).trans
      (Function.update_self (β := fun b : DevRef τ sig => Buf (Elt F) ((c : Thread nD τ).1, b)) (Proc.devRef .tc main_v57_0) _ (W5 m c))).symm
  | ⟨3, _⟩ => exact (Function.update_self (β := fun b : DevRef τ sig => Buf (Elt F) ((c : Thread nD τ).1, b)) (Proc.devRef .tc main_v57_1) _ _).symm
theorem hrest2 (c : Dev nD) : ∀ b, b ∉ Finset.univ.image (Pipeline.arrRef spec2) → V6 m c b = V5 m c b :=
  fun b hb => (upd_ne _ main_v57_1 b _ fun e => hb (Finset.mem_image.mpr ⟨3, Finset.mem_univ _, e.symm⟩)).trans
    (upd_ne _ main_v57_0 b _ fun e => hb (Finset.mem_image.mpr ⟨2, Finset.mem_univ _, e.symm⟩))

/-! ## What region 3 leaves where -/

theorem h3_0 (c : Dev nD) : V7 m c main_v58_0 = (dat3 (V6 m) c).arrAt 2 cfg3.N :=
  (upd_ne _ main_v58_1 main_v58_0 _ (by decide)).trans
    (Function.update_self (β := fun b : DevRef τ sig => Buf (Elt F) ((c : Thread nD τ).1, b)) (Proc.devRef .tc main_v58_0) _ (W6 m c))
theorem h3_1 (c : Dev nD) : V7 m c main_v58_1 = (dat3 (V6 m) c).arrAt 3 cfg3.N :=
  Function.update_self (β := fun b : DevRef τ sig => Buf (Elt F) ((c : Thread nD τ).1, b)) (Proc.devRef .tc main_v58_1) _ _
theorem h3_rest (c : Dev nD) : ∀ b : Ref sig .tc, b ≠ main_v58_0 → b ≠ main_v58_1 → V7 m c b = V6 m c b :=
  fun b h0 h1 => (upd_ne _ main_v58_1 b _ h1).trans (upd_ne _ main_v58_0 b _ h0)

/-! ## The regions as segments -/

set_option backward.isDefEq.respectTransparency.types false in
/-- REGION 0: entered from every unscoped buffer at `W1`, left at `W2`. Its arrays are split out of the unscoped
    buffers at entry and put back at the exit contents; the generator register goes into the invariant and comes back;
    nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1: entered from every unscoped buffer at `W3`, left at `W4`. Its arrays are split out of the unscoped
    buffers at entry and put back at the exit contents; the generator register goes into the invariant and comes back;
    nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2: entered from every unscoped buffer at `W5`, left at `W6`. Its arrays are split out of the unscoped
    buffers at entry and put back at the exit contents; the generator register goes into the invariant and comes back;
    nothing is owed; the kernel has no semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3: entered from every unscoped buffer at `W6`, left at `W7`. The embedding's buffer is halved between the two
    input windows at entry (`entry3`) and joined at exit (`exit3`); otherwise as the other regions. -/
def reg3 : Pipeline.RegionSeg (pcfgs (F := F)) Gen.adm (pdats m) () defs₀ 𝒱₀ L lv 3 where
  win := winFacts₀3
  block_pos := block_pos3
  stage_whole := stage_whole3
  K := PEmpty
  osem k := k.elim
  ho := Pipeline.OwnSemFacts.none _
  hbody c := (body_obligation3 (V6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (V6 m c)
  hentry c := by
    rw [Pipeline.ownSems0_none]
    have hsplit : (unscopedBufs c (V6 m c) : sProp 𝕄)
        ⊢ iprop((pdats m 3 c).arrays ((pdats m 3 c).arrAt · 0) ∗ Pipeline.unscopedRest spec3 c (V6 m c)) := entry3 (V6 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m 3 c).arrays ((pdats m 3 c).arrAt · cfg3.N) ∗ Pipeline.unscopedRest spec3 c (V6 m c))
        ⊢ (unscopedBufs c (V7 m c) : sProp 𝕄) := exit3 (V6 m) (V7 m) c (h3_0 m c) (h3_1 m c) (h3_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 8 items in order: a host segment per stretch from its boundary's contents, a region per pallas_call. -/
abbrev segs : List (Pipeline.Seg (pcfgs (F := F)) Gen.adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .region (reg3 m),
    .host (hseg hostOps4 hostOps4_sub hostOps4_fresh (W7 m)) ]

/-- @main is the run of the segments. -/
theorem main_run (c : Dev nD) : main (F := F) c = Pipeline.Seg.run (segs m) := by
  rw [main_chain c, Pipeline.Seg.run_eq_chain]
  rfl

set_option backward.isDefEq.respectTransparency.types false in
/-- THE RUN: from any memory with zero counters, every weakly fair execution of @main on the TensorCores terminates,
    nothing faulting, and every final state holds every unscoped buffer at the last valuation `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m c) ∗ R c)
          ⊢ iprop(Tₙ m c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

end Cert.Kernel.Fr

end
-- ==== Proof.K.Frame.lean ====
/-
  The frame of @main: every argument array ends holding what it was launched with. No host operation writes an
  argument and no region has one as an output window's array, so walking the last valuation back item by item — a host
  stretch leaves a buffer it does not write unchanged, a region changes only its output arrays — reaches the launch memory.
  The same small steps serve to walk any buffer back to the item that wrote it.
-/
import proofs.«114604_j2405181685928_1_alg».proof.Proof.K.Run

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each item leaves unchanged -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ≠ main_v25) : W2 m c r = W1 m c r :=
  upd_ne _ main_v25 r _ h
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ≠ main_v38) : W4 m c r = W3 m c r :=
  upd_ne _ main_v38 r _ h
theorem W5_of (c : Dev nD) (r : Ref sig .tc) (h : r ∉ hostOps2_W) : W5 m c r = W4 m c r :=
  StableHlo.after_of_writes_sub hostOps2 _ hostOps2_writes h
theorem W6_of (c : Dev nD) (r : Ref sig .tc) (h0 : r ≠ main_v57_0) (h1 : r ≠ main_v57_1) : W6 m c r = W5 m c r :=
  (upd_ne _ main_v57_1 r _ h1).trans (upd_ne _ main_v57_0 r _ h0)
theorem W7_of (c : Dev nD) (r : Ref sig .tc) (h0 : r ≠ main_v58_0) (h1 : r ≠ main_v58_1) : W7 m c r = W6 m c r :=
  (upd_ne _ main_v58_1 r _ h1).trans (upd_ne _ main_v58_0 r _ h0)
theorem W8_of (c : Dev nD) (r : Ref sig .tc) (h : r ∉ hostOps4_W) : W8 m c r = W7 m c r :=
  StableHlo.after_of_writes_sub hostOps4 _ hostOps4_writes h

/-- A buffer that no host stretch writes and no region has as an output ends as launched. -/
theorem kept (c : Dev nD) (r : Ref sig .tc) (h0 : r ∉ hostOps0_W) (h1 : r ∉ hostOps1_W) (h2 : r ∉ hostOps2_W) (h4 : r ∉ hostOps4_W)
    (hr : r ∉ ([main_v25, main_v38, main_v57_0, main_v57_1, main_v58_0, main_v58_1] : List (Ref sig .tc))) :
    W8 m c r = m ((c : Thread nD τ).loc r) := by
  have e25 : r ≠ main_v25 := fun e => hr (by rw [e]; decide)
  have e38 : r ≠ main_v38 := fun e => hr (by rw [e]; decide)
  have e570 : r ≠ main_v57_0 := fun e => hr (by rw [e]; decide)
  have e571 : r ≠ main_v57_1 := fun e => hr (by rw [e]; decide)
  have e580 : r ≠ main_v58_0 := fun e => hr (by rw [e]; decide)
  have e581 : r ≠ main_v58_1 := fun e => hr (by rw [e]; decide)
  exact (W8_of m c r h4).trans <| (W7_of m c r e580 e581).trans <| (W6_of m c r e570 e571).trans <| (W5_of m c r h2).trans <|
    (W4_of m c r e38).trans <| (W3_of m c r h1).trans <| (W2_of m c r e25).trans <| (W1_of m c r h0).trans rfl

/-! ## The frame -/

/-- Every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (kept m c main_arg0 (by decide) (by decide) (by decide) (by decide) (by decide)),
     (h c _ (mem_uc main_arg1 (by decide))).trans (kept m c main_arg1 (by decide) (by decide) (by decide) (by decide) (by decide)),
     (h c _ (mem_uc main_arg2 (by decide))).trans (kept m c main_arg2 (by decide) (by decide) (by decide) (by decide) (by decide)),
     (h c _ (mem_uc main_arg3 (by decide))).trans (kept m c main_arg3 (by decide) (by decide) (by decide) (by decide) (by decide)),
     (h c _ (mem_uc main_arg4 (by decide))).trans (kept m c main_arg4 (by decide) (by decide) (by decide) (by decide) (by decide)),
     (h c _ (mem_uc main_arg5 (by decide))).trans (kept m c main_arg5 (by decide) (by decide) (by decide) (by decide) (by decide)),
     (h c _ (mem_uc main_arg6 (by decide))).trans (kept m c main_arg6 (by decide) (by decide) (by decide) (by decide) (by decide)),
     (h c _ (mem_uc main_arg7 (by decide))).trans (kept m c main_arg7 (by decide) (by decide) (by decide) (by decide) (by decide)),
     (h c _ (mem_uc main_arg8 (by decide))).trans (kept m c main_arg8 (by decide) (by decide) (by decide) (by decide) (by decide))⟩)
    (run_all m ρ)

end Cert.Kernel.Fr

end
-- ==== Proof.KI.Body0.lean ====
/-
  Region 0 (the first SAGE linear layer) as a pipeline body. At a grid point the body reads five input blocks — a
  2048-row slab of the mean-aggregated features, the same rows of the node features, the two 128×128 weights whole and the
  bias row whole — and writes ONE output block: relu((agg · W_l + x · W_r) + b) on those 2048 rows. Stated at a parameter
  `V`, the buffer contents the region is entered from: each window's block is read off its array in `V`, the output
  block is the body's single store as one piece over the whole buffer, and the proof data say that every input buffer is
  left as found and the output buffer ends at that piece.
-/
import proofs.«114604_j2405181685928_1_alg».proof.Proof.Gen.KernelIdeal.Launch
import proofs.«114604_j2405181685928_1_alg».proof.Proof.Gen.KernelIdeal.Skeleton
import proofs.«114604_j2405181685928_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the pipeline fetched there or the
    block index stood still since the last fetch (one statement per window: a window's block shape is read off its number). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole 2048×128 buffer, the whole 128×128 buffer, the whole 128-entry row: the rectangles the body loads and stores. -/
abbrev rA0 : Rect S2048x128 := Rect.unit (s := S2048x128) ![0, 0] S2048x128.size inb_S2048x128_S2048x128_0_0
abbrev rW0 : Rect S128x128 := Rect.unit (s := S128x128) ![0, 0] S128x128.size inb_S128x128_S128x128_0_0
abbrev rB0 : Rect S128 := Rect.unit (s := S128) ![0] S128.size inb_S128_S128_0

/-- The output buffer after the body: its one store, over the whole buffer, of the layer's value on the loaded blocks. -/
def out0_5 (x0 x1 : Vec F S2048x128 .f32) (x2 x3 : Vec F S128x128 .f32) (x4 : Vec F S128 .f32) : Vec F S2048x128 .f32 :=
  View.canon [⟨rA0, k0_pay1 (View.ld x0 rA0) (View.ld x2 rW0) (View.ld x1 rA0) (View.ld x3 rW0) (View.ld x4 rB0)⟩]

/-- The store covers the buffer. -/
theorem cover0_5 (p0 : Vec F S2048x128 .f32) (y : S2048x128.Idx) :
    ∃ pc ∈ ([⟨rA0, p0⟩] : List (View.Piece (Elt F) S2048x128 .f32)), y ∈ pc.1.set :=
  View.cover_of_tiled [⟨rA0, p0⟩] S2048x128.size (by rfl) y

set_option maxHeartbeats 1000000 in
/-- The body on whole buffers, the inputs at known contents and the output at anything: it ends with the inputs as they
    were and the output at `out0_5` of them. -/
theorem sound_kernel0 (c : Dev nD) (E : Set ℕ) (i : grid0.Coords)
    (arg1 : Memref sig .tc .vmem S2048x128 .f32) (harg1 : arg1.IsWhole) (arg2 : Memref sig .tc .vmem S2048x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S2048x128 .f32) (harg6 : arg6.IsWhole)
    (x0 x1 : Vec F S2048x128 .f32) (x2 x3 : Vec F S128x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__sage_linear_kernel i arg1 harg1 arg2 harg2 arg3 harg3 arg4 harg4 arg5 harg5 arg6 harg6) K := by
  simp only [cc0__sage_linear_kernel_eq_skeleton]; unfold cc0__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of pipeline 0 on core `c`: the arrays as the region finds them; after the body every input buffer
    at its block and the output buffer at `out0_5` of the input blocks; the invariant carries only the scoped rest and
    the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Body1.lean ====
/-
  Region 1 (the second SAGE linear layer) as a pipeline body. At a grid point the body reads five input blocks — a
  2048-row slab of the mean-aggregated hidden features, the same rows of the hidden features, the two 128×64 weights whole
  and the 64-entry bias row whole — and writes ONE output block: (agg · W_l + h · W_r) + b on those 2048 rows, no relu. Stated at a parameter
  `V`, the buffer contents the region is entered from: each window's block is read off its array in `V`, the output
  block is the body's single store as one piece over the whole buffer, and the proof data say that every input buffer is
  left as found and the output buffer ends at that piece.
-/
import proofs.«114604_j2405181685928_1_alg».proof.Proof.Gen.KernelIdeal.Launch
import proofs.«114604_j2405181685928_1_alg».proof.Proof.Gen.KernelIdeal.Skeleton
import proofs.«114604_j2405181685928_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether the pipeline fetched there or the
    block index stood still since the last fetch (one statement per window: a window's block shape is read off its number). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole 2048×128 input buffer, the whole 128×64 weight buffer, the whole 64-entry row and the whole 2048×64 output
    buffer: the rectangles the body loads and stores. -/
abbrev rA1 : Rect S2048x128 := Rect.unit (s := S2048x128) ![0, 0] S2048x128.size inb_S2048x128_S2048x128_0_0
abbrev rW1 : Rect S128x64 := Rect.unit (s := S128x64) ![0, 0] S128x64.size inb_S128x64_S128x64_0_0
abbrev rB1 : Rect S64 := Rect.unit (s := S64) ![0] S64.size inb_S64_S64_0
abbrev rO1 : Rect S2048x64 := Rect.unit (s := S2048x64) ![0, 0] S2048x64.size inb_S2048x64_S2048x64_0_0

/-- The output buffer after the body: its one store, over the whole buffer, of the layer's value on the loaded blocks. -/
def out1_5 (x0 x1 : Vec F S2048x128 .f32) (x2 x3 : Vec F S128x64 .f32) (x4 : Vec F S64 .f32) : Vec F S2048x64 .f32 :=
  View.canon [⟨rO1, k1_pay1 (View.ld x0 rA1) (View.ld x2 rW1) (View.ld x1 rA1) (View.ld x3 rW1) (View.ld x4 rB1)⟩]

/-- The store covers the buffer. -/
theorem cover1_5 (p0 : Vec F S2048x64 .f32) (y : S2048x64.Idx) :
    ∃ pc ∈ ([⟨rO1, p0⟩] : List (View.Piece (Elt F) S2048x64 .f32)), y ∈ pc.1.set :=
  View.cover_of_tiled [⟨rO1, p0⟩] S2048x64.size (by rfl) y

set_option maxHeartbeats 1000000 in
/-- The body on whole buffers, the inputs at known contents and the output at anything: it ends with the inputs as they
    were and the output at `out1_5` of them. -/
theorem sound_kernel1 (c : Dev nD) (E : Set ℕ) (i : grid1.Coords)
    (arg1 : Memref sig .tc .vmem S2048x128 .f32) (harg1 : arg1.IsWhole) (arg2 : Memref sig .tc .vmem S2048x128 .f32) (harg2 : arg2.IsWhole)
    (arg3 : Memref sig .tc .vmem S128x64 .f32) (harg3 : arg3.IsWhole) (arg4 : Memref sig .tc .vmem S128x64 .f32) (harg4 : arg4.IsWhole)
    (arg5 : Memref sig .tc .vmem S64 .f32) (harg5 : arg5.IsWhole) (arg6 : Memref sig .tc .vmem S2048x64 .f32) (harg6 : arg6.IsWhole)
    (x0 x1 : Vec F S2048x128 .f32) (x2 x3 : Vec F S128x64 .f32) (x4 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__sage_linear_kernel i arg1 harg1 arg2 harg2 arg3 harg3 arg4 harg4 arg5 harg5 arg6 harg6) K := by
  simp only [cc1__sage_linear_kernel_eq_skeleton]; unfold cc1__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of pipeline 1 on core `c`: the arrays as the region finds them; after the body every input buffer
    at its block and the output buffer at `out1_5` of the input blocks; the invariant carries only the scoped rest and
    the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the input buffers hold their blocks, so the triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Body2.lean ====
/-
  Region 2 (the edge decoder) as a pipeline body. At a grid point the body reads two input blocks — 4096 gathered rows of
  the embedding for the edges' first endpoints and the same for the second endpoints — and writes TWO output blocks: their
  elementwise product (4096×64) and, per row, the sum of that product over the 64 channels (4096). Stated at a parameter
  `V`, the buffer contents the region is entered from; each output block is the body's single store into it, as one
  piece over the whole buffer.
-/
import proofs.«114604_j2405181685928_1_alg».proof.Proof.Gen.KernelIdeal.Launch
import proofs.«114604_j2405181685928_1_alg».proof.Proof.Gen.KernelIdeal.Skeleton
import proofs.«114604_j2405181685928_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point (both inputs are fetched at every point). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole 4096×64 buffer and the whole 4096-entry buffer: the rectangles the body loads and stores. -/
abbrev rM2 : Rect S4096x64 := Rect.unit (s := S4096x64) ![0, 0] S4096x64.size inb_S4096x64_S4096x64_0_0
abbrev rS2 : Rect S4096 := Rect.unit (s := S4096) ![0] S4096.size inb_S4096_S4096_0

/-- The product buffer after the body: its one store, of the elementwise product of the two loaded blocks. -/
def out2_2 (x0 x1 : Vec F S4096x64 .f32) : Vec F S4096x64 .f32 :=
  View.canon [⟨rM2, k2_pay1 (View.ld x0 rM2) (View.ld x1 rM2)⟩]

theorem cover2_2 (p0 : Vec F S4096x64 .f32) (y : S4096x64.Idx) :
    ∃ pc ∈ ([⟨rM2, p0⟩] : List (View.Piece (Elt F) S4096x64 .f32)), y ∈ pc.1.set :=
  View.cover_of_tiled [⟨rM2, p0⟩] S4096x64.size (by rfl) y

/-- The row-sum buffer after the body: its one store, of the product's sums over the channel axis. -/
def out2_3 (x0 x1 : Vec F S4096x64 .f32) : Vec F S4096 .f32 :=
  View.canon [⟨rS2, k2_pay2 (View.ld x0 rM2) (View.ld x1 rM2)⟩]

theorem cover2_3 (p0 : Vec F S4096 .f32) (y : S4096.Idx) :
    ∃ pc ∈ ([⟨rS2, p0⟩] : List (View.Piece (Elt F) S4096 .f32)), y ∈ pc.1.set :=
  View.cover_of_tiled [⟨rS2, p0⟩] S4096.size (by rfl) y

set_option maxHeartbeats 1000000 in
/-- The body on whole buffers, the inputs at known contents and the outputs at anything: it ends with the inputs as they
    were and the outputs at `out2_2` and `out2_3` of them. -/
theorem sound_kernel2 (c : Dev nD) (E : Set ℕ) (i : grid2.Coords)
    (arg1 : Memref sig .tc .vmem S4096x64 .f32) (harg1 : arg1.IsWhole) (arg2 : Memref sig .tc .vmem S4096x64 .f32) (harg2 : arg2.IsWhole)
    (arg3 : Memref sig .tc .vmem S4096x64 .f32) (harg3 : arg3.IsWhole) (arg4 : Memref sig .tc .vmem S4096 .f32) (harg4 : arg4.IsWhole)
    (x0 x1 : Vec F S4096x64 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out2_2 x0 x1) ∗ owns (c : Thread nD τ) arg4 fullShare (out2_3 x0 x1)) -∗ K ⟨⟩))
      ⊢ wp frame (wpE (defs₀ (F := F)) Variants.none c none) E (cc2__decode_kernel i arg1 harg1 arg2 harg2 arg3 harg3 arg4 harg4) K := by
  simp only [cc2__decode_kernel_eq_skeleton]; unfold cc2__decode_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2_2 _)
  iexists _; isplitr
  swap; · iexact H3
  ipureintro
  exact View.read_writes_eq_canon _ _ _ (cover2_3 _)

/-- The proof data of pipeline 2 on core `c`: the arrays as the region finds them; after the body every input buffer
    at its block and each output buffer at its store of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => out2_3 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem after2_3 (c : Dev nD) (t : Fin cfg2.N) : (dat2 V c).after 3 t = out2_3 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so the triple applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Body3.lean ====
/-
  Region 3 (the dense adjacency scores) as a pipeline body. At a grid point (r, s) the body reads two input blocks of the
  SAME embedding array — its 1024 rows of block-row r and its 1024 rows of block-row s — and writes TWO output blocks:
  the 1024×1024 matrix of inner products of those rows, and, as 32-bit words, the bit "this inner product is greater than
  zero". Stated at a parameter `V`, the buffer contents the region is entered from. Because both input windows read one
  array, the proof data hold that array at two complementary half shares, the left half for window 0 and the right half for
  window 1; the staging buffers are held whole as in every region.
-/
import proofs.«114604_j2405181685928_1_alg».proof.Proof.Gen.KernelIdeal.Launch
import proofs.«114604_j2405181685928_1_alg».proof.Proof.Gen.KernelIdeal.Skeleton
import proofs.«114604_j2405181685928_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its block at every point: window 1 is fetched at every point, window 0 only
    when the block-row changes, and between fetches its block index stands still. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole 1024×64 buffer and the whole 1024×1024 buffer: the rectangles the body loads and stores. -/
abbrev rZ3 : Rect S1024x64 := Rect.unit (s := S1024x64) ![0, 0] S1024x64.size inb_S1024x64_S1024x64_0_0
abbrev rG3 : Rect S1024x1024 := Rect.unit (s := S1024x1024) ![0, 0] S1024x1024.size inb_S1024x1024_S1024x1024_0_0

/-- The score buffer after the body: its one store, of the products of the first block with the second block transposed. -/
def out3_2 (x0 x1 : Vec F S1024x64 .f32) : Vec F S1024x1024 .f32 :=
  View.canon [⟨rG3, k3_pay1 (View.ld x0 rZ3) (View.ld x1 rZ3)⟩]

theorem cover3_2 (p0 : Vec F S1024x1024 .f32) (y : S1024x1024.Idx) :
    ∃ pc ∈ ([⟨rG3, p0⟩] : List (View.Piece (Elt F) S1024x1024 .f32)), y ∈ pc.1.set :=
  View.cover_of_tiled [⟨rG3, p0⟩] S1024x1024.size (by rfl) y

/-- The sign-word buffer after the body: its one store, of the widened comparison of the scores with zero. -/
def out3_3 (x0 x1 : Vec F S1024x64 .f32) : Vec F S1024x1024 .i32 :=
  View.canon [⟨rG3, k3_pay2 (View.ld x0 rZ3) (View.ld x1 rZ3)⟩]

theorem cover3_3 (p0 : Vec F S1024x1024 .i32) (y : S1024x1024.Idx) :
    ∃ pc ∈ ([⟨rG3, p0⟩] : List (View.Piece (Elt F) S1024x1024 .i32)), y ∈ pc.1.set :=
  View.cover_of_tiled [⟨rG3, p0⟩] S1024x1024.size (by rfl) y

set_option maxHeartbeats 1000000 in
/-- The body on whole buffers, the inputs at known contents and the outputs at anything: it ends with the inputs as they
    were and the outputs at `out3_2` and `out3_3` of them. -/
theorem sound_kernel3 (c : Dev nD) (E : Set ℕ) (i : grid3.Coords)
    (arg2 : Memref sig .tc .vmem S1024x64 .f32) (harg2 : arg2.IsWhole) (arg3 : Memref sig .tc .vmem S1024x64 .f32) (harg3 : arg3.IsWhole)
    (arg4 : Memref sig .tc .vmem S1024x1024 .f32) (harg4 : arg4.IsWhole) (arg5 : Memref sig .tc .vmem S1024x1024 .i32) (harg5 : arg5.IsWhole)
    (x0 x1 : Vec F S1024x64 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (out3_2 x0 x1) ∗ owns (c : Thread nD τ) arg5 fullShare (out3_3 x0 x1)) -∗ K ⟨⟩))
      ⊢ wp frame (wpE (defs₀ (F := F)) Variants.none c none) E (cc3__zzt_kernel i arg2 harg2 arg3 harg3 arg4 harg4 arg5 harg5) K := by
  simp only [cc3__zzt_kernel_eq_skeleton]; unfold cc3__zzt_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover3_2 _)
  iexists _; isplitr
  swap; · iexact H3
  ipureintro
  exact View.read_writes_eq_canon _ _ _ (cover3_3 _)

/-- The proof data of pipeline 3 on core `c`: the arrays as the region finds them; after the body every input buffer
    at its block and each output buffer at its store of the input blocks; nothing owed; the shared input array at the
    left half share for window 0 and the right half share for window 1. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
    | ⟨3, _⟩ => out3_3 (iblk3 V c 0 t) (iblk3 V c 1 t)
  Φ _ := Pipeline.ΦA spec3 c
  q w := match w with
    | ⟨0, _⟩ => fullShare.left
    | ⟨1, _⟩ => fullShare.right
    | ⟨2, _⟩ => fullShare
    | ⟨3, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]
theorem after3_3 (c : Dev nD) (t : Fin cfg3.N) : (dat3 V c).after 3 t = out3_3 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the input buffers hold their blocks, so the triple applies; the invariant and what the core
    owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.Shared3.lean ====
/-
  Region 3 reads ONE array, the embedding, through two input windows. A core holds that array's buffer whole; the pipeline's
  proof data hold it once per window. So at the region's entry the buffer's ownership is halved, the left half going to
  window 0 and the right half to window 1, both at the same contents; the two output buffers go to their windows whole.
  At the exit the halves, still at the entry contents because an input array is never written, are joined again, and the
  output buffers come back at what the write-backs left.
-/
import proofs.«114604_j2405181685928_1_alg».proof.Proof.KI.Body3

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind region 3's windows: the embedding (windows 0 and 1) and the two outputs. -/
theorem arrRefs3 : Finset.univ.image (Pipeline.arrRef spec3) = ({main_v38, main_v58_0, main_v58_1} : Finset (Ref sig .tc)) := by decide

/-- The distinct buffers behind the windows' arrays, one by one. -/
theorem arrBufs3_eq (c : Dev nD) (W : (b : Ref sig .tc) → Buf (Elt F) ((c : Thread nD τ).loc b)) :
    (Pipeline.arrBufs spec3 c W : sProp 𝕄)
      = iprop((((c : Thread nD τ).loc main_v38) ↦{fullShare} W main_v38) ∗ (((c : Thread nD τ).loc main_v58_0) ↦{fullShare} W main_v58_0)
          ∗ (((c : Thread nD τ).loc main_v58_1) ↦{fullShare} W main_v58_1)) := by
  unfold Pipeline.arrBufs
  rw [arrRefs3, BI.bigSep_insert (by decide), BI.bigSep_insert (by decide), BI.bigSep_singleton]
  rfl

/-- The pipeline's arrays at contents `G`, window by window, each a whole buffer at its window's share. -/
theorem arrays3_eq (c : Dev nD) (G : (w : Fin cfg3.W) → Buf (Elt F) ((cfg3.win w).arr.view.loc (c : Thread nD τ))) :
    ((dat3 V c).arrays G : sProp 𝕄)
      = iprop((((c : Thread nD τ).loc main_v38) ↦{fullShare.left} G 0) ∗ (((c : Thread nD τ).loc main_v38) ↦{fullShare.right} G 1)
          ∗ (((c : Thread nD τ).loc main_v58_0) ↦{fullShare} G 2) ∗ (((c : Thread nD τ).loc main_v58_1) ↦{fullShare} G 3)) := by
  unfold Dat.arrays
  -- windows 0 and 1 name one array: its index set appears once for both
  rw [bigSep_W3, (arr_whole3 0).set_eq_univ, (arr_whole3 2).set_eq_univ, (arr_whole3 3).set_eq_univ]
  rfl

/-- ENTRY: a core's unscoped buffers at `V` are region 3's arrays at the entry contents and the unscoped rest. -/
theorem entry3 (c : Dev nD) :
    (unscopedBufs c (V c) : sProp 𝕄)
      ⊢ iprop((dat3 V c).arrays ((dat3 V c).arrAt · 0) ∗ Pipeline.unscopedRest spec3 c (V c)) := by
  rw [Pipeline.unscopedBufs_split₀ cfgs 3 winFacts₀3.arr_unscoped c (V c)]
  show iprop(Pipeline.arrBufs spec3 c (V c) ∗ Pipeline.unscopedRest spec3 c (V c)) ⊢ _
  rw [arrBufs3_eq, arrays3_eq]
  refine sep_mono ?_ .rfl
  iintro ⟨H38, H580, H581⟩
  ihave H := (pointsTo_share (PosShare.mem_left_op_right fullShare)).1 $$ H38
  icases H with ⟨Hl, Hr⟩
  isplitl [Hl]; · iexact Hl
  isplitl [Hr]; · iexact Hr
  isplitl [H580]; · iexact H580
  iexact H581

/-- EXIT: region 3's arrays at what the pipeline leaves and the unscoped rest at `V` are the core's unscoped buffers at
    any valuation `V'` that has the outputs at what the write-backs leave and agrees with `V` elsewhere. -/
theorem exit3 (V' : (c : Dev nD) → (b : Ref sig .tc) → Buf (Elt F) ((c : Thread nD τ).loc b)) (c : Dev nD)
    (h0 : V' c main_v58_0 = (dat3 V c).arrAt 2 cfg3.N) (h1 : V' c main_v58_1 = (dat3 V c).arrAt 3 cfg3.N)
    (hrest : ∀ b : Ref sig .tc, b ≠ main_v58_0 → b ≠ main_v58_1 → V' c b = V c b) :
    iprop((dat3 V c).arrays ((dat3 V c).arrAt · cfg3.N) ∗ Pipeline.unscopedRest spec3 c (V c))
      ⊢ (unscopedBufs c (V' c) : sProp 𝕄) := by
  rw [Pipeline.unscopedBufs_split₀ cfgs 3 winFacts₀3.arr_unscoped c (V' c)]
  show _ ⊢ iprop(Pipeline.arrBufs spec3 c (V' c) ∗ Pipeline.unscopedRest spec3 c (V' c))
  rw [arrBufs3_eq, arrays3_eq]
  have e0 : (dat3 V c).arrAt 0 cfg3.N = V c main_v38 := ((dat3 V c).arrAt_in 0 rfl _).trans (A_eq3 V c 0)
  have e1 : (dat3 V c).arrAt 1 cfg3.N = V c main_v38 := ((dat3 V c).arrAt_in 1 rfl _).trans (A_eq3 V c 1)
  have hR : (Pipeline.unscopedRest spec3 c (V c) : sProp 𝕄) = Pipeline.unscopedRest spec3 c (V' c) := by
    unfold Pipeline.unscopedRest
    refine BI.bigSep_congr fun b hb => ?_
    have hb' := (Finset.mem_sdiff.mp hb).2
    rw [arrRefs3] at hb'
    rw [hrest b (fun e => hb' (by rw [e]; decide)) (fun e => hb' (by rw [e]; decide))]
  rw [e0, e1, hR, hrest main_v38 (by decide) (by decide), h0, h1]
  refine sep_mono ?_ .rfl
  iintro ⟨Hl, Hr, H580, H581⟩
  ihave H := (pointsTo_share (PosShare.mem_left_op_right fullShare)).2 $$ [Hl Hr]
  · isplitl [Hl] <;> iassumption
  isplitl [H]; · iexact H
  isplitl [H580]; · iexact H580
  iexact H581

end Cert.KernelIdeal.Fr

end
-- ==== Proof.KI.Run.lean ====
/-
  The run of @main: four kernel regions among stretches of host operations.

  Between two items a core holds every unscoped buffer whole at a known valuation: the launch memory, then each host
  stretch applied, and after a region the arrays of its output windows replaced by what the pipeline's write-backs leave
  (its input arrays are only read). Each region is entered from the valuation before it and left at the one after it;
  nothing is owed across a boundary and the generator register rides along. Region 3 reads ONE array through two input
  windows: at its entry that array's ownership is halved, one half per window, and at its exit the halves are joined again.
  The run's conclusion: every weakly fair execution terminates, nothing faults, and every unscoped buffer ends at the last
  valuation. The frame (the arguments end as launched) and the results' values are read off that valuation.
-/
import proofs.«114604_j2405181685928_1_alg».proof.Proof.KI.Body0
import proofs.«114604_j2405181685928_1_alg».proof.Proof.KI.Body1
import proofs.«114604_j2405181685928_1_alg».proof.Proof.KI.Body2
import proofs.«114604_j2405181685928_1_alg».proof.Proof.KI.Body3
import proofs.«114604_j2405181685928_1_alg».proof.Proof.KI.Shared3
import proofs.«114604_j2405181685928_1_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at every boundary -/

/-- At launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its output array at what the write-backs leave, every other buffer as entered. -/
def W2 (c : Dev nD) : Valuation τ sig (Elt F) :=
  Function.update (W1 m c) main_v25 ((dat0 (V1 m) c).arrAt 5 cfg0.N)
abbrev V2 : (c : Dev nD) → (b : Ref sig .tc) → Buf (Elt F) ((c : Thread nD τ).loc b) := fun c b => W2 m c b
/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Function.update (W3 m c) main_v38 ((dat1 (V3 m) c).arrAt 5 cfg1.N)
abbrev V4 : (c : Dev nD) → (b : Ref sig .tc) → Buf (Elt F) ((c : Thread nD τ).loc b) := fun c b => W4 m c b
/-- After the third host stretch (region 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At region 2's exit (region 3's entry: no host operation lies between them). -/
def W6 (c : Dev nD) : Valuation τ sig (Elt F) :=
  Function.update (Function.update (W5 m c) main_v57_0 ((dat2 (V5 m) c).arrAt 2 cfg2.N)) main_v57_1 ((dat2 (V5 m) c).arrAt 3 cfg2.N)
abbrev V6 : (c : Dev nD) → (b : Ref sig .tc) → Buf (Elt F) ((c : Thread nD τ).loc b) := fun c b => W6 m c b
/-- At region 3's exit. -/
def W7 (c : Dev nD) : Valuation τ sig (Elt F) :=
  Function.update (Function.update (W6 m c) main_v58_0 ((dat3 (V6 m) c).arrAt 2 cfg3.N)) main_v58_1 ((dat3 (V6 m) c).arrAt 3 cfg3.N)
abbrev V7 : (c : Dev nD) → (b : Ref sig .tc) → Buf (Elt F) ((c : Thread nD τ).loc b) := fun c b => W7 m c b
/-- After the last host stretch: the end. -/
abbrev W8 : Dev nD → Valuation τ sig (Elt F) := fun c => StableHlo.after hostOps4 (W7 m c)

/-- A valuation updated at one reference is unchanged at another. -/
theorem upd_ne {c : Dev nD} (W : Valuation τ sig (Elt F)) (r b : Ref sig .tc) (x : Buf (Elt F) ((c : Thread nD τ).loc r)) (h : b ≠ r) :
    Function.update W (Proc.devRef .tc r) x (Proc.devRef .tc b) = W (Proc.devRef .tc b) :=
  Function.update_of_ne (StableHlo.devRef_ne_of_ne h) _ _

/-! ## The proof data family and the thread state -/

/-- Every pipeline's proof data, each at its region's entry contents. -/
def pdats : (p : Fin 4) → (c : Dev nD) → Dat τ (Elt F) Unit ℕ (UR sig nD τ) ℕ (Pipeline.pin (pcfgs (F := F)) Gen.adm p) c
  | ⟨0, _⟩ => fun c => dat0 (V1 m) c
  | ⟨1, _⟩ => fun c => dat1 (V3 m) c
  | ⟨2, _⟩ => fun c => dat2 (V5 m) c
  | ⟨3, _⟩ => fun c => dat3 (V6 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last valuation, the generator register. -/
abbrev Tₙ (c : Dev nD) : sProp 𝕄 := iprop(StableHlo.held (c : Thread nD τ) (Pipeline.ucRefs τ sig) (W8 m c) ∗ ∃ r, prngReg c r)

/-! ## What each region leaves where -/

theorem hF0 (c : Dev nD) (w : Fin cfg0.W) : (dat0 (V1 m) c).arrAt w cfg0.N = V2 m c (Pipeline.arrRef spec0 w) := by
  match w with
  | ⟨0, _⟩ => exact ((dat0 (V1 m) c).arrAt_in 0 rfl _).trans ((A_eq0 (V1 m) c 0).trans (upd_ne _ main_v25 _ _ (by decide)).symm)
  | ⟨1, _⟩ => exact ((dat0 (V1 m) c).arrAt_in 1 rfl _).trans ((A_eq0 (V1 m) c 1).trans (upd_ne _ main_v25 _ _ (by decide)).symm)
  | ⟨2, _⟩ => exact ((dat0 (V1 m) c).arrAt_in 2 rfl _).trans ((A_eq0 (V1 m) c 2).trans (upd_ne _ main_v25 _ _ (by decide)).symm)
  | ⟨3, _⟩ => exact ((dat0 (V1 m) c).arrAt_in 3 rfl _).trans ((A_eq0 (V1 m) c 3).trans (upd_ne _ main_v25 _ _ (by decide)).symm)
  | ⟨4, _⟩ => exact ((dat0 (V1 m) c).arrAt_in 4 rfl _).trans ((A_eq0 (V1 m) c 4).trans (upd_ne _ main_v25 _ _ (by decide)).symm)
  | ⟨5, _⟩ => exact (Function.update_self (β := fun b : DevRef τ sig => Buf (Elt F) ((c : Thread nD τ).1, b)) (Proc.devRef .tc main_v25) _ (W1 m c)).symm
theorem hrest0 (c : Dev nD) : ∀ b, b ∉ Finset.univ.image (Pipeline.arrRef spec0) → V2 m c b = V1 m c b :=
  fun b hb => upd_ne _ main_v25 b _ fun e => hb (Finset.mem_image.mpr ⟨5, Finset.mem_univ _, e.symm⟩)

theorem hF1 (c : Dev nD) (w : Fin cfg1.W) : (dat1 (V3 m) c).arrAt w cfg1.N = V4 m c (Pipeline.arrRef spec1 w) := by
  match w with
  | ⟨0, _⟩ => exact ((dat1 (V3 m) c).arrAt_in 0 rfl _).trans ((A_eq1 (V3 m) c 0).trans (upd_ne _ main_v38 _ _ (by decide)).symm)
  | ⟨1, _⟩ => exact ((dat1 (V3 m) c).arrAt_in 1 rfl _).trans ((A_eq1 (V3 m) c 1).trans (upd_ne _ main_v38 _ _ (by decide)).symm)
  | ⟨2, _⟩ => exact ((dat1 (V3 m) c).arrAt_in 2 rfl _).trans ((A_eq1 (V3 m) c 2).trans (upd_ne _ main_v38 _ _ (by decide)).symm)
  | ⟨3, _⟩ => exact ((dat1 (V3 m) c).arrAt_in 3 rfl _).trans ((A_eq1 (V3 m) c 3).trans (upd_ne _ main_v38 _ _ (by decide)).symm)
  | ⟨4, _⟩ => exact ((dat1 (V3 m) c).arrAt_in 4 rfl _).trans ((A_eq1 (V3 m) c 4).trans (upd_ne _ main_v38 _ _ (by decide)).symm)
  | ⟨5, _⟩ => exact (Function.update_self (β := fun b : DevRef τ sig => Buf (Elt F) ((c : Thread nD τ).1, b)) (Proc.devRef .tc main_v38) _ (W3 m c)).symm
theorem hrest1 (c : Dev nD) : ∀ b, b ∉ Finset.univ.image (Pipeline.arrRef spec1) → V4 m c b = V3 m c b :=
  fun b hb => upd_ne _ main_v38 b _ fun e => hb (Finset.mem_image.mpr ⟨5, Finset.mem_univ _, e.symm⟩)

theorem hF2 (c : Dev nD) (w : Fin cfg2.W) : (dat2 (V5 m) c).arrAt w cfg2.N = V6 m c (Pipeline.arrRef spec2 w) := by
  match w with
  | ⟨0, _⟩ => exact ((dat2 (V5 m) c).arrAt_in 0 rfl _).trans ((A_eq2 (V5 m) c 0).trans (((upd_ne _ main_v57_1 _ _ (by decide)).trans (upd_ne _ main_v57_0 _ _ (by decide))).symm))
  | ⟨1, _⟩ => exact ((dat2 (V5 m) c).arrAt_in 1 rfl _).trans ((A_eq2 (V5 m) c 1).trans (((upd_ne _ main_v57_1 _ _ (by decide)).trans (upd_ne _ main_v57_0 _ _ (by decide))).symm))
  | ⟨2, _⟩ => exact ((upd_ne _ main_v57_1 main_v57_0 _ (by decide)).trans
      (Function.update_self (β := fun b : DevRef τ sig => Buf (Elt F) ((c : Thread nD τ).1, b)) (Proc.devRef .tc main_v57_0) _ (W5 m c))).symm
  | ⟨3, _⟩ => exact (Function.update_self (β := fun b : DevRef τ sig => Buf (Elt F) ((c : Thread nD τ).1, b)) (Proc.devRef .tc main_v57_1) _ _).symm
theorem hrest2 (c : Dev nD) : ∀ b, b ∉ Finset.univ.image (Pipeline.arrRef spec2) → V6 m c b = V5 m c b :=
  fun b hb => (upd_ne _ main_v57_1 b _ fun e => hb (Finset.mem_image.mpr ⟨3, Finset.mem_univ _, e.symm⟩)).trans
    (upd_ne _ main_v57_0 b _ fun e => hb (Finset.mem_image.mpr ⟨2, Finset.mem_univ _, e.symm⟩))

/-! ## What region 3 leaves where -/

theorem h3_0 (c : Dev nD) : V7 m c main_v58_0 = (dat3 (V6 m) c).arrAt 2 cfg3.N :=
  (upd_ne _ main_v58_1 main_v58_0 _ (by decide)).trans
    (Function.update_self (β := fun b : DevRef τ sig => Buf (Elt F) ((c : Thread nD τ).1, b)) (Proc.devRef .tc main_v58_0) _ (W6 m c))
theorem h3_1 (c : Dev nD) : V7 m c main_v58_1 = (dat3 (V6 m) c).arrAt 3 cfg3.N :=
  Function.update_self (β := fun b : DevRef τ sig => Buf (Elt F) ((c : Thread nD τ).1, b)) (Proc.devRef .tc main_v58_1) _ _
theorem h3_rest (c : Dev nD) : ∀ b : Ref sig .tc, b ≠ main_v58_0 → b ≠ main_v58_1 → V7 m c b = V6 m c b :=
  fun b h0 h1 => (upd_ne _ main_v58_1 b _ h1).trans (upd_ne _ main_v58_0 b _ h0)

/-! ## The regions as segments -/

set_option backward.isDefEq.respectTransparency.types false in
/-- REGION 0: entered from every unscoped buffer at `W1`, left at `W2`. Its arrays are split out of the unscoped
    buffers at entry and put back at the exit contents; the generator register goes into the invariant and comes back;
    nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1: entered from every unscoped buffer at `W3`, left at `W4`. Its arrays are split out of the unscoped
    buffers at entry and put back at the exit contents; the generator register goes into the invariant and comes back;
    nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2: entered from every unscoped buffer at `W5`, left at `W6`. Its arrays are split out of the unscoped
    buffers at entry and put back at the exit contents; the generator register goes into the invariant and comes back;
    nothing is owed; the kernel has no semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3: entered from every unscoped buffer at `W6`, left at `W7`. The embedding's buffer is halved between the two
    input windows at entry (`entry3`) and joined at exit (`exit3`); otherwise as the other regions. -/
def reg3 : Pipeline.RegionSeg (pcfgs (F := F)) Gen.adm (pdats m) () defs₀ 𝒱₀ L lv 3 where
  win := winFacts₀3
  block_pos := block_pos3
  stage_whole := stage_whole3
  K := PEmpty
  osem k := k.elim
  ho := Pipeline.OwnSemFacts.none _
  hbody c := (body_obligation3 (V6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (V6 m c)
  hentry c := by
    rw [Pipeline.ownSems0_none]
    have hsplit : (unscopedBufs c (V6 m c) : sProp 𝕄)
        ⊢ iprop((pdats m 3 c).arrays ((pdats m 3 c).arrAt · 0) ∗ Pipeline.unscopedRest spec3 c (V6 m c)) := entry3 (V6 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m 3 c).arrays ((pdats m 3 c).arrAt · cfg3.N) ∗ Pipeline.unscopedRest spec3 c (V6 m c))
        ⊢ (unscopedBufs c (V7 m c) : sProp 𝕄) := exit3 (V6 m) (V7 m) c (h3_0 m c) (h3_1 m c) (h3_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 8 items in order: a host segment per stretch from its boundary's contents, a region per pallas_call. -/
abbrev segs : List (Pipeline.Seg (pcfgs (F := F)) Gen.adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .region (reg3 m),
    .host (hseg hostOps4 hostOps4_sub hostOps4_fresh (W7 m)) ]

/-- @main is the run of the segments. -/
theorem main_run (c : Dev nD) : main (F := F) c = Pipeline.Seg.run (segs m) := by
  rw [main_chain c, Pipeline.Seg.run_eq_chain]
  rfl

set_option backward.isDefEq.respectTransparency.types false in
/-- THE RUN: from any memory with zero counters, every weakly fair execution of @main on the TensorCores terminates,
    nothing faulting, and every final state holds every unscoped buffer at the last valuation `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m c) ∗ R c)
          ⊢ iprop(Tₙ m c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

end Cert.KernelIdeal.Fr

end
-- ==== Proof.KI.Frame.lean ====
/-
  The frame of @main: every argument array ends holding what it was launched with. No host operation writes an
  argument and no region has one as an output window's array, so walking the last valuation back item by item — a host
  stretch leaves a buffer it does not write unchanged, a region changes only its output arrays — reaches the launch memory.
  The same small steps serve to walk any buffer back to the item that wrote it.
-/
import proofs.«114604_j2405181685928_1_alg».proof.Proof.KI.Run

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each item leaves unchanged -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ≠ main_v25) : W2 m c r = W1 m c r :=
  upd_ne _ main_v25 r _ h
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ≠ main_v38) : W4 m c r = W3 m c r :=
  upd_ne _ main_v38 r _ h
theorem W5_of (c : Dev nD) (r : Ref sig .tc) (h : r ∉ hostOps2_W) : W5 m c r = W4 m c r :=
  StableHlo.after_of_writes_sub hostOps2 _ hostOps2_writes h
theorem W6_of (c : Dev nD) (r : Ref sig .tc) (h0 : r ≠ main_v57_0) (h1 : r ≠ main_v57_1) : W6 m c r = W5 m c r :=
  (upd_ne _ main_v57_1 r _ h1).trans (upd_ne _ main_v57_0 r _ h0)
theorem W7_of (c : Dev nD) (r : Ref sig .tc) (h0 : r ≠ main_v58_0) (h1 : r ≠ main_v58_1) : W7 m c r = W6 m c r :=
  (upd_ne _ main_v58_1 r _ h1).trans (upd_ne _ main_v58_0 r _ h0)
theorem W8_of (c : Dev nD) (r : Ref sig .tc) (h : r ∉ hostOps4_W) : W8 m c r = W7 m c r :=
  StableHlo.after_of_writes_sub hostOps4 _ hostOps4_writes h

/-- A buffer that no host stretch writes and no region has as an output ends as launched. -/
theorem kept (c : Dev nD) (r : Ref sig .tc) (h0 : r ∉ hostOps0_W) (h1 : r ∉ hostOps1_W) (h2 : r ∉ hostOps2_W) (h4 : r ∉ hostOps4_W)
    (hr : r ∉ ([main_v25, main_v38, main_v57_0, main_v57_1, main_v58_0, main_v58_1] : List (Ref sig .tc))) :
    W8 m c r = m ((c : Thread nD τ).loc r) := by
  have e25 : r ≠ main_v25 := fun e => hr (by rw [e]; decide)
  have e38 : r ≠ main_v38 := fun e => hr (by rw [e]; decide)
  have e570 : r ≠ main_v57_0 := fun e => hr (by rw [e]; decide)
  have e571 : r ≠ main_v57_1 := fun e => hr (by rw [e]; decide)
  have e580 : r ≠ main_v58_0 := fun e => hr (by rw [e]; decide)
  have e581 : r ≠ main_v58_1 := fun e => hr (by rw [e]; decide)
  exact (W8_of m c r h4).trans <| (W7_of m c r e580 e581).trans <| (W6_of m c r e570 e571).trans <| (W5_of m c r h2).trans <|
    (W4_of m c r e38).trans <| (W3_of m c r h1).trans <| (W2_of m c r e25).trans <| (W1_of m c r h0).trans rfl

/-! ## The frame -/

/-- Every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (kept m c main_arg0 (by decide) (by decide) (by decide) (by decide) (by decide)),
     (h c _ (mem_uc main_arg1 (by decide))).trans (kept m c main_arg1 (by decide) (by decide) (by decide) (by decide) (by decide)),
     (h c _ (mem_uc main_arg2 (by decide))).trans (kept m c main_arg2 (by decide) (by decide) (by decide) (by decide) (by decide)),
     (h c _ (mem_uc main_arg3 (by decide))).trans (kept m c main_arg3 (by decide) (by decide) (by decide) (by decide) (by decide)),
     (h c _ (mem_uc main_arg4 (by decide))).trans (kept m c main_arg4 (by decide) (by decide) (by decide) (by decide) (by decide)),
     (h c _ (mem_uc main_arg5 (by decide))).trans (kept m c main_arg5 (by decide) (by decide) (by decide) (by decide) (by decide)),
     (h c _ (mem_uc main_arg6 (by decide))).trans (kept m c main_arg6 (by decide) (by decide) (by decide) (by decide) (by decide)),
     (h c _ (mem_uc main_arg7 (by decide))).trans (kept m c main_arg7 (by decide) (by decide) (by decide) (by decide) (by decide)),
     (h c _ (mem_uc main_arg8 (by decide))).trans (kept m c main_arg8 (by decide) (by decide) (by decide) (by decide) (by decide))⟩)
    (run_all m ρ)

end Cert.KernelIdeal.Fr

end
-- ==== Proof.Spec.lean ====
/-
  The results of the two-layer SAGE network, entry by entry, as functions on the extended reals of the arrays they are
  computed from. Both programs are compared against these.

  * a linear layer: (Σₖ A[i,k]·W_l[k,j] + Σₖ X[i,k]·W_r[k,j]) + b[j], with a relu (max with 0) for the first layer;
  * the edge decoder: the product P[e,k]·Q[e,k] of two gathered embedding rows and its sum over the 64 channels;
  * the dense scores: Σₖ Z[i,k]·Z[j,k], and the bit "this score is greater than zero", also widened to a 32-bit word.
-/
import Idealize.ShloMosaic.PureOps.Ideal
import Idealize.ShloMosaic.Lib.ValueIdx

noncomputable section

namespace Cert.Spec

open Idealize.ShloMosaic Idealize.ShloMosaic.ValueIdx

/-- Entry (i, j) of the first layer: relu((A·W_l + X·W_r) + b). -/
def lin1At (A X : (⟨2, ![16384, 128]⟩ : Shape).Idx → EReal) (Wl Wr : (⟨2, ![128, 128]⟩ : Shape).Idx → EReal)
    (b : (⟨1, ![128]⟩ : Shape).Idx → EReal) (i : Fin 16384) (j : Fin 128) : EReal :=
  max (((∑ k : Fin 128, A (ix2 i k) * Wl (ix2 k j)) + ∑ k : Fin 128, X (ix2 i k) * Wr (ix2 k j)) + b (ix1 j)) 0

/-- Entry (i, j) of the second layer: (A·W_l + X·W_r) + b. -/
def lin2At (A X : (⟨2, ![16384, 128]⟩ : Shape).Idx → EReal) (Wl Wr : (⟨2, ![128, 64]⟩ : Shape).Idx → EReal)
    (b : (⟨1, ![64]⟩ : Shape).Idx → EReal) (i : Fin 16384) (j : Fin 64) : EReal :=
  ((∑ k : Fin 128, A (ix2 i k) * Wl (ix2 k j)) + ∑ k : Fin 128, X (ix2 i k) * Wr (ix2 k j)) + b (ix1 j)

/-- Entry (e, k) of the decoder's product. -/
def prodAt (P Q : (⟨2, ![131072, 64]⟩ : Shape).Idx → EReal) (e : Fin 131072) (k : Fin 64) : EReal :=
  P (ix2 e k) * Q (ix2 e k)

/-- Entry e of the decoder's sum over the channels. -/
def rowSumAt (P Q : (⟨2, ![131072, 64]⟩ : Shape).Idx → EReal) (e : Fin 131072) : EReal :=
  ∑ k : Fin 64, P (ix2 e k) * Q (ix2 e k)

/-- Entry (i, j) of the dense scores Z·Zᵀ. -/
def gramAt (Z : (⟨2, ![16384, 64]⟩ : Shape).Idx → EReal) (i j : Fin 16384) : EReal :=
  ∑ k : Fin 64, Z (ix2 i k) * Z (ix2 j k)

/-- The bit "x is greater than zero", as the float comparison gives it. -/
def posBit (x : EReal) : BitVec 1 :=
  FloatOps.cmpf (F := Ideal) (φ := .f32) .ogt x (Scalar.ofBits (F := Ideal) .f32 0x00000000#32)

/-- That bit widened to a 32-bit word. -/
def posWord (x : EReal) : BitVec 32 := (posBit x).setWidth 32

/-- Comparing the widened bit with the zero word gives the bit back. -/
theorem ne_zero_posWord (x : EReal) : IntOp.cmpi .ne (posWord x) 0#32 = posBit x := by
  unfold posWord
  generalize posBit x = b
  revert b
  decide

end Cert.Spec

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.KI.Val0.lean ====
/-
  Region 0's output array after the run, as ONE function of the arrays the region is entered with: at the ideal
  instance every entry (i, j) of the array the write-backs leave is the first layer's value relu((A·W_l + X·W_r) + b) at
  (i, j), the 2048-row blocks written at the eight grid points covering the 16384 rows.
-/
import proofs.«114604_j2405181685928_1_alg».proof.Proof.KI.Body0
import proofs.«114604_j2405181685928_1_alg».proof.Proof.Spec
import proofs.«114604_j2405181685928_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-- A one-row bias kept as a 128-entry row, cast to one row of 128 and spread over the 2048 rows: at (p, q) it is the
    bias's entry q. -/
theorem bias_spread_apply (b : Vec Ideal S128 .f32) (p : Fin 2048) (q : Fin 128) :
    broadcastTo S2048x128 (shapeCast S1x128 b shapeCasts_S128_S1x128) broadcasts_S1x128_S2048x128 (ix2 p q) = b (ix1 q) := by
  refine (broadcastTo_1b_ab_apply _ _ p q).trans ?_
  refine shapeCast_apply b _ _ _ ?_
  rw [Shape.rowMajor_val_two, Shape.rowMajor_val_one]
  show q.val = (0 : Fin 1).val * 128 + q.val
  simp

/-- The body's value at entry (p, q) of its block: relu of the two row-by-column sums plus the bias's entry q. -/
theorem pay0_apply (x0 x1 : Vec Ideal S2048x128 .f32) (w2 w3 : Vec Ideal S128x128 .f32) (b4 : Vec Ideal S128 .f32)
    (p : Fin 2048) (q : Fin 128) :
    k0_pay1 x0 w2 x1 w3 b4 (ix2 p q)
      = max (((∑ k : Fin 128, x0 (ix2 p k) * w2 (ix2 k q)) + ∑ k : Fin 128, x1 (ix2 p k) * w3 (ix2 k q)) + b4 (ix1 q)) 0 := by
  unfold k0_pay1
  have e1 : matmul (φ₁ := .f32) (φ₂ := .f32) dot_S2048x128_S128x128_S2048x128_1_0_0_1_n_n none
      (shapeCast S2048x128 (x0 : FVec Ideal S2048x128 .f32) shapeCasts_S2048x128_S2048x128) w2
      (constant (F := Ideal) S2048x128 .f32 0x00000000#32) (ix2 p q) = ∑ k : Fin 128, x0 (ix2 p k) * w2 (ix2 k q) := by
    rw [shapeCast_self]
    exact Cert.RowOps.matmul_apply dot_S2048x128_S128x128_S2048x128_1_0_0_1_n_n_wf none x0 w2 p q
  have e2 : matmul (φ₁ := .f32) (φ₂ := .f32) dot_S2048x128_S128x128_S2048x128_1_0_0_1_n_n none x1 w3
      (constant (F := Ideal) S2048x128 .f32 0x00000000#32) (ix2 p q) = ∑ k : Fin 128, x1 (ix2 p k) * w3 (ix2 k q) :=
    Cert.RowOps.matmul_apply dot_S2048x128_S128x128_S2048x128_1_0_0_1_n_n_wf none x1 w3 p q
  show max ((matmul (φ₁ := .f32) (φ₂ := .f32) dot_S2048x128_S128x128_S2048x128_1_0_0_1_n_n none
        (shapeCast S2048x128 (x0 : FVec Ideal S2048x128 .f32) shapeCasts_S2048x128_S2048x128) w2
        (constant (F := Ideal) S2048x128 .f32 0x00000000#32) (ix2 p q)
      + matmul (φ₁ := .f32) (φ₂ := .f32) dot_S2048x128_S128x128_S2048x128_1_0_0_1_n_n none x1 w3
        (constant (F := Ideal) S2048x128 .f32 0x00000000#32) (ix2 p q))
      + broadcastTo S2048x128 (shapeCast S1x128 b4 shapeCasts_S128_S1x128) broadcasts_S1x128_S2048x128 (ix2 p q))
      (Ideal.ofBits .f32 0x00000000#32) = _
  rw [e1, e2, bias_spread_apply, Ideal.ofBits_zero_f32]

theorem hz0 : (![0, 0] : Fin 2 → Nat) = fun _ => 0 := funext fun a => by fin_cases a <;> rfl
theorem hz1 : (![0] : Fin 1 → Nat) = fun _ => 0 := funext fun a => by fin_cases a; rfl

/-- The first layer's whole array, entry by entry, of the arrays the region is entered with. -/
abbrev lin1Arr (c : Dev nD) : S16384x128.Idx → EReal := fun y =>
  Cert.Spec.lin1At (V c main_v24) (V c main_arg0) (V c main_arg3) (V c main_arg5) (V c main_arg4) (y 0) (y 1)

/-- The block indices over the grid: the two feature windows move with the output window, whose row-block index is the
    point's number; the weights and the bias stay at block 0. -/
theorem blockIdx0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- What point t writes back is block t of the layer's array: the body's value at entry (p, q) of the block is the
    layer's value at row (block index × 2048 + p), column q, because the two feature blocks are the same 2048 rows of
    their arrays and the weights and the bias are read whole. -/
theorem flushed0_5_eq (c : Dev nD) (t : Fin cfg0.N) :
    (dat0 (F := Ideal) V c).flushed 5 t = ((cfg0.win 5).blk t).view.read (Elt Ideal) (lin1Arr V c) := by
  show (cfg0.win 5).cut (grid0.coords t) ((dat0 (F := Ideal) V c).after 5 t) = _
  rw [after0_5]
  unfold out0_5
  rw [View.canon_unit_zero hz0]
  simp only [View.ld_unit_zero (S := S2048x128) hz0, View.ld_unit_zero (S := S128x128) hz0, View.ld_unit_zero (S := S128) hz1]
  obtain ⟨e00, e01, e10, e11, e20, e21, e30, e31, e40, e50, e51⟩ := blockIdx0 t
  funext j
  obtain ⟨p, q, rfl⟩ : ∃ (p : Fin 2048) (q : Fin 128), j = ix2 p q := ⟨j 0, j 1, eq_ix2 j⟩
  show k0_pay1 (iblk0 V c 0 t) (iblk0 V c 2 t) (iblk0 V c 1 t) (iblk0 V c 3 t) (iblk0 V c 4 t) (ix2 p q)
      = Cert.Spec.lin1At (V c main_v24) (V c main_arg0) (V c main_arg3) (V c main_arg5) (V c main_arg4)
          ((((cfg0.win 5).blk t).view.emb (ix2 p q)) 0) ((((cfg0.win 5).blk t).view.emb (ix2 p q)) 1)
  refine (pay0_apply (iblk0 V c 0 t) (iblk0 V c 1 t) (iblk0 V c 2 t) (iblk0 V c 3 t) (iblk0 V c 4 t) p q).trans ?_
  unfold Cert.Spec.lin1At
  refine congrArg₂ max (congrArg₂ (· + ·) (congrArg₂ (· + ·) (Finset.sum_congr rfl fun k _ => congrArg₂ (· * ·) ?_ ?_)
    (Finset.sum_congr rfl fun k _ => congrArg₂ (· * ·) ?_ ?_)) ?_) rfl
  · -- the aggregated features' block: rows of the output's block, all 128 columns
    show V c main_v24 (((cfg0.win 0).blk t).view.emb (ix2 p k)) = V c main_v24 _
    refine congrArg (V c main_v24) (funext fun a => Fin.ext ?_)
    match a with
    | ⟨0, _⟩ => show win0_0.index t (0 : Fin 2) * 2048 + 1 * p.val = win0_5.index t (0 : Fin 2) * 2048 + 1 * p.val; omega
    | ⟨1, _⟩ => show win0_0.index t (1 : Fin 2) * 128 + 1 * k.val = k.val; omega
  · -- the left weight, whole
    show V c main_arg3 (((cfg0.win 2).blk t).view.emb (ix2 k q)) = V c main_arg3 _
    refine congrArg (V c main_arg3) (funext fun a => Fin.ext ?_)
    match a with
    | ⟨0, _⟩ => show win0_2.index t (0 : Fin 2) * 128 + 1 * k.val = k.val; omega
    | ⟨1, _⟩ => show win0_2.index t (1 : Fin 2) * 128 + 1 * q.val = win0_5.index t (1 : Fin 2) * 128 + 1 * q.val; omega
  · -- the node features' block: the same rows
    show V c main_arg0 (((cfg0.win 1).blk t).view.emb (ix2 p k)) = V c main_arg0 _
    refine congrArg (V c main_arg0) (funext fun a => Fin.ext ?_)
    match a with
    | ⟨0, _⟩ => show win0_1.index t (0 : Fin 2) * 2048 + 1 * p.val = win0_5.index t (0 : Fin 2) * 2048 + 1 * p.val; omega
    | ⟨1, _⟩ => show win0_1.index t (1 : Fin 2) * 128 + 1 * k.val = k.val; omega
  · -- the right weight, whole
    show V c main_arg5 (((cfg0.win 3).blk t).view.emb (ix2 k q)) = V c main_arg5 _
    refine congrArg (V c main_arg5) (funext fun a => Fin.ext ?_)
    match a with
    | ⟨0, _⟩ => show win0_3.index t (0 : Fin 2) * 128 + 1 * k.val = k.val; omega
    | ⟨1, _⟩ => show win0_3.index t (1 : Fin 2) * 128 + 1 * q.val = win0_5.index t (1 : Fin 2) * 128 + 1 * q.val; omega
  · -- the bias, whole
    show V c main_arg4 (((cfg0.win 4).blk t).view.emb (ix1 q)) = V c main_arg4 _
    refine congrArg (V c main_arg4) (funext fun a => Fin.ext ?_)
    match a with
    | ⟨0, _⟩ => show win0_4.index t (0 : Fin 1) * 128 + 1 * q.val = win0_5.index t (1 : Fin 2) * 128 + 1 * q.val; omega

/-- An entry of the array lies in point t's block iff, on each axis, its coordinate is within the block's extent from
    the block's start (block index × extent). -/
theorem mem_blk0_5 (t : Fin cfg0.N) (i : S16384x128.Idx) :
    i ∈ ((cfg0.win 5).blk t).view.set ↔ ∀ a : Fin 2, win0_5.index t a * S2048x128.size a ≤ (i a).val
      ∧ (i a).val < win0_5.index t a * S2048x128.size a + S2048x128.size a := by
  show i ∈ ((View.whole main_v25).slice (win0_5.rect t)).set ↔ _
  rw [View.set_slice_whole, Rect.mem_set_unit]
  exact Iff.rfl

/-- The eight 2048-row blocks cover the 16384 rows: row r lies in the block of point r / 2048, and every block spans all
    128 columns. -/
theorem covered0_5 (i : S16384x128.Idx) :
    ∃ t : Fin cfg0.N, (cfg0.win 5).flush t = true ∧ i ∈ ((cfg0.win 5).blk t).view.set := by
  have hi0 : (i 0).val < 16384 := (i 0).isLt
  have hi1 : (i 1).val < 128 := (i 1).isLt
  have hN : grid0.N = 8 := N_0
  have ht : (i 0).val / 2048 < cfg0.N := by show (i 0).val / 2048 < grid0.N; rw [hN]; omega
  obtain ⟨-, -, -, -, -, -, -, -, -, e50, e51⟩ := blockIdx0 ⟨(i 0).val / 2048, ht⟩
  refine ⟨⟨(i 0).val / 2048, ht⟩, flush0_5 _, ?_⟩
  rw [mem_blk0_5]
  intro a
  match a with
  | ⟨0, _⟩ =>
    show win0_5.index ⟨(i 0).val / 2048, ht⟩ (0 : Fin 2) * 2048 ≤ (i 0).val
      ∧ (i 0).val < win0_5.index ⟨(i 0).val / 2048, ht⟩ (0 : Fin 2) * 2048 + 2048
    rw [e50]
    show (i 0).val / 2048 * 2048 ≤ (i 0).val ∧ (i 0).val < (i 0).val / 2048 * 2048 + 2048
    omega
  | ⟨1, _⟩ =>
    show win0_5.index ⟨(i 0).val / 2048, ht⟩ (1 : Fin 2) * 128 ≤ (i 1).val
      ∧ (i 1).val < win0_5.index ⟨(i 0).val / 2048, ht⟩ (1 : Fin 2) * 128 + 128
    rw [e51]
    omega

/-- The output array after the run is the layer's array: every write-back leaves its block of it, and the blocks cover
    the array. -/
theorem final0_5 (c : Dev nD) :
    ((dat0 (F := Ideal) V c).arrAt 5 cfg0.N : S16384x128.Idx → EReal)
      = fun y => Cert.Spec.lin1At (V c main_v24) (V c main_arg0) (V c main_arg3) (V c main_arg5) (V c main_arg4) (y 0) (y 1) := by
  exact (dat0 (F := Ideal) V c).arrAt_eq_of_cover 5 (lin1Arr V c) (fun t _ => flushed0_5_eq V c t) covered0_5

end Cert.KernelIdeal.Fr

end
-- ==== Proof.KI.Val1.lean ====
/-
  Region 1's output array after the run, as ONE function of the arrays the region is entered with: at the ideal
  instance every entry (i, j) of the array the write-backs leave is the second layer's value (A·W_l + H·W_r) + b at (i, j),
  the 2048-row blocks written at the eight grid points covering the 16384 rows.
-/
import proofs.«114604_j2405181685928_1_alg».proof.Proof.KI.Body1
import proofs.«114604_j2405181685928_1_alg».proof.Proof.Spec
import proofs.«114604_j2405181685928_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-- The bias row kept as a one-row matrix: entry (0, q) of the cast is entry q of the row. -/
theorem row_as_matrix_apply (b : Vec Ideal S64 .f32) (q : Fin 64) :
    shapeCast S1x64 b shapeCasts_S64_S1x64 (ix2 (0 : Fin 1) q) = b (ix1 q) :=
  shapeCast_apply b shapeCasts_S64_S1x64 _ _ (by
    rw [Shape.rowMajor_val_two, Shape.rowMajor_val_one]
    show q.val = (0 : Fin 1).val * 64 + q.val
    simp)

/-- The layer's value on a block, entry by entry: the two products' sums over the 128 channels, plus the bias of the column. -/
theorem lin2_pay_apply (x0 x1 : Vec Ideal S2048x128 .f32) (w0 w1 : Vec Ideal S128x64 .f32) (b : Vec Ideal S64 .f32)
    (p : Fin 2048) (q : Fin 64) :
    k1_pay1 x0 w0 x1 w1 b (ix2 p q)
      = ((∑ k : Fin 128, x0 (ix2 p k) * w0 (ix2 k q)) + ∑ k : Fin 128, x1 (ix2 p k) * w1 (ix2 k q)) + b (ix1 q) := by
  unfold k1_pay1
  rw [shapeCast_self, shapeCast_self, addf_apply, addf_apply]
  refine congrArg₂ (· + ·) (congrArg₂ (· + ·) ?_ ?_) ?_
  · exact Cert.RowOps.matmul_apply dot_S2048x128_S128x64_S2048x64_1_0_0_1_n_n_wf none x0 w0 p q
  · exact Cert.RowOps.matmul_apply dot_S2048x128_S128x64_S2048x64_1_0_0_1_n_n_wf none x1 w1 p q
  · exact (broadcastTo_1b_ab_apply _ broadcasts_S1x64_S2048x64 p q).trans (row_as_matrix_apply b q)

/-- The offsets (0, 0) and (0) are the zero offsets. -/
theorem zero_off2 : (![0, 0] : Fin 2 → Nat) = fun _ => 0 := funext fun a => match a with | ⟨0, _⟩ => rfl | ⟨1, _⟩ => rfl
theorem zero_off1 : (![0] : Fin 1 → Nat) = fun _ => 0 := funext fun a => match a with | ⟨0, _⟩ => rfl

/-- The printed index maps over the eight points: the two feature windows and the output window sit on row block t,
    column block 0; the two weights and the bias are block 0 throughout. -/
theorem row_blocks : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row p of point t's slab of the aggregated features is row t·2048 + p of the array. -/
theorem agg_block_apply (c : Dev nD) (t : Fin cfg1.N) (p : Fin 2048) (k : Fin 128) (i : Fin 16384)
    (hi : i.val = t.val * 2048 + p.val) :
    (iblk1 V c 0 t : Vec Ideal S2048x128 .f32) (ix2 p k) = (V c main_v37 : S16384x128.Idx → EReal) (ix2 i k) := by
  obtain ⟨e0, e1, -⟩ := row_blocks t
  show V c main_v37 (((cfg1.win 0).blk t).view.emb (ix2 p k)) = V c main_v37 (ix2 i k)
  refine congrArg (V c main_v37) (funext fun a => Fin.ext ?_)
  match a with
  | ⟨0, _⟩ => show win1_0.index t (0 : Fin 2) * 2048 + 1 * p.val = i.val; omega
  | ⟨1, _⟩ => show win1_0.index t (1 : Fin 2) * 128 + 1 * k.val = k.val; omega

/-- The same rows of the hidden features. -/
theorem hid_block_apply (c : Dev nD) (t : Fin cfg1.N) (p : Fin 2048) (k : Fin 128) (i : Fin 16384)
    (hi : i.val = t.val * 2048 + p.val) :
    (iblk1 V c 1 t : Vec Ideal S2048x128 .f32) (ix2 p k) = (V c main_v25 : S16384x128.Idx → EReal) (ix2 i k) := by
  obtain ⟨-, -, e0, e1, -⟩ := row_blocks t
  show V c main_v25 (((cfg1.win 1).blk t).view.emb (ix2 p k)) = V c main_v25 (ix2 i k)
  refine congrArg (V c main_v25) (funext fun a => Fin.ext ?_)
  match a with
  | ⟨0, _⟩ => show win1_1.index t (0 : Fin 2) * 2048 + 1 * p.val = i.val; omega
  | ⟨1, _⟩ => show win1_1.index t (1 : Fin 2) * 128 + 1 * k.val = k.val; omega

/-- Each weight's block is the whole weight at every point. -/
theorem wl_block_apply (c : Dev nD) (t : Fin cfg1.N) (k : Fin 128) (q : Fin 64) :
    (iblk1 V c 2 t : Vec Ideal S128x64 .f32) (ix2 k q) = (V c main_arg6 : S128x64.Idx → EReal) (ix2 k q) := by
  obtain ⟨-, -, -, -, e0, e1, -⟩ := row_blocks t
  show V c main_arg6 (((cfg1.win 2).blk t).view.emb (ix2 k q)) = V c main_arg6 (ix2 k q)
  refine congrArg (V c main_arg6) (funext fun a => Fin.ext ?_)
  match a with
  | ⟨0, _⟩ => show win1_2.index t (0 : Fin 2) * 128 + 1 * k.val = k.val; omega
  | ⟨1, _⟩ => show win1_2.index t (1 : Fin 2) * 64 + 1 * q.val = q.val; omega

theorem wr_block_apply (c : Dev nD) (t : Fin cfg1.N) (k : Fin 128) (q : Fin 64) :
    (iblk1 V c 3 t : Vec Ideal S128x64 .f32) (ix2 k q) = (V c main_arg8 : S128x64.Idx → EReal) (ix2 k q) := by
  obtain ⟨-, -, -, -, -, -, e0, e1, -⟩ := row_blocks t
  show V c main_arg8 (((cfg1.win 3).blk t).view.emb (ix2 k q)) = V c main_arg8 (ix2 k q)
  refine congrArg (V c main_arg8) (funext fun a => Fin.ext ?_)
  match a with
  | ⟨0, _⟩ => show win1_3.index t (0 : Fin 2) * 128 + 1 * k.val = k.val; omega
  | ⟨1, _⟩ => show win1_3.index t (1 : Fin 2) * 64 + 1 * q.val = q.val; omega

/-- The bias block is the whole bias row at every point. -/
theorem bias_block_apply (c : Dev nD) (t : Fin cfg1.N) (q : Fin 64) :
    (iblk1 V c 4 t : Vec Ideal S64 .f32) (ix1 q) = (V c main_arg7 : S64.Idx → EReal) (ix1 q) := by
  obtain ⟨-, -, -, -, -, -, -, -, e0, -⟩ := row_blocks t
  show V c main_arg7 (((cfg1.win 4).blk t).view.emb (ix1 q)) = V c main_arg7 (ix1 q)
  refine congrArg (V c main_arg7) (funext fun a => Fin.ext ?_)
  match a with
  | ⟨0, _⟩ => show win1_4.index t (0 : Fin 1) * 64 + 1 * q.val = q.val; omega

/-- What point t writes back is block t of the layer's array: entry (p, q) of the written block is the layer's value at
    row t·2048 + p, column q, each input block being the rows (or the whole parameter) the output's rectangle names. -/
theorem block_written (c : Dev nD) (t : Fin cfg1.N) :
    (cfg1.win 5).cut (grid1.coords t) ((dat1 (F := Ideal) V c).after 5 t)
      = ((cfg1.win 5).blk t).view.read (Elt Ideal)
          ((fun y => Cert.Spec.lin2At (V c main_v37) (V c main_v25) (V c main_arg6) (V c main_arg8) (V c main_arg7) (y 0) (y 1)) : S16384x64.Idx → EReal) := by
  rw [after1_5]
  unfold out1_5
  rw [View.canon_unit_zero zero_off2]
  simp only [View.ld_unit_zero (S := S2048x128) zero_off2, View.ld_unit_zero (S := S128x64) zero_off2, View.ld_unit_zero (S := S64) zero_off1]
  funext j
  obtain ⟨p, q, rfl⟩ : ∃ (p : Fin 2048) (q : Fin 64), j = ix2 p q := ⟨j 0, j 1, eq_ix2 j⟩
  have ht : t.val < 8 := by have h : t.val < grid1.N := t.isLt; have := N_1; omega
  obtain ⟨-, -, -, -, -, -, -, -, -, o0, o1⟩ := row_blocks t
  let i : Fin 16384 := ⟨t.val * 2048 + p.val, by have := p.isLt; omega⟩
  have hi : ((((cfg1.win 5).blk t).view.emb (ix2 p q)) 0 : Fin 16384) = i :=
    Fin.ext (by show win1_5.index t (0 : Fin 2) * 2048 + 1 * p.val = t.val * 2048 + p.val; omega)
  have hq : ((((cfg1.win 5).blk t).view.emb (ix2 p q)) 1 : Fin 64) = q :=
    Fin.ext (by show win1_5.index t (1 : Fin 2) * 64 + 1 * q.val = q.val; omega)
  show k1_pay1 (iblk1 V c 0 t) (iblk1 V c 2 t) (iblk1 V c 1 t) (iblk1 V c 3 t) (iblk1 V c 4 t) (ix2 p q)
      = Cert.Spec.lin2At (V c main_v37) (V c main_v25) (V c main_arg6) (V c main_arg8) (V c main_arg7)
          ((((cfg1.win 5).blk t).view.emb (ix2 p q)) 0) ((((cfg1.win 5).blk t).view.emb (ix2 p q)) 1)
  refine (lin2_pay_apply (iblk1 V c 0 t) (iblk1 V c 1 t) (iblk1 V c 2 t) (iblk1 V c 3 t) (iblk1 V c 4 t) p q).trans ?_
  refine Eq.trans ?_ (congrArg₂ (Cert.Spec.lin2At (V c main_v37) (V c main_v25) (V c main_arg6) (V c main_arg8) (V c main_arg7)) hi.symm hq.symm)
  unfold Cert.Spec.lin2At
  refine congrArg₂ (· + ·) (congrArg₂ (· + ·)
    (Finset.sum_congr rfl fun k _ => congrArg₂ (· * ·) (agg_block_apply V c t p k i rfl) (wl_block_apply V c t k q))
    (Finset.sum_congr rfl fun k _ => congrArg₂ (· * ·) (hid_block_apply V c t p k i rfl) (wr_block_apply V c t k q)))
    (bias_block_apply V c t q)

/-- An index of the array is in point t's block iff each coordinate is in the block's range on its axis. -/
theorem mem_out_block (t : Fin cfg1.N) (i : S16384x64.Idx) :
    i ∈ ((cfg1.win 5).blk t).view.set
      ↔ ∀ a : Fin 2, win1_5.index t a * S2048x64.size a ≤ (i a).val ∧ (i a).val < win1_5.index t a * S2048x64.size a + S2048x64.size a := by
  show i ∈ ((View.whole main_v38).slice (win1_5.rect t)).set ↔ _
  rw [View.set_slice_whole, Rect.mem_set_unit]
  exact Iff.rfl

/-- The eight 2048-row blocks cover the 16384 rows: row r is in the block of point r / 2048, and every point writes back. -/
theorem rows_covered (i : S16384x64.Idx) :
    ∃ t : Fin cfg1.N, (cfg1.win 5).flush t = true ∧ i ∈ ((cfg1.win 5).blk t).view.set := by
  have hi0 : (i 0).val < 16384 := (i 0).isLt
  have hi1 : (i 1).val < 64 := (i 1).isLt
  obtain ⟨t, ht⟩ : ∃ t : Fin cfg1.N, t.val = (i 0).val / 2048 :=
    ⟨⟨(i 0).val / 2048, by show _ < grid1.N; have := N_1; omega⟩, rfl⟩
  obtain ⟨-, -, -, -, -, -, -, -, -, o0, o1⟩ := row_blocks t
  refine ⟨t, flush1_5 t, ?_⟩
  rw [mem_out_block]
  intro a
  match a with
  | ⟨0, _⟩ =>
    show win1_5.index t (0 : Fin 2) * 2048 ≤ (i 0).val ∧ (i 0).val < win1_5.index t (0 : Fin 2) * 2048 + 2048
    omega
  | ⟨1, _⟩ =>
    show win1_5.index t (1 : Fin 2) * 64 ≤ (i 1).val ∧ (i 1).val < win1_5.index t (1 : Fin 2) * 64 + 64
    omega

/-- The array after the run: every block written is its block of the layer's array and the blocks cover the rows, so the
    array ends holding the layer's value at every entry. -/
theorem final1_5 (c : Dev nD) :
    ((dat1 (F := Ideal) V c).arrAt 5 cfg1.N : S16384x64.Idx → EReal)
      = fun y => Cert.Spec.lin2At (V c main_v37) (V c main_v25) (V c main_arg6) (V c main_arg8) (V c main_arg7) (y 0) (y 1) :=
  (dat1 (F := Ideal) V c).arrAt_eq_of_cover 5 _ (fun t _ => block_written V c t) rows_covered

end Cert.KernelIdeal.Fr

end
-- ==== Proof.KI.Val2.lean ====
/-
  Region 2's two output arrays after the run, as functions of the two gathered arrays the region is entered with: at the
  ideal instance the product array holds P[e,k]·Q[e,k] and the sum array holds Σₖ P[e,k]·Q[e,k], the 4096-row blocks written
  at the 32 grid points covering the 131072 edges.
-/
import proofs.«114604_j2405181685928_1_alg».proof.Proof.KI.Body2
import proofs.«114604_j2405181685928_1_alg».proof.Proof.Spec
import proofs.«114604_j2405181685928_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-- The zero offsets of the whole-buffer rectangles. -/
theorem hz2m : (![0, 0] : Fin 2 → Nat) = fun _ => 0 := funext fun a => by fin_cases a <;> rfl
theorem hz2s : (![0] : Fin 1 → Nat) = fun _ => 0 := funext fun a => by fin_cases a; rfl

/-- The product payload at an entry: the product of the two blocks' entries. -/
theorem pay1_apply (x0 x1 : Vec Ideal S4096x64 .f32) (j : S4096x64.Idx) :
    k2_pay1 x0 x1 j = x0 j * x1 j := by
  unfold k2_pay1
  rw [shapeCast_self, shapeCast_self]
  rfl

/-- The row-sum payload at an entry: the sum over the 64 channels of the products of that row. -/
theorem pay2_apply (x0 x1 : Vec Ideal S4096x64 .f32) (p : Fin 4096) :
    k2_pay2 x0 x1 (ix1 p) = ∑ k : Fin 64, x0 (ix2 p k) * x1 (ix2 p k) := by
  unfold k2_pay2
  refine (Cert.RowOps.laneSum_apply (k2_pay1 x0 x1) _ _ _ _ p).trans ?_
  exact Finset.sum_congr rfl fun k _ => pay1_apply x0 x1 (ix2 p k)

/-- The product payload at an entry of two blocks that are read off arrays `P` and `Q` at the array entry `i`:
    the specification's product at `i`. -/
theorem prod_block_entry (P Q : S131072x64.Idx → EReal) (x0 x1 : Vec Ideal S4096x64 .f32) (j : S4096x64.Idx)
    (i : S131072x64.Idx) (h0 : x0 j = P i) (h1 : x1 j = Q i) :
    k2_pay1 x0 x1 j = Cert.Spec.prodAt P Q (i 0) (i 1) := by
  rw [pay1_apply, h0, h1]
  unfold Cert.Spec.prodAt
  exact congrArg (fun z => P z * Q z) (eq_ix2 i)

/-- The printed index maps over the grid: every window's block index on the row axis is the point's number, and the
    channel axis has the single block 0. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 1) = t.val :=
  (by decide +kernel : ∀ t : Fin grid2.N, _)

/-- What point `t` writes back to the product array is block `t` of the entrywise product of the two gathered arrays. -/
theorem flushed2_2_eq (c : Dev nD) (t : Fin cfg2.N) :
    (dat2 (F := Ideal) V c).flushed 2 t = ((cfg2.win 2).blk t).view.read (Elt Ideal)
      (fun y : S131072x64.Idx => Cert.Spec.prodAt (V c main_v49) (V c main_v56) (y 0) (y 1)) := by
  show (cfg2.win 2).cut (grid2.coords t) ((dat2 V c).after 2 t) = _
  rw [after2_2]
  unfold out2_2
  rw [View.canon_unit_zero hz2m]
  simp only [View.ld_unit_zero (S := S4096x64) hz2m]
  obtain ⟨e0, e1, e2, e3, e4, e5, e6⟩ := idx_facts2 t
  funext j
  refine prod_block_entry (V c main_v49) (V c main_v56) _ _ j (((cfg2.win 2).blk t).view.emb j) ?_ ?_
  · show V c main_v49 (((cfg2.win 0).blk t).view.emb j) = V c main_v49 (((cfg2.win 2).blk t).view.emb j)
    refine congrArg (V c main_v49) (funext fun a => Fin.ext ?_)
    match a with
    | ⟨0, _⟩ => show win2_0.index t (0 : Fin 2) * 4096 + 1 * (j 0).val = win2_2.index t (0 : Fin 2) * 4096 + 1 * (j 0).val; rw [e0, e4]
    | ⟨1, _⟩ => show win2_0.index t (1 : Fin 2) * 64 + 1 * (j 1).val = win2_2.index t (1 : Fin 2) * 64 + 1 * (j 1).val; rw [e1, e5]
  · show V c main_v56 (((cfg2.win 1).blk t).view.emb j) = V c main_v56 (((cfg2.win 2).blk t).view.emb j)
    refine congrArg (V c main_v56) (funext fun a => Fin.ext ?_)
    match a with
    | ⟨0, _⟩ => show win2_1.index t (0 : Fin 2) * 4096 + 1 * (j 0).val = win2_2.index t (0 : Fin 2) * 4096 + 1 * (j 0).val; rw [e2, e4]
    | ⟨1, _⟩ => show win2_1.index t (1 : Fin 2) * 64 + 1 * (j 1).val = win2_2.index t (1 : Fin 2) * 64 + 1 * (j 1).val; rw [e3, e5]

/-- An entry of the product array is in point `t`'s block iff each coordinate is in the block's range on its axis. -/
theorem mem_blk2_2 (t : Fin cfg2.N) (i : S131072x64.Idx) :
    i ∈ ((cfg2.win 2).blk t).view.set ↔ ∀ a : Fin 2, win2_2.index t a * S4096x64.size a ≤ (i a).val ∧ (i a).val < win2_2.index t a * S4096x64.size a + S4096x64.size a := by
  show i ∈ ((View.whole main_v57_0).slice (win2_2.rect t)).set ↔ _
  rw [View.set_slice_whole, Rect.mem_set_unit]
  exact Iff.rfl

/-- Every entry of the product array lies in some point's block: row `r` is in the block of point `r / 4096`. -/
theorem cover2_2_arr (i : S131072x64.Idx) :
    ∃ t : Fin cfg2.N, (cfg2.win 2).flush t = true ∧ i ∈ ((cfg2.win 2).blk t).view.set := by
  have hi0 : (i 0).val < 131072 := (i 0).isLt
  have hi1 : (i 1).val < 64 := (i 1).isLt
  have hN : cfg2.N = 32 := N_2
  let t : Fin cfg2.N := ⟨(i 0).val / 4096, by rw [hN]; omega⟩
  obtain ⟨e0, e1, e2, e3, e4, e5, e6⟩ := idx_facts2 t
  have ht : t.val = (i 0).val / 4096 := rfl
  refine ⟨t, flush2_2 t, ?_⟩
  rw [mem_blk2_2]
  intro a
  match a with
  | ⟨0, _⟩ => show win2_2.index t (0 : Fin 2) * 4096 ≤ (i 0).val ∧ (i 0).val < win2_2.index t (0 : Fin 2) * 4096 + 4096; rw [e4, ht]; omega
  | ⟨1, _⟩ => show win2_2.index t (1 : Fin 2) * 64 ≤ (i 1).val ∧ (i 1).val < win2_2.index t (1 : Fin 2) * 64 + 64; rw [e5]; omega

/-- The row-sum payload at row `p` of two blocks whose row `p` is row `e` of the arrays `P` and `Q`: the
    specification's sum over the channels at `e`. -/
theorem sum_block_entry (P Q : S131072x64.Idx → EReal) (x0 x1 : Vec Ideal S4096x64 .f32) (p : Fin 4096) (e : Fin 131072)
    (h0 : ∀ k : Fin 64, x0 (ix2 p k) = P (ix2 e k)) (h1 : ∀ k : Fin 64, x1 (ix2 p k) = Q (ix2 e k)) :
    k2_pay2 x0 x1 (ix1 p) = Cert.Spec.rowSumAt P Q e := by
  rw [pay2_apply]
  unfold Cert.Spec.rowSumAt
  exact Finset.sum_congr rfl fun k _ => by rw [h0 k, h1 k]

/-- What point `t` writes back to the sum array is block `t` of the channel sums of the two gathered arrays' product:
    entry `p` of the block is row `4096·t + p`, the row both input blocks hold at their row `p`. -/
theorem flushed2_3_eq (c : Dev nD) (t : Fin cfg2.N) :
    (dat2 (F := Ideal) V c).flushed 3 t = ((cfg2.win 3).blk t).view.read (Elt Ideal)
      (fun y : S131072.Idx => Cert.Spec.rowSumAt (V c main_v49) (V c main_v56) (y 0)) := by
  show (cfg2.win 3).cut (grid2.coords t) ((dat2 V c).after 3 t) = _
  rw [after2_3]
  unfold out2_3
  rw [View.canon_unit_zero hz2s]
  simp only [View.ld_unit_zero (S := S4096x64) hz2m]
  obtain ⟨e0, e1, e2, e3, e4, e5, e6⟩ := idx_facts2 t
  funext j
  obtain ⟨p, rfl⟩ : ∃ p : Fin 4096, j = ix1 p := ⟨j 0, eq_ix1 j⟩
  refine sum_block_entry (V c main_v49) (V c main_v56) _ _ p ((((cfg2.win 3).blk t).view.emb (ix1 p)) 0) ?_ ?_
  · intro k
    show V c main_v49 (((cfg2.win 0).blk t).view.emb (ix2 p k)) = V c main_v49 (ix2 ((((cfg2.win 3).blk t).view.emb (ix1 p)) 0) k)
    refine congrArg (V c main_v49) (funext fun a => Fin.ext ?_)
    match a with
    | ⟨0, _⟩ => show win2_0.index t (0 : Fin 2) * 4096 + 1 * p.val = win2_3.index t (0 : Fin 1) * 4096 + 1 * p.val; rw [e0, e6]
    | ⟨1, _⟩ => show win2_0.index t (1 : Fin 2) * 64 + 1 * k.val = k.val; rw [e1]; omega
  · intro k
    show V c main_v56 (((cfg2.win 1).blk t).view.emb (ix2 p k)) = V c main_v56 (ix2 ((((cfg2.win 3).blk t).view.emb (ix1 p)) 0) k)
    refine congrArg (V c main_v56) (funext fun a => Fin.ext ?_)
    match a with
    | ⟨0, _⟩ => show win2_1.index t (0 : Fin 2) * 4096 + 1 * p.val = win2_3.index t (0 : Fin 1) * 4096 + 1 * p.val; rw [e2, e6]
    | ⟨1, _⟩ => show win2_1.index t (1 : Fin 2) * 64 + 1 * k.val = k.val; rw [e3]; omega

/-- An entry of the sum array is in point `t`'s block iff it is in the block's range. -/
theorem mem_blk2_3 (t : Fin cfg2.N) (i : S131072.Idx) :
    i ∈ ((cfg2.win 3).blk t).view.set ↔ ∀ a : Fin 1, win2_3.index t a * S4096.size a ≤ (i a).val ∧ (i a).val < win2_3.index t a * S4096.size a + S4096.size a := by
  show i ∈ ((View.whole main_v57_1).slice (win2_3.rect t)).set ↔ _
  rw [View.set_slice_whole, Rect.mem_set_unit]
  exact Iff.rfl

/-- Every entry of the sum array lies in some point's block: entry `e` is in the block of point `e / 4096`. -/
theorem cover2_3_arr (i : S131072.Idx) :
    ∃ t : Fin cfg2.N, (cfg2.win 3).flush t = true ∧ i ∈ ((cfg2.win 3).blk t).view.set := by
  have hi0 : (i 0).val < 131072 := (i 0).isLt
  have hN : cfg2.N = 32 := N_2
  let t : Fin cfg2.N := ⟨(i 0).val / 4096, by rw [hN]; omega⟩
  obtain ⟨e0, e1, e2, e3, e4, e5, e6⟩ := idx_facts2 t
  have ht : t.val = (i 0).val / 4096 := rfl
  refine ⟨t, flush2_3 t, ?_⟩
  rw [mem_blk2_3]
  intro a
  match a with
  | ⟨0, _⟩ => show win2_3.index t (0 : Fin 1) * 4096 ≤ (i 0).val ∧ (i 0).val < win2_3.index t (0 : Fin 1) * 4096 + 4096; rw [e6, ht]; omega

theorem final2_2 (c : Dev nD) :
    ((dat2 (F := Ideal) V c).arrAt 2 cfg2.N : S131072x64.Idx → EReal)
      = fun y => Cert.Spec.prodAt (V c main_v49) (V c main_v56) (y 0) (y 1) := by
  exact (dat2 (F := Ideal) V c).arrAt_eq_of_cover 2 _ (fun t _ => flushed2_2_eq V c t) cover2_2_arr

theorem final2_3 (c : Dev nD) :
    ((dat2 (F := Ideal) V c).arrAt 3 cfg2.N : S131072.Idx → EReal)
      = fun y => Cert.Spec.rowSumAt (V c main_v49) (V c main_v56) (y 0) := by
  exact (dat2 (F := Ideal) V c).arrAt_eq_of_cover 3 _ (fun t _ => flushed2_3_eq V c t) cover2_3_arr

end Cert.KernelIdeal.Fr

end
-- ==== Proof.KI.Val3.lean ====
/-
  Region 3's two output arrays after the run, as functions of the embedding array the region is entered with: at the
  ideal instance the score array holds Σₖ Z[i,k]·Z[j,k] and the word array holds the widened bit "that score is greater than
  zero", the 1024×1024 blocks written at the 16×16 grid points covering the 16384×16384 entries.
-/
import proofs.«114604_j2405181685928_1_alg».proof.Proof.KI.Body3
import proofs.«114604_j2405181685928_1_alg».proof.Proof.Spec
import proofs.«114604_j2405181685928_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-- The two-coordinate zero offset is the constant zero function. -/
theorem hz3 : (![0, 0] : Fin 2 → Nat) = fun _ => 0 := funext fun a => by fin_cases a <;> rfl

/-- The score payload at an entry: the inner product of row p of the first block with row q of the second. -/
theorem pay3_1_apply (x0 x1 : Vec Ideal S1024x64 .f32) (p q : Fin 1024) :
    k3_pay1 (F := Ideal) x0 x1 (ix2 p q) = ∑ k : Fin 64, x0 (ix2 p k) * x1 (ix2 q k) := by
  unfold k3_pay1
  simp only [shapeCast_self]
  refine (Cert.RowOps.matmul_apply dot_S1024x64_S64x1024_S1024x1024_1_0_0_1_n_n_wf none x0 _ p q).trans ?_
  refine Finset.sum_congr rfl fun k _ => congrArg (fun z => x0 (ix2 p k) * z) ?_
  exact transpose_apply [1, 0] x1 transposes_S1024x64_p1_0_S64x1024 (ix2 k q) (ix2 q k)
    (fun b => match b with | ⟨0, _⟩ => rfl | ⟨1, _⟩ => rfl)

/-- The sign-word payload at an entry: the widened bit "the inner product is greater than zero". -/
theorem pay3_2_apply (x0 x1 : Vec Ideal S1024x64 .f32) (p q : Fin 1024) :
    k3_pay2 (F := Ideal) x0 x1 (ix2 p q) = Cert.Spec.posWord (∑ k : Fin 64, x0 (ix2 p k) * x1 (ix2 q k)) := by
  unfold k3_pay2 Cert.Spec.posWord Cert.Spec.posBit
  show (FloatOps.cmpf (F := Ideal) (φ := .f32) .ogt (k3_pay1 (F := Ideal) x0 x1 (ix2 p q)) (Scalar.ofBits (F := Ideal) .f32 0x00000000#32)).setWidth 32 = _
  rw [pay3_1_apply]

/-- The windows' block indices over the 16×16 grid: window 0 follows the output's block-row, window 1 its block-column,
    both at block-column 0; the word output moves with the score output; block indices stay below 16. -/
theorem idx_facts3 : ∀ t : Fin cfg3.N,
    win3_0.index t (0 : Fin 2) = win3_2.index t (0 : Fin 2) ∧ win3_0.index t (1 : Fin 2) = 0
    ∧ win3_1.index t (0 : Fin 2) = win3_2.index t (1 : Fin 2) ∧ win3_1.index t (1 : Fin 2) = 0
    ∧ win3_3.index t (0 : Fin 2) = win3_2.index t (0 : Fin 2) ∧ win3_3.index t (1 : Fin 2) = win3_2.index t (1 : Fin 2)
    ∧ win3_2.index t (0 : Fin 2) ≤ 15 ∧ win3_2.index t (1 : Fin 2) ≤ 15 :=
  (by decide +kernel : ∀ t : Fin grid3.N, _)

/-- Every block of the 16×16 tiling is some point's. -/
theorem idx_onto3 : ∀ (q0 q1 : Fin 16), ∃ t : Fin cfg3.N, win3_2.index t = ![q0.val, q1.val] :=
  (by decide +kernel : ∀ (q0 q1 : Fin 16), ∃ t : Fin grid3.N, win3_2.index t = ![q0.val, q1.val])

/-- The score array: entry (i, j) is the inner product of rows i and j of the embedding array. -/
abbrev gramArr3 (Z : S16384x64.Idx → EReal) : S16384x16384.Idx → EReal := fun y => Cert.Spec.gramAt Z (y 0) (y 1)

/-- The sign-word array: entry (i, j) is the widened bit "the inner product of rows i and j is greater than zero". -/
abbrev signArr3 (Z : S16384x64.Idx → EReal) : S16384x16384.Idx → BitVec 32 :=
  fun y => Cert.Spec.posWord (Cert.Spec.gramAt Z (y 0) (y 1))

/-- Window 0's block at a point is the rows of the embedding array under the output block's rows: entry (p, k) of the
    block is entry (r·1024 + p, k) of the array, r the output's block-row. -/
theorem rowBlk3_apply (c : Dev nD) (t : Fin cfg3.N) (p : Fin 1024) (k : Fin 64) (i : Fin 16384)
    (hi : i.val = win3_2.index t (0 : Fin 2) * 1024 + p.val) :
    (iblk3 V c 0 t : Vec Ideal S1024x64 .f32) (ix2 p k) = (V c main_v38 : S16384x64.Idx → EReal) (ix2 i k) := by
  obtain ⟨e0, e1, e2, e3, e4, e5, e6, e7⟩ := idx_facts3 t
  show V c main_v38 (((cfg3.win 0).blk t).view.emb (ix2 p k)) = V c main_v38 (ix2 i k)
  refine congrArg (V c main_v38) (funext fun a => Fin.ext ?_)
  match a with
  | ⟨0, _⟩ => show win3_0.index t (0 : Fin 2) * 1024 + 1 * p.val = i.val; omega
  | ⟨1, _⟩ => show win3_0.index t (1 : Fin 2) * 64 + 1 * k.val = k.val; omega

/-- Window 1's block at a point is the rows of the same array under the output block's COLUMNS: entry (q, k) of the
    block is entry (s·1024 + q, k) of the array, s the output's block-column. -/
theorem colBlk3_apply (c : Dev nD) (t : Fin cfg3.N) (q : Fin 1024) (k : Fin 64) (j : Fin 16384)
    (hj : j.val = win3_2.index t (1 : Fin 2) * 1024 + q.val) :
    (iblk3 V c 1 t : Vec Ideal S1024x64 .f32) (ix2 q k) = (V c main_v38 : S16384x64.Idx → EReal) (ix2 j k) := by
  obtain ⟨e0, e1, e2, e3, e4, e5, e6, e7⟩ := idx_facts3 t
  show V c main_v38 (((cfg3.win 1).blk t).view.emb (ix2 q k)) = V c main_v38 (ix2 j k)
  refine congrArg (V c main_v38) (funext fun a => Fin.ext ?_)
  match a with
  | ⟨0, _⟩ => show win3_1.index t (0 : Fin 2) * 1024 + 1 * q.val = j.val; omega
  | ⟨1, _⟩ => show win3_1.index t (1 : Fin 2) * 64 + 1 * k.val = k.val; omega

/-- What a point writes back to the score array is its block of the array of inner products: the payload's entry (p, q)
    pairs row r·1024 + p with row s·1024 + q, which is where the output block's entry (p, q) lies. -/
theorem flushed3_2_eq (c : Dev nD) (t : Fin cfg3.N) :
    (cfg3.win 2).cut (grid3.coords t) ((dat3 (F := Ideal) V c).after 2 t)
      = ((cfg3.win 2).blk t).view.read (Elt Ideal) (gramArr3 (V c main_v38)) := by
  rw [after3_2]
  unfold out3_2
  rw [View.canon_unit_zero hz3]
  simp only [View.ld_unit_zero (S := S1024x64) hz3]
  obtain ⟨e0, e1, e2, e3, e4, e5, e6, e7⟩ := idx_facts3 t
  funext y
  obtain ⟨p, q, rfl⟩ : ∃ (p : Fin 1024) (q : Fin 1024), y = ix2 p q := ⟨y 0, y 1, eq_ix2 y⟩
  have hx : (win3 2).xinj (grid3.coords t) (ix2 p q) = (ix2 p q : S1024x1024.Idx) :=
    funext fun a => Fin.ext (by match a with | ⟨0, _⟩ => rfl | ⟨1, _⟩ => rfl)
  let i : Fin 16384 := ⟨win3_2.index t (0 : Fin 2) * 1024 + p.val, by have := p.isLt; omega⟩
  let j : Fin 16384 := ⟨win3_2.index t (1 : Fin 2) * 1024 + q.val, by have := q.isLt; omega⟩
  have hemb : ((cfg3.win 2).blk t).view.emb (ix2 p q) = (ix2 i j : S16384x16384.Idx) :=
    funext fun a => Fin.ext (by
      match a with
      | ⟨0, _⟩ => show win3_2.index t (0 : Fin 2) * 1024 + 1 * p.val = win3_2.index t (0 : Fin 2) * 1024 + p.val; omega
      | ⟨1, _⟩ => show win3_2.index t (1 : Fin 2) * 1024 + 1 * q.val = win3_2.index t (1 : Fin 2) * 1024 + q.val; omega)
  show k3_pay1 (F := Ideal) (iblk3 V c 0 t) (iblk3 V c 1 t) ((win3 2).xinj (grid3.coords t) (ix2 p q))
      = gramArr3 (V c main_v38) (((cfg3.win 2).blk t).view.emb (ix2 p q))
  rw [hx, hemb]
  refine (pay3_1_apply (iblk3 V c 0 t) (iblk3 V c 1 t) p q).trans ?_
  show _ = Cert.Spec.gramAt (V c main_v38) i j
  unfold Cert.Spec.gramAt
  refine Finset.sum_congr rfl fun k _ => ?_
  rw [rowBlk3_apply V c t p k i rfl, colBlk3_apply V c t q k j rfl]

/-- What a point writes back to the sign-word array is its block of the array of sign words: the same pairing of rows,
    under the comparison with zero and the widening. -/
theorem flushed3_3_eq (c : Dev nD) (t : Fin cfg3.N) :
    (cfg3.win 3).cut (grid3.coords t) ((dat3 (F := Ideal) V c).after 3 t)
      = ((cfg3.win 3).blk t).view.read (Elt Ideal) (signArr3 (V c main_v38)) := by
  rw [after3_3]
  unfold out3_3
  rw [View.canon_unit_zero hz3]
  simp only [View.ld_unit_zero (S := S1024x64) hz3]
  obtain ⟨e0, e1, e2, e3, e4, e5, e6, e7⟩ := idx_facts3 t
  funext y
  obtain ⟨p, q, rfl⟩ : ∃ (p : Fin 1024) (q : Fin 1024), y = ix2 p q := ⟨y 0, y 1, eq_ix2 y⟩
  have hx : (win3 3).xinj (grid3.coords t) (ix2 p q) = (ix2 p q : S1024x1024.Idx) :=
    funext fun a => Fin.ext (by match a with | ⟨0, _⟩ => rfl | ⟨1, _⟩ => rfl)
  let i : Fin 16384 := ⟨win3_2.index t (0 : Fin 2) * 1024 + p.val, by have := p.isLt; omega⟩
  let j : Fin 16384 := ⟨win3_2.index t (1 : Fin 2) * 1024 + q.val, by have := q.isLt; omega⟩
  have hemb : ((cfg3.win 3).blk t).view.emb (ix2 p q) = (ix2 i j : S16384x16384.Idx) :=
    funext fun a => Fin.ext (by
      match a with
      | ⟨0, _⟩ => show win3_3.index t (0 : Fin 2) * 1024 + 1 * p.val = win3_2.index t (0 : Fin 2) * 1024 + p.val; omega
      | ⟨1, _⟩ => show win3_3.index t (1 : Fin 2) * 1024 + 1 * q.val = win3_2.index t (1 : Fin 2) * 1024 + q.val; omega)
  show k3_pay2 (F := Ideal) (iblk3 V c 0 t) (iblk3 V c 1 t) ((win3 3).xinj (grid3.coords t) (ix2 p q))
      = signArr3 (V c main_v38) (((cfg3.win 3).blk t).view.emb (ix2 p q))
  rw [hx, hemb]
  refine (pay3_2_apply (iblk3 V c 0 t) (iblk3 V c 1 t) p q).trans ?_
  show _ = Cert.Spec.posWord (Cert.Spec.gramAt (V c main_v38) i j)
  refine congrArg Cert.Spec.posWord ?_
  unfold Cert.Spec.gramAt
  refine Finset.sum_congr rfl fun k _ => ?_
  rw [rowBlk3_apply V c t p k i rfl, colBlk3_apply V c t q k j rfl]

/-- An entry of the score array is in a point's block iff each coordinate is in the block's range on its axis. -/
theorem mem_blk3_2 (t : Fin cfg3.N) (i : S16384x16384.Idx) :
    i ∈ ((cfg3.win 2).blk t).view.set ↔ ∀ a : Fin 2, win3_2.index t a * S1024x1024.size a ≤ (i a).val
      ∧ (i a).val < win3_2.index t a * S1024x1024.size a + S1024x1024.size a := by
  show i ∈ ((View.whole main_v58_0).slice (win3_2.rect t)).set ↔ _
  rw [View.set_slice_whole, Rect.mem_set_unit]
  exact Iff.rfl

/-- The same for the sign-word array. -/
theorem mem_blk3_3 (t : Fin cfg3.N) (i : S16384x16384.Idx) :
    i ∈ ((cfg3.win 3).blk t).view.set ↔ ∀ a : Fin 2, win3_3.index t a * S1024x1024.size a ≤ (i a).val
      ∧ (i a).val < win3_3.index t a * S1024x1024.size a + S1024x1024.size a := by
  show i ∈ ((View.whole main_v58_1).slice (win3_3.rect t)).set ↔ _
  rw [View.set_slice_whole, Rect.mem_set_unit]
  exact Iff.rfl

/-- The 1024×1024 blocks tile the score array: entry (i, j) lies in the block of the point with block-row i / 1024 and
    block-column j / 1024. -/
theorem covered3_2 (i : S16384x16384.Idx) :
    ∃ t : Fin cfg3.N, (cfg3.win 2).flush t = true ∧ i ∈ ((cfg3.win 2).blk t).view.set := by
  have hi0 : (i 0).val < 16384 := (i 0).isLt
  have hi1 : (i 1).val < 16384 := (i 1).isLt
  obtain ⟨t, ht⟩ := idx_onto3 ⟨(i 0).val / 1024, by omega⟩ ⟨(i 1).val / 1024, by omega⟩
  have q0 : win3_2.index t (0 : Fin 2) = (i 0).val / 1024 := congrFun ht 0
  have q1 : win3_2.index t (1 : Fin 2) = (i 1).val / 1024 := congrFun ht 1
  refine ⟨t, flush3_2 t, ?_⟩
  rw [mem_blk3_2]
  intro a
  match a with
  | ⟨0, _⟩ => show win3_2.index t (0 : Fin 2) * 1024 ≤ (i 0).val ∧ (i 0).val < win3_2.index t (0 : Fin 2) * 1024 + 1024; omega
  | ⟨1, _⟩ => show win3_2.index t (1 : Fin 2) * 1024 ≤ (i 1).val ∧ (i 1).val < win3_2.index t (1 : Fin 2) * 1024 + 1024; omega

/-- The sign-word array is tiled by the same blocks. -/
theorem covered3_3 (i : S16384x16384.Idx) :
    ∃ t : Fin cfg3.N, (cfg3.win 3).flush t = true ∧ i ∈ ((cfg3.win 3).blk t).view.set := by
  have hi0 : (i 0).val < 16384 := (i 0).isLt
  have hi1 : (i 1).val < 16384 := (i 1).isLt
  obtain ⟨t, ht⟩ := idx_onto3 ⟨(i 0).val / 1024, by omega⟩ ⟨(i 1).val / 1024, by omega⟩
  obtain ⟨e0, e1, e2, e3, e4, e5, e6, e7⟩ := idx_facts3 t
  have q0 : win3_2.index t (0 : Fin 2) = (i 0).val / 1024 := congrFun ht 0
  have q1 : win3_2.index t (1 : Fin 2) = (i 1).val / 1024 := congrFun ht 1
  refine ⟨t, flush3_3 t, ?_⟩
  rw [mem_blk3_3]
  intro a
  match a with
  | ⟨0, _⟩ => show win3_3.index t (0 : Fin 2) * 1024 ≤ (i 0).val ∧ (i 0).val < win3_3.index t (0 : Fin 2) * 1024 + 1024; omega
  | ⟨1, _⟩ => show win3_3.index t (1 : Fin 2) * 1024 ≤ (i 1).val ∧ (i 1).val < win3_3.index t (1 : Fin 2) * 1024 + 1024; omega

theorem final3_2 (c : Dev nD) :
    ((dat3 (F := Ideal) V c).arrAt 2 cfg3.N : S16384x16384.Idx → EReal)
      = fun y => Cert.Spec.gramAt (V c main_v38) (y 0) (y 1) :=
  (dat3 (F := Ideal) V c).arrAt_eq_of_cover 2 (gramArr3 (V c main_v38)) (fun t _ => flushed3_2_eq V c t) covered3_2

theorem final3_3 (c : Dev nD) :
    ((dat3 (F := Ideal) V c).arrAt 3 cfg3.N : S16384x16384.Idx → BitVec 32)
      = fun y => Cert.Spec.posWord (Cert.Spec.gramAt (V c main_v38) (y 0) (y 1)) :=
  (dat3 (F := Ideal) V c).arrAt_eq_of_cover 3 (signArr3 (V c main_v38)) (fun t _ => flushed3_3_eq V c t) covered3_3

end Cert.KernelIdeal.Fr

end
-- ==== Proof.Chain.lean ====
/-
  The host-side message passing both programs share, as named functions of the arrays it is applied to.

  Both programs gather the source endpoints' feature rows, add them into the destination endpoints' rows (a segment sum),
  and divide each row by its in-degree clamped below by one. The kernel's program multiplies by the reciprocal of the
  clamped degree where the reference divides by it; everything else is the same composition of the same operations, so it
  is carried here as opaque functions: the gather and the scatter are never opened.

  * `srcCol`, `dstCol`: the edge list's two rows as index columns (negative sources wrapped by the node count, as
    indexing does);
  * `segSum X ei`: the rows of `X` at the sources, summed into the destinations;
  * `degMax ei`: the in-degree (a segment sum of ones), clamped below by one;
  * `meanMul` / `meanDiv`: the segment sum times the reciprocal of, resp. divided by, the clamped degree of its row;
  * `endRows0`, `endRows1`: the embedding's rows at the label edges' first and second endpoints.
-/
import proofs.«114604_j2405181685928_1_alg».proof.Proof.Gen.KernelIdeal

noncomputable section

namespace Cert.Chain

open Idealize.ShloMosaic Cert.KernelIdeal Cert.KernelIdeal.Gen

variable {F : FTy → Type} [FloatOps F]

/-- Row 0 of the edge list: the sources. -/
def srcRow (ei : (⟨S2x524288, .i32⟩ : BufTy).Contents (Elt F)) : (⟨S524288, .i32⟩ : BufTy).Contents (Elt F) :=
  shapeCast _ (extractStridedSlice S1x524288 ![0, 0] ei slices_S2x524288_S1x524288_0_0) shapeCasts_S1x524288_S524288

/-- Row 1 of the edge list: the destinations. -/
def dstRow (ei : (⟨S2x524288, .i32⟩ : BufTy).Contents (Elt F)) : (⟨S524288, .i32⟩ : BufTy).Contents (Elt F) :=
  shapeCast _ (extractStridedSlice S1x524288 ![1, 0] ei slices_S2x524288_S1x524288_1_0) shapeCasts_S1x524288_S524288

/-- The sources as an index column, a negative one wrapped by the node count. -/
def srcCol (ei : (⟨S2x524288, .i32⟩ : BufTy).Contents (Elt F)) : (⟨S524288x1, .i32⟩ : BufTy).Contents (Elt F) :=
  broadcastInDim S524288x1 ![0] bcast_S524288_S524288x1_0
    (select (cmpi .slt (srcRow ei) (broadcastInDim S524288 ![] bcast_S_S524288 (constantI S_ 32 0#32)))
      (addi (srcRow ei) (broadcastInDim S524288 ![] bcast_S_S524288 (constantI S_ 32 16384#32))) (srcRow ei))

/-- The destinations as an index column. -/
def dstCol (ei : (⟨S2x524288, .i32⟩ : BufTy).Contents (Elt F)) : (⟨S524288x1, .i32⟩ : BufTy).Contents (Elt F) :=
  broadcastInDim S524288x1 ![0] bcast_S524288_S524288x1_0 (dstRow ei)

/-- The rows of `X` at the sources, summed into the destinations' rows. -/
def segSum (X : (⟨S16384x128, .f32⟩ : BufTy).Contents (Elt F)) (ei : (⟨S2x524288, .i32⟩ : BufTy).Contents (Elt F)) :
    (⟨S16384x128, .f32⟩ : BufTy).Contents (Elt F) :=
  Host.scatterAdd scatter_S16384x128_S524288x1_S524288x128_1_0_0_1
    (broadcastInDim S16384x128 ![] bcast_S_S16384x128 (constant S_ .f32 0x00000000#32)) (dstCol ei)
    (Host.gather gather_S16384x128_S524288x1_S524288x128_1_0_n_n_0_1_1128 X (srcCol ei))

/-- The in-degree of every node, clamped below by one. -/
def degMax (ei : (⟨S2x524288, .i32⟩ : BufTy).Contents (Elt F)) : (⟨S16384, .f32⟩ : BufTy).Contents (Elt F) :=
  maximumf
    (Host.scatterAdd scatter_S16384_S524288x1_S524288_n_0_0_1
      (broadcastInDim S16384 ![] bcast_S_S16384 (constant S_ .f32 0x00000000#32)) (dstCol ei)
      (broadcastInDim S524288 ![] bcast_S_S524288 (constant S_ .f32 0x3F800000#32)))
    (broadcastInDim S16384 ![] bcast_S_S16384 (constant S_ .f32 0x3F800000#32))

/-- The reciprocal of the clamped degree, as a column. -/
def invDegCol (ei : (⟨S2x524288, .i32⟩ : BufTy).Contents (Elt F)) : (⟨S16384x1, .f32⟩ : BufTy).Contents (Elt F) :=
  broadcastInDim S16384x1 ![0] bcast_S16384_S16384x1_0
    (Host.divf (broadcastInDim S16384 ![] bcast_S_S16384 (constant S_ .f32 0x3F800000#32)) (degMax ei))

/-- The mean over incoming edges as the kernel's program takes it: the segment sum times the reciprocal. -/
def meanMul (X : (⟨S16384x128, .f32⟩ : BufTy).Contents (Elt F)) (ei : (⟨S2x524288, .i32⟩ : BufTy).Contents (Elt F)) :
    (⟨S16384x128, .f32⟩ : BufTy).Contents (Elt F) :=
  mulf (segSum X ei) (broadcastInDim S16384x128 ![0, 1] bcast_S16384x1_S16384x128_0_1 (invDegCol ei))

/-- The mean over incoming edges as the reference takes it: the segment sum divided by the clamped degree. -/
def meanDiv (X : (⟨S16384x128, .f32⟩ : BufTy).Contents (Elt F)) (ei : (⟨S2x524288, .i32⟩ : BufTy).Contents (Elt F)) :
    (⟨S16384x128, .f32⟩ : BufTy).Contents (Elt F) :=
  Host.divf (segSum X ei)
    (broadcastInDim S16384x128 ![0, 1] bcast_S16384x1_S16384x128_0_1
      (broadcastInDim S16384x1 ![0] bcast_S16384_S16384x1_0 (degMax ei)))

/-- A row of the label-edge list as an index column, a negative entry wrapped by the node count. -/
def endCol (r : (⟨S131072, .i32⟩ : BufTy).Contents (Elt F)) : (⟨S131072x1, .i32⟩ : BufTy).Contents (Elt F) :=
  broadcastInDim S131072x1 ![0] bcast_S131072_S131072x1_0
    (select (cmpi .slt r (broadcastInDim S131072 ![] bcast_S_S131072 (constantI S_ 32 0#32)))
      (addi r (broadcastInDim S131072 ![] bcast_S_S131072 (constantI S_ 32 16384#32))) r)

/-- The embedding's rows at the label edges' first endpoints. -/
def endRows0 (Z : (⟨S16384x64, .f32⟩ : BufTy).Contents (Elt F)) (li : (⟨S2x131072, .i32⟩ : BufTy).Contents (Elt F)) :
    (⟨S131072x64, .f32⟩ : BufTy).Contents (Elt F) :=
  Host.gather gather_S16384x64_S131072x1_S131072x64_1_0_n_n_0_1_164 Z
    (endCol (shapeCast _ (extractStridedSlice S1x131072 ![0, 0] li slices_S2x131072_S1x131072_0_0) shapeCasts_S1x131072_S131072))

/-- The embedding's rows at the label edges' second endpoints. -/
def endRows1 (Z : (⟨S16384x64, .f32⟩ : BufTy).Contents (Elt F)) (li : (⟨S2x131072, .i32⟩ : BufTy).Contents (Elt F)) :
    (⟨S131072x64, .f32⟩ : BufTy).Contents (Elt F) :=
  Host.gather gather_S16384x64_S131072x1_S131072x64_1_0_n_n_0_1_164 Z
    (endCol (shapeCast _ (extractStridedSlice S1x131072 ![1, 0] li slices_S2x131072_S1x131072_1_0) shapeCasts_S1x131072_S131072))

end Cert.Chain

end
-- ==== Proof.Net.lean ====
/-
  The two-layer network's six results as functions of the nine arguments, over a parameter `μ`: the row-mean of gathered
  features (the kernel's program takes it as a product with the reciprocal of the clamped degree, the reference as a
  quotient by it). At the ideal instance the two means are ONE function: the clamped degree is at least one, hence not zero,
  and for a divisor that is not zero the quotient is the product with the inverse, which is also what the reciprocal
  `1 / d` is. So every result is the same function of the arguments for both programs.
-/
import proofs.«114604_j2405181685928_1_alg».proof.Proof.Chain
import proofs.«114604_j2405181685928_1_alg».proof.Proof.Spec
import Idealize.ShloMosaic.Lib.Pipeline.Value
import Idealize.ShloMosaic.Lib.ValueIdx
import Idealize.ShloMosaic.Lib.ValueLayout
import Idealize.ShloMosaic.Lib.IdealHost

noncomputable section

namespace Cert.Net

open Idealize.ShloMosaic Idealize.ShloMosaic.ValueIdx Cert.KernelIdeal Cert.KernelIdeal.Gen

/-- The type of a row-mean: node features and the edge list to aggregated features. -/
abbrev Mean := (⟨S16384x128, .f32⟩ : BufTy).Contents (Elt Ideal) → (⟨S2x524288, .i32⟩ : BufTy).Contents (Elt Ideal)
  → (⟨S16384x128, .f32⟩ : BufTy).Contents (Elt Ideal)

variable (μ : Mean)
variable (x : (⟨S16384x128, .f32⟩ : BufTy).Contents (Elt Ideal)) (ei : (⟨S2x524288, .i32⟩ : BufTy).Contents (Elt Ideal))
  (li : (⟨S2x131072, .i32⟩ : BufTy).Contents (Elt Ideal))
  (Wl1 : (⟨S128x128, .f32⟩ : BufTy).Contents (Elt Ideal)) (b1 : (⟨S128, .f32⟩ : BufTy).Contents (Elt Ideal))
  (Wr1 : (⟨S128x128, .f32⟩ : BufTy).Contents (Elt Ideal))
  (Wl2 : (⟨S128x64, .f32⟩ : BufTy).Contents (Elt Ideal)) (b2 : (⟨S64, .f32⟩ : BufTy).Contents (Elt Ideal))
  (Wr2 : (⟨S128x64, .f32⟩ : BufTy).Contents (Elt Ideal))

/-- The hidden features: the first layer with its relu. -/
def hidden : (⟨S16384x128, .f32⟩ : BufTy).Contents (Elt Ideal) :=
  fun y => Cert.Spec.lin1At (μ x ei) x Wl1 Wr1 b1 (y 0) (y 1)

/-- The embedding: the second layer applied to the hidden features. -/
def embed : (⟨S16384x64, .f32⟩ : BufTy).Contents (Elt Ideal) :=
  fun y => Cert.Spec.lin2At (μ (hidden μ x ei Wl1 b1 Wr1) ei) (hidden μ x ei Wl1 b1 Wr1) Wl2 Wr2 b2 (y 0) (y 1)

/-- The decoder's products over the label edges. -/
def decProd : (⟨S131072x64, .f32⟩ : BufTy).Contents (Elt Ideal) :=
  fun y => Cert.Spec.prodAt (Cert.Chain.endRows0 (embed μ x ei Wl1 b1 Wr1 Wl2 b2 Wr2) li)
    (Cert.Chain.endRows1 (embed μ x ei Wl1 b1 Wr1 Wl2 b2 Wr2) li) (y 0) (y 1)

/-- The decoder's sums over the channels. -/
def decSum : (⟨S131072, .f32⟩ : BufTy).Contents (Elt Ideal) :=
  fun y => Cert.Spec.rowSumAt (Cert.Chain.endRows0 (embed μ x ei Wl1 b1 Wr1 Wl2 b2 Wr2) li)
    (Cert.Chain.endRows1 (embed μ x ei Wl1 b1 Wr1 Wl2 b2 Wr2) li) (y 0)

/-- The dense scores. -/
def scores : (⟨S16384x16384, .f32⟩ : BufTy).Contents (Elt Ideal) :=
  fun y => Cert.Spec.gramAt (embed μ x ei Wl1 b1 Wr1 Wl2 b2 Wr2) (y 0) (y 1)

/-- The bits "this score is greater than zero". -/
def signBits : (⟨S16384x16384, .i1⟩ : BufTy).Contents (Elt Ideal) :=
  fun y => Cert.Spec.posBit (Cert.Spec.gramAt (embed μ x ei Wl1 b1 Wr1 Wl2 b2 Wr2) (y 0) (y 1))

/-- For a divisor that is at least one (so not zero), the product with its reciprocal is the quotient by it: both are the
    product with the inverse. -/
theorem mul_recip_eq_div (s d : EReal) (hd : 1 ≤ d) : s * Ideal.div 1 d = Ideal.div s d := by
  have hd0 : d ≠ 0 := (lt_of_lt_of_le zero_lt_one hd).ne'
  unfold Ideal.div
  rw [if_neg hd0, if_neg hd0, one_mul]

/-- The all-ones vector (the word of the real one spread over the nodes) reads one everywhere. -/
theorem ones_apply (i : S16384.Idx) :
    broadcastInDim S16384 ![] bcast_S_S16384 (constant (F := Ideal) S_ .f32 0x3F800000#32) i = 1 :=
  (broadcastInDim_apply _ bcast_S_S16384 _ i ix0 (fun a => a.elim0)).trans Ideal.ofBits_one_f32

/-- A per-node vector kept as a column and spread over the 128 channels reads, at (p, q), its entry of node p. -/
theorem spread_apply (v : S16384.Idx → EReal) (p : Fin 16384) (q : Fin 128) :
    broadcastInDim S16384x128 ![0, 1] bcast_S16384x1_S16384x128_0_1
      (broadcastInDim S16384x1 ![0] bcast_S16384_S16384x1_0 v) (ix2 p q) = v (ix1 p) := by
  refine (broadcastInDim_apply _ bcast_S16384x1_S16384x128_0_1 _ (ix2 p q) (ix2 p (0 : Fin 1)) (fun a => match a with
    | ⟨0, _⟩ => by show p.val = if (16384 : Nat) = 1 then 0 else p.val; rw [if_neg (by decide)]
    | ⟨1, _⟩ => by show 0 = if (1 : Nat) = 1 then 0 else q.val; rw [if_pos rfl])).trans ?_
  exact broadcastInDim_apply _ bcast_S16384_S16384x1_0 v (ix2 p (0 : Fin 1)) (ix1 p) (fun a => match a with
    | ⟨0, _⟩ => by show p.val = if (16384 : Nat) = 1 then 0 else p.val; rw [if_neg (by decide)])

/-- The clamped degree is at least one: it is a maximum with the all-ones vector. -/
theorem one_le_degMax (ei : (⟨S2x524288, .i32⟩ : BufTy).Contents (Elt Ideal)) (i : S16384.Idx) :
    (1 : EReal) ≤ Cert.Chain.degMax (F := Ideal) ei i := by
  unfold Cert.Chain.degMax
  refine le_trans (ones_apply i).ge ?_
  exact le_max_right _ _

/-- At the ideal instance the product with the reciprocal of the clamped degree IS the quotient by it. -/
theorem meanMul_eq_meanDiv : (Cert.Chain.meanMul (F := Ideal) : Mean) = Cert.Chain.meanDiv (F := Ideal) := by
  funext X ei i
  obtain ⟨p, q, rfl⟩ : ∃ (p : Fin 16384) (q : Fin 128), i = ix2 p q := ⟨i 0, i 1, eq_ix2 i⟩
  have hd := one_le_degMax ei (ix1 p)
  unfold Cert.Chain.meanMul Cert.Chain.meanDiv Cert.Chain.invDegCol
  generalize Cert.Chain.segSum X ei = S
  generalize Cert.Chain.degMax ei = D at hd ⊢
  have hL : broadcastInDim S16384x128 ![0, 1] bcast_S16384x1_S16384x128_0_1
      (broadcastInDim S16384x1 ![0] bcast_S16384_S16384x1_0
        (Host.divf (broadcastInDim S16384 ![] bcast_S_S16384 (constant (F := Ideal) S_ .f32 0x3F800000#32)) D)) (ix2 p q)
        = Ideal.div 1 (D (ix1 p)) :=
    (spread_apply _ p q).trans (congrArg (fun z => Ideal.div z (D (ix1 p))) (ones_apply (ix1 p)))
  have hR : broadcastInDim S16384x128 ![0, 1] bcast_S16384x1_S16384x128_0_1
      (broadcastInDim S16384x1 ![0] bcast_S16384_S16384x1_0 D) (ix2 p q) = D (ix1 p) := spread_apply D p q
  refine (mulf_apply _ _ _).trans ?_
  refine Eq.trans ?_ (hostDivf_apply _ _ _).symm
  rw [hL, hR]
  exact mul_recip_eq_div _ _ hd

end Cert.Net

end
-- ==== Proof.KI.Values.lean ====
/-
  The idealized kernel program's six results as functions of its nine arguments: the last valuation walked back item by
  item. A region's output array is its value lemma's function of the arrays the region was entered with; a host stretch's
  product is the shared host chain applied to buffers written before it; a buffer an item does not write is carried through
  unchanged. Read together: the hidden features are the first layer at the product-with-reciprocal row-mean of the node
  features, the embedding the second layer at the same mean of the hidden features, the decoder's products and sums those
  of the embedding's rows at the label edges' endpoints, the scores the embedding against itself, and the sign bits the
  comparison of the sign words with the zero word.
-/
import proofs.«114604_j2405181685928_1_alg».proof.Proof.KI.Frame
import proofs.«114604_j2405181685928_1_alg».proof.Proof.KI.Val0
import proofs.«114604_j2405181685928_1_alg».proof.Proof.KI.Val1
import proofs.«114604_j2405181685928_1_alg».proof.Proof.KI.Val2
import proofs.«114604_j2405181685928_1_alg».proof.Proof.KI.Val3
import proofs.«114604_j2405181685928_1_alg».proof.Proof.Net
import Idealize.ShloMosaic.Lib.StableHlo.Run

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.StableHlo Idealize.ShloMosaic.ValueIdx

variable (m : (ℓ : Loc nD τ sig) → Buf (Elt Ideal) ℓ)

/-- The nine arguments on core `c`. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)
abbrev a8 (c : Dev nD) := m ((c : Thread nD τ).loc main_arg8)

/-- The kernel program's row-mean at the ideal instance. -/
abbrev μK : Cert.Net.Mean := Cert.Chain.meanMul (F := Ideal)

/-! ## The first host stretch: the edge list's rows, the reciprocal degrees, the first mean -/

set_option maxHeartbeats 8000000 in
theorem v1_at1 (c : Dev nD) : (W1 m c main_v1 : S524288.Idx → BitVec 32) = Cert.Chain.srcRow (F := Ideal) (a1 m c) := by
  show StableHlo.after hostOps0 (fun b => m (c, b)) (Proc.devRef .tc main_v1) = _
  after_results
  rfl
set_option maxHeartbeats 8000000 in
theorem v3_at1 (c : Dev nD) : (W1 m c main_v3 : S524288.Idx → BitVec 32) = Cert.Chain.dstRow (F := Ideal) (a1 m c) := by
  show StableHlo.after hostOps0 (fun b => m (c, b)) (Proc.devRef .tc main_v3) = _
  after_results
  rfl
set_option maxHeartbeats 8000000 in
theorem v12_at1 (c : Dev nD) : (W1 m c main_v12 : S16384x1.Idx → EReal) = Cert.Chain.invDegCol (F := Ideal) (a1 m c) := by
  show StableHlo.after hostOps0 (fun b => m (c, b)) (Proc.devRef .tc main_v12) = _
  after_results
  rfl
set_option maxHeartbeats 8000000 in
theorem v24_at1 (c : Dev nD) : (W1 m c main_v24 : S16384x128.Idx → EReal) = μK (a0 m c) (a1 m c) := by
  show StableHlo.after hostOps0 (fun b => m (c, b)) (Proc.devRef .tc main_v24) = _
  after_results
  rfl

/-! ## Region 0: the hidden features -/

theorem hidden_at2 (c : Dev nD) :
    (W2 m c main_v25 : S16384x128.Idx → EReal) = Cert.Net.hidden μK (a0 m c) (a1 m c) (a3 m c) (a4 m c) (a5 m c) := by
  have h := final0_5 (V1 m) c
  rw [show (V1 m c main_v24 : S16384x128.Idx → EReal) = μK (a0 m c) (a1 m c) from v24_at1 m c,
    show V1 m c main_arg0 = a0 m c from W1_of m c main_arg0 (by decide),
    show V1 m c main_arg3 = a3 m c from W1_of m c main_arg3 (by decide),
    show V1 m c main_arg5 = a5 m c from W1_of m c main_arg5 (by decide),
    show V1 m c main_arg4 = a4 m c from W1_of m c main_arg4 (by decide)] at h
  exact (Function.update_self (β := fun b : DevRef τ sig => Buf (Elt Ideal) ((c : Thread nD τ).1, b)) (Proc.devRef .tc main_v25) _ (W1 m c)).trans h

/-! ## The second host stretch: the mean of the hidden features -/

set_option maxHeartbeats 8000000 in
theorem v37_at3 (c : Dev nD) :
    (W3 m c main_v37 : S16384x128.Idx → EReal) = μK (W2 m c main_v25) (a1 m c) := by
  have e1 : (W2 m c main_v1 : S524288.Idx → BitVec 32) = Cert.Chain.srcRow (F := Ideal) (a1 m c) := (W2_of m c main_v1 (by decide)).trans (v1_at1 m c)
  have e3 : (W2 m c main_v3 : S524288.Idx → BitVec 32) = Cert.Chain.dstRow (F := Ideal) (a1 m c) := (W2_of m c main_v3 (by decide)).trans (v3_at1 m c)
  have e12 : (W2 m c main_v12 : S16384x1.Idx → EReal) = Cert.Chain.invDegCol (F := Ideal) (a1 m c) := (W2_of m c main_v12 (by decide)).trans (v12_at1 m c)
  show StableHlo.after hostOps1 (W2 m c) (Proc.devRef .tc main_v37) = _
  after_results
  rw [e1, e3, e12]
  rfl

/-! ## Region 1: the embedding -/

theorem embed_at4 (c : Dev nD) :
    (W4 m c main_v38 : S16384x64.Idx → EReal)
      = Cert.Net.embed μK (a0 m c) (a1 m c) (a3 m c) (a4 m c) (a5 m c) (a6 m c) (a7 m c) (a8 m c) := by
  have h := final1_5 (V3 m) c
  have e25 : (V3 m c main_v25 : S16384x128.Idx → EReal) = Cert.Net.hidden μK (a0 m c) (a1 m c) (a3 m c) (a4 m c) (a5 m c) :=
    (W3_of m c main_v25 (by decide)).trans (hidden_at2 m c)
  have e37 : (V3 m c main_v37 : S16384x128.Idx → EReal) = μK (Cert.Net.hidden μK (a0 m c) (a1 m c) (a3 m c) (a4 m c) (a5 m c)) (a1 m c) := by
    rw [← hidden_at2 m c]; exact v37_at3 m c
  have k (r : Ref sig .tc) (h0 : r ∉ hostOps0_W) (h1 : r ∉ hostOps1_W) (h25 : r ≠ main_v25) : V3 m c r = m ((c : Thread nD τ).loc r) :=
    (W3_of m c r h1).trans <| (W2_of m c r h25).trans <| (W1_of m c r h0).trans rfl
  rw [e37, e25, show V3 m c main_arg6 = a6 m c from k main_arg6 (by decide) (by decide) (by decide),
    show V3 m c main_arg8 = a8 m c from k main_arg8 (by decide) (by decide) (by decide),
    show V3 m c main_arg7 = a7 m c from k main_arg7 (by decide) (by decide) (by decide)] at h
  exact (Function.update_self (β := fun b : DevRef τ sig => Buf (Elt Ideal) ((c : Thread nD τ).1, b)) (Proc.devRef .tc main_v38) _ (W3 m c)).trans h

/-! ## The third host stretch: the embedding's rows at the label edges' endpoints -/

theorem arg2_at4 (c : Dev nD) : W4 m c main_arg2 = a2 m c :=
  (W4_of m c main_arg2 (by decide)).trans <| (W3_of m c main_arg2 (by decide)).trans <| (W2_of m c main_arg2 (by decide)).trans <|
    (W1_of m c main_arg2 (by decide)).trans rfl

set_option maxHeartbeats 8000000 in
theorem v49_at5 (c : Dev nD) :
    (W5 m c main_v49 : S131072x64.Idx → EReal) = Cert.Chain.endRows0 (F := Ideal) (W4 m c main_v38) (a2 m c) := by
  show StableHlo.after hostOps2 (W4 m c) (Proc.devRef .tc main_v49) = _
  after_results
  rw [arg2_at4 m c]
  rfl
set_option maxHeartbeats 8000000 in
theorem v56_at5 (c : Dev nD) :
    (W5 m c main_v56 : S131072x64.Idx → EReal) = Cert.Chain.endRows1 (F := Ideal) (W4 m c main_v38) (a2 m c) := by
  show StableHlo.after hostOps2 (W4 m c) (Proc.devRef .tc main_v56) = _
  after_results
  rw [arg2_at4 m c]
  rfl

/-! ## Region 2: the decoder -/

theorem decProd_at6 (c : Dev nD) :
    (W6 m c main_v57_0 : S131072x64.Idx → EReal)
      = Cert.Net.decProd μK (a0 m c) (a1 m c) (a2 m c) (a3 m c) (a4 m c) (a5 m c) (a6 m c) (a7 m c) (a8 m c) := by
  have h := final2_2 (V5 m) c
  rw [show (V5 m c main_v49 : S131072x64.Idx → EReal) = _ from v49_at5 m c,
    show (V5 m c main_v56 : S131072x64.Idx → EReal) = _ from v56_at5 m c, embed_at4 m c] at h
  exact ((upd_ne _ main_v57_1 main_v57_0 _ (by decide)).trans
    (Function.update_self (β := fun b : DevRef τ sig => Buf (Elt Ideal) ((c : Thread nD τ).1, b)) (Proc.devRef .tc main_v57_0) _ (W5 m c))).trans h

theorem decSum_at6 (c : Dev nD) :
    (W6 m c main_v57_1 : S131072.Idx → EReal)
      = Cert.Net.decSum μK (a0 m c) (a1 m c) (a2 m c) (a3 m c) (a4 m c) (a5 m c) (a6 m c) (a7 m c) (a8 m c) := by
  have h := final2_3 (V5 m) c
  rw [show (V5 m c main_v49 : S131072x64.Idx → EReal) = _ from v49_at5 m c,
    show (V5 m c main_v56 : S131072x64.Idx → EReal) = _ from v56_at5 m c, embed_at4 m c] at h
  exact (Function.update_self (β := fun b : DevRef τ sig => Buf (Elt Ideal) ((c : Thread nD τ).1, b)) (Proc.devRef .tc main_v57_1) _ _).trans h

/-! ## Region 3: the scores and their sign words -/

theorem embed_at6 (c : Dev nD) :
    (V6 m c main_v38 : S16384x64.Idx → EReal)
      = Cert.Net.embed μK (a0 m c) (a1 m c) (a3 m c) (a4 m c) (a5 m c) (a6 m c) (a7 m c) (a8 m c) :=
  (W6_of m c main_v38 (by decide) (by decide)).trans <| (W5_of m c main_v38 (by decide)).trans (embed_at4 m c)

theorem scores_at7 (c : Dev nD) :
    (W7 m c main_v58_0 : S16384x16384.Idx → EReal)
      = Cert.Net.scores μK (a0 m c) (a1 m c) (a3 m c) (a4 m c) (a5 m c) (a6 m c) (a7 m c) (a8 m c) := by
  have h := final3_2 (V6 m) c
  rw [embed_at6 m c] at h
  exact (h3_0 m c).trans h

theorem words_at7 (c : Dev nD) :
    (W7 m c main_v58_1 : S16384x16384.Idx → BitVec 32)
      = fun y => Cert.Spec.posWord (Cert.Spec.gramAt (Cert.Net.embed μK (a0 m c) (a1 m c) (a3 m c) (a4 m c) (a5 m c) (a6 m c) (a7 m c) (a8 m c)) (y 0) (y 1)) := by
  have h := final3_3 (V6 m) c
  rw [embed_at6 m c] at h
  exact (h3_1 m c).trans h

/-! ## The last host stretch: the sign bits -/

/-- Sign words compared with the zero word, entry by entry: the widened bit gives the bit back. The zero word spread over
    the 16384×16384 entries is read at an entry, not evaluated. -/
theorem signBits_of_words (Wd : S16384x16384.Idx → BitVec 32) (G : S16384x16384.Idx → EReal)
    (h : Wd = fun y => Cert.Spec.posWord (G y)) :
    (id (cmpi .ne Wd (broadcastInDim S16384x16384 ![] bcast_S_S16384x16384 (constantI S_ 32 0#32))) : S16384x16384.Idx → BitVec 1)
      = fun y => Cert.Spec.posBit (G y) := by
  subst h
  funext y
  show IntOp.cmpi .ne (Cert.Spec.posWord (G y)) (broadcastInDim S16384x16384 ![] bcast_S_S16384x16384 (constantI S_ 32 0#32) y) = _
  rw [broadcastInDim_apply _ bcast_S_S16384x16384 _ y ix0 (fun a => a.elim0)]
  exact Cert.Spec.ne_zero_posWord _

set_option maxHeartbeats 8000000 in
theorem signBits_at8 (c : Dev nD) :
    (W8 m c main_v61 : S16384x16384.Idx → BitVec 1)
      = Cert.Net.signBits μK (a0 m c) (a1 m c) (a3 m c) (a4 m c) (a5 m c) (a6 m c) (a7 m c) (a8 m c) := by
  show StableHlo.after hostOps4 (W7 m c) (Proc.devRef .tc main_v61) = _
  after_results
  exact signBits_of_words _ _ (words_at7 m c)

/-! ## The six results at the end -/

theorem res0 (c : Dev nD) : (W8 m c main_v25 : S16384x128.Idx → EReal) = Cert.Net.hidden μK (a0 m c) (a1 m c) (a3 m c) (a4 m c) (a5 m c) :=
  (W8_of m c main_v25 (by decide)).trans <| (W7_of m c main_v25 (by decide) (by decide)).trans <| (W6_of m c main_v25 (by decide) (by decide)).trans <|
    (W5_of m c main_v25 (by decide)).trans <| (W4_of m c main_v25 (by decide)).trans <| (W3_of m c main_v25 (by decide)).trans (hidden_at2 m c)
theorem res1 (c : Dev nD) : (W8 m c main_v38 : S16384x64.Idx → EReal)
    = Cert.Net.embed μK (a0 m c) (a1 m c) (a3 m c) (a4 m c) (a5 m c) (a6 m c) (a7 m c) (a8 m c) :=
  (W8_of m c main_v38 (by decide)).trans <| (W7_of m c main_v38 (by decide) (by decide)).trans (embed_at6 m c)
theorem res2 (c : Dev nD) : (W8 m c main_v57_0 : S131072x64.Idx → EReal)
    = Cert.Net.decProd μK (a0 m c) (a1 m c) (a2 m c) (a3 m c) (a4 m c) (a5 m c) (a6 m c) (a7 m c) (a8 m c) :=
  (W8_of m c main_v57_0 (by decide)).trans <| (W7_of m c main_v57_0 (by decide) (by decide)).trans (decProd_at6 m c)
theorem res3 (c : Dev nD) : (W8 m c main_v57_1 : S131072.Idx → EReal)
    = Cert.Net.decSum μK (a0 m c) (a1 m c) (a2 m c) (a3 m c) (a4 m c) (a5 m c) (a6 m c) (a7 m c) (a8 m c) :=
  (W8_of m c main_v57_1 (by decide)).trans <| (W7_of m c main_v57_1 (by decide) (by decide)).trans (decSum_at6 m c)
theorem res4 (c : Dev nD) : (W8 m c main_v58_0 : S16384x16384.Idx → EReal)
    = Cert.Net.scores μK (a0 m c) (a1 m c) (a3 m c) (a4 m c) (a5 m c) (a6 m c) (a7 m c) (a8 m c) :=
  (W8_of m c main_v58_0 (by decide)).trans (scores_at7 m c)

/-! ## The run with its results named -/

/-- Every weakly fair execution of the idealized kernel program terminates, nothing faulting, with each result at the
    network's function of the arguments (at the product-with-reciprocal row-mean) and every argument as launched. -/
theorem results (ρ : Dev nD → PrngReg) :
    θ_run defs (onTc (τ := τ) (main (F := Ideal))) ⟨m, fun _ => 0, ρ⟩ (fun r => ∀ c : Dev nD,
      r.2.mem ((c.tc : Thread nD τ).loc main_v25) = Cert.Net.hidden μK (a0 m c) (a1 m c) (a3 m c) (a4 m c) (a5 m c)
      ∧ r.2.mem ((c.tc : Thread nD τ).loc main_v38) = Cert.Net.embed μK (a0 m c) (a1 m c) (a3 m c) (a4 m c) (a5 m c) (a6 m c) (a7 m c) (a8 m c)
      ∧ r.2.mem ((c.tc : Thread nD τ).loc main_v57_0) = Cert.Net.decProd μK (a0 m c) (a1 m c) (a2 m c) (a3 m c) (a4 m c) (a5 m c) (a6 m c) (a7 m c) (a8 m c)
      ∧ r.2.mem ((c.tc : Thread nD τ).loc main_v57_1) = Cert.Net.decSum μK (a0 m c) (a1 m c) (a2 m c) (a3 m c) (a4 m c) (a5 m c) (a6 m c) (a7 m c) (a8 m c)
      ∧ r.2.mem ((c.tc : Thread nD τ).loc main_v58_0) = Cert.Net.scores μK (a0 m c) (a1 m c) (a3 m c) (a4 m c) (a5 m c) (a6 m c) (a7 m c) (a8 m c)
      ∧ r.2.mem ((c.tc : Thread nD τ).loc main_v61) = Cert.Net.signBits μK (a0 m c) (a1 m c) (a3 m c) (a4 m c) (a5 m c) (a6 m c) (a7 m c) (a8 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v25 (by decide))).trans (res0 m c),
     (h c _ (mem_uc main_v38 (by decide))).trans (res1 m c),
     (h c _ (mem_uc main_v57_0 (by decide))).trans (res2 m c),
     (h c _ (mem_uc main_v57_1 (by decide))).trans (res3 m c),
     (h c _ (mem_uc main_v58_0 (by decide))).trans (res4 m c),
     (h c _ (mem_uc main_v61 (by decide))).trans (signBits_at8 m c),
     (h c _ (mem_uc main_arg0 (by decide))).trans (kept m c main_arg0 (by decide) (by decide) (by decide) (by decide) (by decide)),
     (h c _ (mem_uc main_arg1 (by decide))).trans (kept m c main_arg1 (by decide) (by decide) (by decide) (by decide) (by decide)),
     (h c _ (mem_uc main_arg2 (by decide))).trans (kept m c main_arg2 (by decide) (by decide) (by decide) (by decide) (by decide)),
     (h c _ (mem_uc main_arg3 (by decide))).trans (kept m c main_arg3 (by decide) (by decide) (by decide) (by decide) (by decide)),
     (h c _ (mem_uc main_arg4 (by decide))).trans (kept m c main_arg4 (by decide) (by decide) (by decide) (by decide) (by decide)),
     (h c _ (mem_uc main_arg5 (by decide))).trans (kept m c main_arg5 (by decide) (by decide) (by decide) (by decide) (by decide)),
     (h c _ (mem_uc main_arg6 (by decide))).trans (kept m c main_arg6 (by decide) (by decide) (by decide) (by decide) (by decide)),
     (h c _ (mem_uc main_arg7 (by decide))).trans (kept m c main_arg7 (by decide) (by decide) (by decide) (by decide) (by decide)),
     (h c _ (mem_uc main_arg8 (by decide))).trans (kept m c main_arg8 (by decide) (by decide) (by decide) (by decide) (by decide))⟩)
    (run_all m ρ)

end Cert.KernelIdeal.Fr

end
-- ==== Proof.Ref.lean ====
/-
  The reference's six results, one operation at a time, are the network's functions at the reference's row-mean (the
  segment sum DIVIDED by the clamped degree): its matrix products and its channel sum read entry by entry as sums over k,
  its bias as a row spread over the nodes, its relu as the maximum with zero; its gathers and segment sums are the shared
  host chain, carried unopened.
-/
import proofs.«114604_j2405181685928_1_alg».proof.Proof.Gen.ReferenceIdeal.Run
import proofs.«114604_j2405181685928_1_alg».proof.Proof.Gen.ReferenceIdeal.Read
import proofs.«114604_j2405181685928_1_alg».proof.Proof.Net
import proofs.«114604_j2405181685928_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

variable (x0 : (⟨S16384x128, .f32⟩ : BufTy).Contents (Elt Ideal)) (x1 : (⟨S2x524288, .i32⟩ : BufTy).Contents (Elt Ideal))
  (x2 : (⟨S2x131072, .i32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal))
  (x6 : (⟨S128x64, .f32⟩ : BufTy).Contents (Elt Ideal)) (x7 : (⟨S64, .f32⟩ : BufTy).Contents (Elt Ideal))
  (x8 : (⟨S128x64, .f32⟩ : BufTy).Contents (Elt Ideal))

/-- The reference's first row-mean is the shared one: the same operations composed in the same order. -/
theorem mean1_eq : val_main_v22 (F := Ideal) x0 x1 = Cert.Chain.meanDiv x0 x1 := rfl

/-- The hidden features. -/
theorem out0 : val_main_v29 (F := Ideal) x0 x1 x3 x4 x5 = Cert.Net.hidden Cert.Chain.meanDiv x0 x1 x3 x4 x5 := by
  funext i
  obtain ⟨p, q, rfl⟩ : ∃ (p : Fin 16384) (q : Fin 128), i = ix2 p q := ⟨i 0, i 1, eq_ix2 i⟩
  have hl (k : Fin 128) : lidx_main_v23 (ix2 p q) k = ix2 p k :=
    funext fun a => Fin.ext (by match a with | ⟨0, _⟩ => rfl | ⟨1, _⟩ => rfl)
  have hr (k : Fin 128) : ridx_main_v23 (ix2 p q) k = ix2 k q :=
    funext fun a => Fin.ext (by match a with | ⟨0, _⟩ => rfl | ⟨1, _⟩ => rfl)
  have hl' (k : Fin 128) : lidx_main_v27 (ix2 p q) k = ix2 p k :=
    funext fun a => Fin.ext (by match a with | ⟨0, _⟩ => rfl | ⟨1, _⟩ => rfl)
  have hr' (k : Fin 128) : ridx_main_v27 (ix2 p q) k = ix2 k q :=
    funext fun a => Fin.ext (by match a with | ⟨0, _⟩ => rfl | ⟨1, _⟩ => rfl)
  have hb : idx_main_v24 (idx_main_v25 (ix2 p q)) = ix1 q :=
    funext fun a => Fin.ext (by match a with | ⟨0, _⟩ => rfl)
  rw [val_main_v29_apply, val_main_v28_apply, val_main_v26_apply, val_main_v23_apply, val_main_v27_apply,
    val_main_v25_apply, val_main_v24_apply, val_main_call0_v0_apply, val_main_call0_cst_apply]
  simp only [hl, hr, hl', hr', hb, mean1_eq, Ideal.maximumf_def, Ideal.addf_def, Ideal.ofBits_def, Ideal.ofBits_zero_f32]
  exact congrArg (max · 0) (add_right_comm _ _ _)

/-- The reference's second row-mean is the shared one, taken of the hidden features. -/
theorem mean2_eq : val_main_v48 (F := Ideal) x0 x1 x3 x4 x5
    = Cert.Chain.meanDiv (val_main_v29 (F := Ideal) x0 x1 x3 x4 x5) x1 := rfl

/-- The embedding. -/
theorem out1 : val_main_v54 (F := Ideal) x0 x1 x3 x4 x5 x6 x7 x8 = Cert.Net.embed Cert.Chain.meanDiv x0 x1 x3 x4 x5 x6 x7 x8 := by
  funext i
  obtain ⟨p, q, rfl⟩ : ∃ (p : Fin 16384) (q : Fin 64), i = ix2 p q := ⟨i 0, i 1, eq_ix2 i⟩
  have hl (k : Fin 128) : lidx_main_v49 (ix2 p q) k = ix2 p k :=
    funext fun a => Fin.ext (by match a with | ⟨0, _⟩ => rfl | ⟨1, _⟩ => rfl)
  have hr (k : Fin 128) : ridx_main_v49 (ix2 p q) k = ix2 k q :=
    funext fun a => Fin.ext (by match a with | ⟨0, _⟩ => rfl | ⟨1, _⟩ => rfl)
  have hl' (k : Fin 128) : lidx_main_v53 (ix2 p q) k = ix2 p k :=
    funext fun a => Fin.ext (by match a with | ⟨0, _⟩ => rfl | ⟨1, _⟩ => rfl)
  have hr' (k : Fin 128) : ridx_main_v53 (ix2 p q) k = ix2 k q :=
    funext fun a => Fin.ext (by match a with | ⟨0, _⟩ => rfl | ⟨1, _⟩ => rfl)
  have hb : idx_main_v50 (idx_main_v51 (ix2 p q)) = ix1 q :=
    funext fun a => Fin.ext (by match a with | ⟨0, _⟩ => rfl)
  rw [val_main_v54_apply, val_main_v52_apply, val_main_v49_apply, val_main_v53_apply, val_main_v51_apply, val_main_v50_apply]
  simp only [hl, hr, hl', hr', hb, mean2_eq, out0, Ideal.addf_def]
  exact add_right_comm _ _ _

/-- The reference's two gathers of the embedding's rows are the shared ones, at the label edges' two endpoints. -/
theorem rows0_eq : val_main_v63 (F := Ideal) x0 x1 x2 x3 x4 x5 x6 x7 x8
    = Cert.Chain.endRows0 (val_main_v54 (F := Ideal) x0 x1 x3 x4 x5 x6 x7 x8) x2 := rfl
theorem rows1_eq : val_main_v72 (F := Ideal) x0 x1 x2 x3 x4 x5 x6 x7 x8
    = Cert.Chain.endRows1 (val_main_v54 (F := Ideal) x0 x1 x3 x4 x5 x6 x7 x8) x2 := rfl

/-- The decoder's products. -/
theorem out2 : val_main_v73 (F := Ideal) x0 x1 x2 x3 x4 x5 x6 x7 x8 = Cert.Net.decProd Cert.Chain.meanDiv x0 x1 x2 x3 x4 x5 x6 x7 x8 := by
  funext i
  obtain ⟨e, k, rfl⟩ : ∃ (e : Fin 131072) (k : Fin 64), i = ix2 e k := ⟨i 0, i 1, eq_ix2 i⟩
  rw [val_main_v73_apply]
  simp only [rows0_eq, rows1_eq, out1, Ideal.mulf_def]
  rfl

/-- The decoder's sums. -/
theorem out3 : val_main_v74 (F := Ideal) x0 x1 x2 x3 x4 x5 x6 x7 x8 = Cert.Net.decSum Cert.Chain.meanDiv x0 x1 x2 x3 x4 x5 x6 x7 x8 := by
  funext i
  obtain ⟨e, rfl⟩ : ∃ e : Fin 131072, i = ix1 e := ⟨i 0, eq_ix1 i⟩
  have hk (k : Fin 64) : idx_main_v74 (ix1 e) k = ix2 e k :=
    funext fun a => Fin.ext (by match a with | ⟨0, _⟩ => rfl | ⟨1, _⟩ => rfl)
  rw [val_main_v74_apply, val_main_cst_14_apply]
  simp only [hk, out2, Ideal.ofBits_def, Ideal.ofBits_zero_f32, zero_add]
  rfl

/-- The dense scores. -/
theorem out4 : val_main_v76 (F := Ideal) x0 x1 x3 x4 x5 x6 x7 x8 = Cert.Net.scores Cert.Chain.meanDiv x0 x1 x3 x4 x5 x6 x7 x8 := by
  funext i
  obtain ⟨p, q, rfl⟩ : ∃ (p : Fin 16384) (q : Fin 16384), i = ix2 p q := ⟨i 0, i 1, eq_ix2 i⟩
  have hl (k : Fin 64) : lidx_main_v76 (ix2 p q) k = ix2 p k :=
    funext fun a => Fin.ext (by match a with | ⟨0, _⟩ => rfl | ⟨1, _⟩ => rfl)
  have hr (k : Fin 64) : idx_main_v75 (ridx_main_v76 (ix2 p q) k) = ix2 q k :=
    funext fun a => Fin.ext (by match a with | ⟨0, _⟩ => rfl | ⟨1, _⟩ => rfl)
  rw [val_main_v76_apply]
  simp only [val_main_v75_apply, hl, hr, out1]
  rfl

/-- The sign bits. -/
theorem out5 : val_main_v78 (F := Ideal) x0 x1 x3 x4 x5 x6 x7 x8 = Cert.Net.signBits Cert.Chain.meanDiv x0 x1 x3 x4 x5 x6 x7 x8 := by
  funext i
  rw [val_main_v78_apply, val_main_v77_apply, val_main_cst_15_apply, out4]
  rfl

end Cert.ReferenceIdeal.RefValue

end
-- ==== Proof.lean ====
/-
  The certificate of the two-layer SAGE network with an edge decoder and dense scores: a program of four kernel regions
  (two linear layers, the decoder, the scores with their sign words) among host stretches that gather neighbours' features
  and sum them per node, against the plain array program.

  Frames. Each kernel program runs as eight items — host stretches and regions in order —; between two items a core holds
  every unscoped buffer at a known valuation, and the arguments are walked back through the items to the launch memory
  (Proof/K/Frame.lean at the word level, Proof/KI/Frame.lean idealized). The reference's frame is its generated run with
  the results dropped.

  Values. At the ideal instance every region's output array is one function of the arrays it is entered with
  (Proof/KI/Val0 … Val3: the blocks written at the grid points cover the array), so the six results are the network's
  functions of the arguments (Proof/KI/Values.lean), the row-mean being the segment sum TIMES the reciprocal of the clamped
  in-degree. The reference's results are the same functions with the row-mean the segment sum DIVIDED by the clamped
  in-degree (Proof/Ref.lean). The clamped degree is at least one, so the two means are one function (Proof/Net.lean), and
  the results agree entry by entry. Nothing needs the inputs to be finite: the two sides differ by the order of three
  addends and by that quotient, and both identities hold on all extended reals.
-/
import proofs.«114604_j2405181685928_1_alg».proof.Defs
import proofs.«114604_j2405181685928_1_alg».proof.Proof.Gen.Kernel
import proofs.«114604_j2405181685928_1_alg».proof.Proof.Gen.KernelIdeal
import proofs.«114604_j2405181685928_1_alg».proof.Proof.Gen.ReferenceIdeal
import proofs.«114604_j2405181685928_1_alg».proof.Proof.Gen.Pre_finite_inputs
import proofs.«114604_j2405181685928_1_alg».proof.Proof.Gen.ReferenceIdeal.Run
import proofs.«114604_j2405181685928_1_alg».proof.Proof.Gen.ReferenceIdeal.Read
import proofs.«114604_j2405181685928_1_alg».proof.Proof.K.Frame
import proofs.«114604_j2405181685928_1_alg».proof.Proof.KI.Values
import proofs.«114604_j2405181685928_1_alg».proof.Proof.Ref
import proofs.«114604_j2405181685928_1_alg».proof.Proof.Net
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Fr.frame m ρ

theorem frame_ki : Cert.frame_KernelIdeal (hKernelIdeal := Cert.KernelIdeal.Gen.facts) (hPre_finite_inputs := Cert.Pre_finite_inputs.Gen.facts) :=
  fun m ρ _ => Cert.KernelIdeal.Fr.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2.2.2)
    (Cert.ReferenceIdeal.Value.run (F := Ideal) m ρ)

set_option maxHeartbeats 4000000 in
/-- Both idealized programs end at the network's six functions of arguments that agree; the two row-means are one. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, _, _, _, _, Cert.KernelIdeal.Fr.results m ρ, ?_⟩
  refine (θ_run Cert.ReferenceIdeal.defs _ _).mono (fun r h c => ?_) (Cert.ReferenceIdeal.Value.run (F := Ideal) m' ρ')
  obtain ⟨h0, h1, h2, h3, h4, h5, hargs⟩ := h c
  obtain ⟨e0, e1, e2, e3, e4, e5, e6, e7, e8⟩ := hagree c
  refine ⟨?_, ?_, ?_, ?_, ?_, ?_, hargs⟩
  · rw [h0, Cert.ReferenceIdeal.Read.val_main_v29_eq, Cert.ReferenceIdeal.RefValue.out0, e0, e1, e3, e4, e5,
      ← Cert.Net.meanMul_eq_meanDiv]
  · rw [h1, Cert.ReferenceIdeal.Read.val_main_v54_eq, Cert.ReferenceIdeal.RefValue.out1, e0, e1, e3, e4, e5, e6, e7, e8,
      ← Cert.Net.meanMul_eq_meanDiv]
  · rw [h2, Cert.ReferenceIdeal.Read.val_main_v73_eq, Cert.ReferenceIdeal.RefValue.out2, e0, e1, e2, e3, e4, e5, e6, e7, e8,
      ← Cert.Net.meanMul_eq_meanDiv]
  · rw [h3, Cert.ReferenceIdeal.Read.val_main_v74_eq, Cert.ReferenceIdeal.RefValue.out3, e0, e1, e2, e3, e4, e5, e6, e7, e8,
      ← Cert.Net.meanMul_eq_meanDiv]
  · rw [h4, Cert.ReferenceIdeal.Read.val_main_v76_eq, Cert.ReferenceIdeal.RefValue.out4, e0, e1, e3, e4, e5, e6, e7, e8,
      ← Cert.Net.meanMul_eq_meanDiv]
  · rw [h5, Cert.ReferenceIdeal.Read.val_main_v78_eq, Cert.ReferenceIdeal.RefValue.out5, e0, e1, e3, e4, e5, e6, e7, e8,
      ← Cert.Net.meanMul_eq_meanDiv]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
